-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x136 : Shape := ⟨2, ![500000, 136]⟩
abbrev S500000 : Shape := ⟨1, ![500000]⟩
abbrev S1000000 : Shape := ⟨1, ![1000000]⟩
abbrev S136x256 : Shape := ⟨2, ![136, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S500000x136 : S_.BroadcastsInDim S500000x136 (![] : Fin 0 → Fin S500000x136.rank)
  reducesTo_S500000x136_S_d0_1 : S500000x136.ReducesTo [0, 1] S_
  h_S_ : 0 < S_.numel
  bcast_S_S136x256 : S_.BroadcastsInDim S136x256 (![] : Fin 0 → Fin S136x256.rank)
  reducesTo_S136x256_S_d0_1 : S136x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg1 : IVec S500000 32) (main_v47 : IVec S_ 1) (main_v49 : IVec S500000 1) (main_c_19 : IVec S_ 32) : IVec S_ 1 :=
  let main_v50 : IVec S500000 32 := broadcastInDim S500000 ![] bcast_S_S500000 main_c_19
  let main_v51 : IVec S500000 1 := cmpi .slt main_arg1 main_v50
  let main_v52 : IVec S500000 1 := andi main_v49 main_v51
  let main_c_20 : IVec S_ 1 := constantI S_ 1 1#1
  let main_v53 : IVec S_ 1 := (fun x v => Host.reduce IntOp.andi x v reducesTo_S500000_S_d0 h_S_) main_v52 main_c_20
  let main_v54 : IVec S_ 1 := andi main_v47 main_v53
  main_v54

def fn_part2 {F : FTy → Type} [FloatOps F] (main_arg1 : IVec S500000 32) (main_arg2 : IVec S1000000 32) (main_arg3 : IVec S1000000 32) (main_v33 : IVec S_ 1) : IVec S_ 1 :=
  let main_c_12 : IVec S_ 32 := constantI S_ 32 4294467296#32
  let main_v34 : IVec S1000000 32 := broadcastInDim S1000000 ![] bcast_S_S1000000 main_c_12
  let main_v35 : IVec S1000000 1 := cmpi .sge main_arg2 main_v34
  let main_c_13 : IVec S_ 32 := constantI S_ 32 500000#32
  let main_v36 : IVec S1000000 32 := broadcastInDim S1000000 ![] bcast_S_S1000000 main_c_13
  let main_v37 : IVec S1000000 1 := cmpi .slt main_arg2 main_v36
  let main_v38 : IVec S1000000 1 := andi main_v35 main_v37
  let main_c_14 : IVec S_ 1 := constantI S_ 1 1#1
  let main_v39 : IVec S_ 1 := (fun x v => Host.reduce IntOp.andi x v reducesTo_S1000000_S_d0 h_S_) main_v38 main_c_14
  let main_v40 : IVec S_ 1 := andi main_v33 main_v39
  let main_c_15 : IVec S_ 32 := constantI S_ 32 4294467296#32
  let main_v41 : IVec S1000000 32 := broadcastInDim S1000000 ![] bcast_S_S1000000 main_c_15
  let main_v42 : IVec S1000000 1 := cmpi .sge main_arg3 main_v41
  let main_c_16 : IVec S_ 32 := constantI S_ 32 500000#32
  let main_v43 : IVec S1000000 32 := broadcastInDim S1000000 ![] bcast_S_S1000000 main_c_16
  let main_v44 : IVec S1000000 1 := cmpi .slt main_arg3 main_v43
  let main_v45 : IVec S1000000 1 := andi main_v42 main_v44
  let main_c_17 : IVec S_ 1 := constantI S_ 1 1#1
  let main_v46 : IVec S_ 1 := (fun x v => Host.reduce IntOp.andi x v reducesTo_S1000000_S_d0 h_S_) main_v45 main_c_17
  let main_v47 : IVec S_ 1 := andi main_v40 main_v46
  let main_c_18 : IVec S_ 32 := constantI S_ 32 3221225472#32
  let main_v48 : IVec S500000 32 := broadcastInDim S500000 ![] bcast_S_S500000 main_c_18
  let main_v49 : IVec S500000 1 := cmpi .sge main_arg1 main_v48
  let main_c_19 : IVec S_ 32 := constantI S_ 32 1073741824#32
  fn_part3 (F := F) main_arg1 main_v47 main_v49 main_c_19

def fn_part1 {F : FTy → Type} [FloatOps F] (main_arg1 : IVec S500000 32) (main_arg2 : IVec S1000000 32) (main_arg3 : IVec S1000000 32) (main_arg7 : FVec F S128 .f32) (main_arg8 : FVec F S128x1 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_arg3 main_v33

def fn {F : FTy → Type} [FloatOps F] (main_arg0 : FVec F S500000x136 .f32) (main_arg1 : IVec S500000 32) (main_arg2 : IVec S1000000 32) (main_arg3 : IVec S1000000 32) (main_arg4 : FVec F S136x256 .f32) (main_arg5 : FVec F S256 .f32) (main_arg6 : FVec F S256x128 .f32) (main_arg7 : FVec F S128 .f32) (main_arg8 : FVec F S128x1 .f32) (main_arg9 : FVec F S1 .f32) : IVec S_ 1 :=
  let main_v0 : FVec F S500000x136 .f32 := Host.absf main_arg0
  let main_cst : FVec F S_ .f32 := constant S_ .f32 0x7F800000#32
  let main_v1 : FVec F S500000x136 .f32 := broadcastInDim S500000x136 ![] bcast_S_S500000x136 main_cst
  let main_v2 : IVec S500000x136 1 := cmpf .olt main_v0 main_v1
  let main_c : IVec S_ 1 := constantI S_ 1 1#1
  let main_v3 : IVec S_ 1 := (fun x v => Host.reduce IntOp.andi x v reducesTo_S500000x136_S_d0_1 h_S_) main_v2 main_c
  let main_v4 : FVec F S136x256 .f32 := Host.absf main_arg4
  let main_cst_0 : FVec F S_ .f32 := constant S_ .f32 0x7F800000#32
  let main_v5 : FVec F S136x256 .f32 := broadcastInDim S136x256 ![] bcast_S_S136x256 main_cst_0
  let main_v6 : IVec S136x256 1 := cmpf .olt main_v4 main_v5
  let main_c_1 : IVec S_ 1 := constantI S_ 1 1#1
  let main_v7 : IVec S_ 1 := (fun x v => Host.reduce IntOp.andi x v reducesTo_S136x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg3 main_arg7 main_arg8 main_arg9 main_v13 main_v16
-- ==== Kernel.lean ====
abbrev S500000x136 : Shape := ⟨2, ![500000, 136]⟩
abbrev S500000 : Shape := ⟨1, ![500000]⟩
abbrev S1000000 : Shape := ⟨1, ![1000000]⟩
abbrev S136x256 : Shape := ⟨2, ![136, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S500000x1 : Shape := ⟨2, ![500000, 1]⟩
abbrev S5000x136 : Shape := ⟨2, ![5000, 136]⟩
abbrev S5000x1 : Shape := ⟨2, ![5000, 1]⟩
abbrev S5000x256 : Shape := ⟨2, ![5000, 256]⟩
abbrev S1x256 : Shape := ⟨2, ![1, 256]⟩
abbrev S5000x128 : Shape := ⟨2, ![5000, 128]⟩
abbrev S1x128 : Shape := ⟨2, ![1, 128]⟩
abbrev S1x1 : Shape := ⟨2, ![1, 1]⟩
abbrev S500000x2 : Shape := ⟨2, ![500000, 2]⟩
abbrev S_ : Shape := ⟨0, ![]⟩
abbrev S1000000x1 : Shape := ⟨2, ![1000000, 1]⟩
abbrev S1000000x2 : Shape := ⟨2, ![1000000, 2]⟩
abbrev S1048576 : Shape := ⟨1, ![1048576]⟩
abbrev S8192x128 : Shape := ⟨2, ![8192, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 90
  | .vmem => 19
  | .smem => 0
  | _ => 0

abbrev bufTy : (tb : Table) → Fin (tcTables nBuf tb) → BufTy
  | .hbm, ⟨0, _⟩ => ⟨S500000x136, .f32⟩
  | .hbm, ⟨1, _⟩ => ⟨S500000, .i32⟩
  | .hbm, ⟨2, _⟩ => ⟨S1000000, .i32⟩
  | .hbm, ⟨3, _⟩ => ⟨S1000000, .i32⟩
  | .hbm, ⟨4, _⟩ => ⟨S136x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S500000x1, .f32⟩
  | .hbm, ⟨11, _⟩ => ⟨S500000, .f32⟩
  | .hbm, ⟨12, _⟩ => ⟨S500000, .f32⟩
  | .hbm, ⟨13, _⟩ => ⟨S500000x1, .f32⟩
  | .hbm, ⟨14, _⟩ => ⟨S500000x1, .f32⟩
  | .hbm, ⟨15, _⟩ => ⟨S500000x2, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1, .i32⟩
  | .hbm, ⟨25, _⟩ => ⟨S_, .i32⟩
  | .hbm, ⟨26, _⟩ => ⟨S1000000x1, .i32⟩
  | .hbm, ⟨27, _⟩ => ⟨S1000000x1, .i1⟩
  | .hbm, ⟨28, _⟩ => ⟨S1x1, .i32⟩
  | .hbm, ⟨29, _⟩ => ⟨S1000000x1, .i32⟩
  | .hbm, ⟨30, _⟩ => ⟨S1000000x1, .i1⟩
  | .hbm, ⟨31, _⟩ => ⟨S1000000x1, .i1⟩
  | .hbm, ⟨32, _⟩ => ⟨S_, .i1⟩
  | .hbm, ⟨33, _⟩ => ⟨S1000000, .i1⟩
  | .hbm, ⟨34, _⟩ => ⟨S1000000x2, .f32⟩
  | .hbm, ⟨35, _⟩ => ⟨S1000000x2, .i1⟩
  | .hbm, ⟨36, _⟩ => ⟨S_, .f32⟩
  | .hbm, ⟨37, _⟩ => ⟨S1000000x2, .f32⟩
  | .hbm, ⟨38, _⟩ => ⟨S1000000x2, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1, .i32⟩
  | .hbm, ⟨48, _⟩ => ⟨S_, .i32⟩
  | .hbm, ⟨49, _⟩ => ⟨S1000000x1, .i32⟩
  | .hbm, ⟨50, _⟩ => ⟨S1000000x1, .i1⟩
  | .hbm, ⟨51, _⟩ => ⟨S1x1, .i32⟩
  | .hbm, ⟨52, _⟩ => ⟨S1000000x1, .i32⟩
  | .hbm, ⟨53, _⟩ => ⟨S1000000x1, .i1⟩
  | .hbm, ⟨54, _⟩ => ⟨S1000000x1, .i1⟩
  | .hbm, ⟨55, _⟩ => ⟨S_, .i1⟩
  | .hbm, ⟨56, _⟩ => ⟨S1000000, .i1⟩
  | .hbm, ⟨57, _⟩ => ⟨S1000000x2, .f32⟩
  | .hbm, ⟨58, _⟩ => ⟨S1000000x2, .i1⟩
  | .hbm, ⟨59, _⟩ => ⟨S_, .f32⟩
  | .hbm, ⟨60, _⟩ => ⟨S1000000x2, .f32⟩
  | .hbm, ⟨61, _⟩ => ⟨S1000000x2, .f32⟩
  | .hbm, ⟨62, _⟩ => ⟨S1000000x1, .f32⟩
  | .hbm, ⟨63, _⟩ => ⟨S1000000, .f32⟩
  | .hbm, ⟨64, _⟩ => ⟨S1000000x1, .f32⟩
  | .hbm, ⟨65, _⟩ => ⟨S1000000, .f32⟩
  | .hbm, ⟨66, _⟩ => ⟨S1000000x1, .f32⟩
  | .hbm, ⟨67, _⟩ => ⟨S1000000, .f32⟩
  | .hbm, ⟨68, _⟩ => ⟨S1000000x1, .f32⟩
  | .hbm, ⟨69, _⟩ => ⟨S1000000, .f32⟩
  | .hbm, ⟨70, _⟩ => ⟨S1000000, .f32⟩
  | .hbm, ⟨71, _⟩ => ⟨S1000000, .f32⟩
  | .hbm, ⟨72, _⟩ => ⟨S_, .i32⟩
  | .hbm, ⟨73, _⟩ => ⟨S_, .f32⟩
  | .hbm, ⟨74, _⟩ => ⟨S1048576, .f32⟩
  | .hbm, ⟨75, _⟩ => ⟨S_, .i32⟩
  | .hbm, ⟨76, _⟩ => ⟨S_, .f32⟩
  | .hbm, ⟨77, _⟩ => ⟨S1048576, .f32⟩
  | .hbm, ⟨78, _⟩ => ⟨S_, .i32⟩
  | .hbm, ⟨79, _⟩ => ⟨S_, .f32⟩
  | .hbm, ⟨80, _⟩ => ⟨S1048576, .f32⟩
  | .hbm, ⟨81, _⟩ => ⟨S8192x128, .f32⟩
  | .hbm, ⟨82, _⟩ => ⟨S8192x128, .f32⟩
  | .hbm, ⟨83, _⟩ => ⟨S8192x128, .f32⟩
  | .hbm, ⟨84, _⟩ => ⟨S1x256, .f32⟩
  | .hbm, ⟨85, _⟩ => ⟨S1x1, .f32⟩
  | .hbm, ⟨86, _⟩ => ⟨S_, .f32⟩
  | .hbm, ⟨87, _⟩ => ⟨S1x1, .f32⟩
  | .hbm, ⟨88, _⟩ => ⟨S_, .f32⟩
  | .hbm, ⟨89, _⟩ => ⟨S_, .f32⟩
  | .local _ .vmem, ⟨0, _⟩ => ⟨S5000x136, .f32⟩
  | .local _ .vmem, ⟨1, _⟩ => ⟨S5000x136, .f32⟩
  | .local _ .vmem, ⟨2, _⟩ => ⟨S136x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S5000x1, .f32⟩
  | .local _ .vmem, ⟨9, _⟩ => ⟨S5000x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x128, .f32⟩
  | .local _ .vmem, ⟨17, _⟩ => ⟨S1x128, .f32⟩
  | .local _ .vmem, ⟨18, _⟩ => ⟨S1x1, .f32⟩
  | _, _ => ⟨S500000x136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v6 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_c : Ref sig .tc := ⟨.hbm, 72, rfl⟩
abbrev main_call2_v0 : Ref sig .tc := ⟨.hbm, 73, rfl⟩
abbrev main_v18 : Ref sig .tc := ⟨.hbm, 74, rfl⟩
abbrev main_c_0 : Ref sig .tc := ⟨.hbm, 75, rfl⟩
abbrev main_call3_v0 : Ref sig .tc := ⟨.hbm, 76, rfl⟩
abbrev main_v19 : Ref sig .tc := ⟨.hbm, 77, rfl⟩
abbrev main_c_1 : Ref sig .tc := ⟨.hbm, 78, rfl⟩
abbrev main_call4_v0 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S136x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_18 : BitVec 32 := 0#32
  let v53 : BitVec 1 := Scalar.cmpi .ne v52 c0_i32_18
  v53

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S5000x136_S5000x136_0_0 : ∀ a, (![0, 0] : Fin 2 → Nat) a + S5000x136.size a ≤ S5000x136.size a
  h_S5000x136 : 0 < S5000x136.numel
  bitsLt_bf16_f32 : FTy.bits .bf16 < FTy.bits .f32
  inb_S136x256_S136x256_0_0 : ∀ a, (![0, 0] : Fin 2 → Nat) a + S136x256.size a ≤ S136x256.size a
  h_S136x256 : 0 < S136x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x2_0 : S1000000.BroadcastsInDim S1000000x2 (![0] : Fin 1 → Fin S1000000x2.rank)
  bcast_S_S1000000x2 : S_.BroadcastsInDim S1000000x2 (![] : Fin 0 → Fin S1000000x2.rank)
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  pads_S1000000_S1048576_0485760 : S1000000.Pads (![0] : Fin 1 → Nat) ![48576] ![0] S1048576
  shapeCasts_S1048576_S8192x128 : S1048576.ShapeCasts S8192x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x128_d0_w32 : S1024x128.Iotas .tc 32 [0]
  iota_S1024x128_d1_w32 : S1024x128.Iotas .tc 32 [1]
  reduces_S1024x128_S1024 : S1024x128.Reduces [1] S1024
  shapeCasts_S1024_S1024x1 : S1024.ShapeCasts S1024x1
  reduces_S1024x1_S1 : S1024x1.Reduces [0] S1
  broadcasts_S1x1_S1x128 : S1x1.Broadcasts S1x128
  inb_S1x128_S1x128_0_0 : ∀ a, (![0, 0] : Fin 2 → Nat) a + S1x128.size a ≤ S1x128.size a
  h_S1x128 : 0 < S1x128.numel
  slices_S1x256_S1x1_0_0 : S1x256.Slices ![0, 0] S1x1
  shapeCasts_S1x1_S_ : S1x1.ShapeCasts S_
  slices_S1x256_S1x1_0_128 : S1x256.Slices ![0, 128] S1x1
  dot_S5000x136_S136x256_S5000x256_1_0_0_1_n_n_wf : DotDims.WF S5000x136 S136x256 S5000x256 [1] [0] [0] [1] [] []
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  gather_S500000x2_S1000000x1_S1000000x2_1_0_n_n_0_1_12_wf : GatherDims.WF S500000x2 S1000000x1 S1000000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x136.size a ≤ S500000x136.size a
  hwx0_0 : ∀ i : grid0.Coords, EltTy.bits .f32 = 32 ∨ (Rect.block (s := S500000x136) S5000x136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S136x256.size a ≤ S136x256.size a
  hwx0_1 : ∀ i : grid0.Coords, EltTy.bits .f32 = 32 ∨ (Rect.block (s := S136x256) S136x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S500000x1.size a
  hwx0_7 : ∀ i : grid0.Coords, EltTy.bits .f32 = 32 ∨ (Rect.block (s := S500000x1) S5000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x256.size a
  hwx1_3 : ∀ i : grid1.Coords, EltTy.bits .f32 = 32 ∨ (Rect.block (s := S1x256) S1x128.size (cc1_transform_3 i) (hinb1_3 i)).WholeWords (EltTy.packing .f32)

variable [Facts₀]

def dot_S5000x136_S136x256_S5000x256_1_0_0_1_n_n : DotDims S5000x136 S136x256 S5000x256 where
  lhsContracting := [1]
  rhsContracting := [0]
  lhsNonContracting := [0]
  rhsNonContracting := [1]
  lhsBatch := []
  rhsBatch := []
  wf := dot_S5000x136_S136x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S500000x2_S1000000x1_S1000000x2_1_0_n_n_0_1_12 : GatherDims S500000x2 S1000000x1 S1000000x2 where
  offsetDims := [1]
  collapsedSliceDims := [0]
  operandBatchingDims := []
  startIndicesBatchingDims := []
  startIndexMap := [0]
  indexVectorDim := 1
  sliceSizes := ![1, 2]
  wf := gather_S500000x2_S1000000x1_S1000000x2_1_0_n_n_0_1_12_wf

abbrev win0_0 : Pipeline.Window sig grid0 :=
  Pipeline.Window.ofSpec (Memref.whole main_arg0) S5000x136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S136x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S500000x136 : Shape := ⟨2, ![500000, 136]⟩
abbrev S500000 : Shape := ⟨1, ![500000]⟩
abbrev S1000000 : Shape := ⟨1, ![1000000]⟩
abbrev S136x256 : Shape := ⟨2, ![136, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S500000x256 : Shape := ⟨2, ![500000, 256]⟩
abbrev S1x256 : Shape := ⟨2, ![1, 256]⟩
abbrev S_ : Shape := ⟨0, ![]⟩
abbrev S500000x128 : Shape := ⟨2, ![500000, 128]⟩
abbrev S1x128 : Shape := ⟨2, ![1, 128]⟩
abbrev S500000x1 : Shape := ⟨2, ![500000, 1]⟩
abbrev S1x1 : Shape := ⟨2, ![1, 1]⟩
abbrev S1000000x1 : Shape := ⟨2, ![1000000, 1]⟩

abbrev nBuf : Space → Nat
  | .hbm => 98
  | .vmem => 0
  | .smem => 0
  | _ => 0

abbrev bufTy : (tb : Table) → Fin (tcTables nBuf tb) → BufTy
  | .hbm, ⟨0, _⟩ => ⟨S500000x136, .f32⟩
  | .hbm, ⟨1, _⟩ => ⟨S500000, .i32⟩
  | .hbm, ⟨2, _⟩ => ⟨S1000000, .i32⟩
  | .hbm, ⟨3, _⟩ => ⟨S1000000, .i32⟩
  | .hbm, ⟨4, _⟩ => ⟨S136x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S500000x256, .f32⟩
  | .hbm, ⟨11, _⟩ => ⟨S1x256, .f32⟩
  | .hbm, ⟨12, _⟩ => ⟨S500000x256, .f32⟩
  | .hbm, ⟨13, _⟩ => ⟨S500000x256, .f32⟩
  | .hbm, ⟨14, _⟩ => ⟨S_, .f32⟩
  | .hbm, ⟨15, _⟩ => ⟨S500000x256, .f32⟩
  | .hbm, ⟨16, _⟩ => ⟨S500000x256, .f32⟩
  | .hbm, ⟨17, _⟩ => ⟨S500000x128, .f32⟩
  | .hbm, ⟨18, _⟩ => ⟨S1x128, .f32⟩
  | .hbm, ⟨19, _⟩ => ⟨S500000x128, .f32⟩
  | .hbm, ⟨20, _⟩ => ⟨S500000x128, .f32⟩
  | .hbm, ⟨21, _⟩ => ⟨S_, .f32⟩
  | .hbm, ⟨22, _⟩ => ⟨S500000x128, .f32⟩
  | .hbm, ⟨23, _⟩ => ⟨S500000x128, .f32⟩
  | .hbm, ⟨24, _⟩ => ⟨S500000x1, .f32⟩
  | .hbm, ⟨25, _⟩ => ⟨S1x1, .f32⟩
  | .hbm, ⟨26, _⟩ => ⟨S500000x1, .f32⟩
  | .hbm, ⟨27, _⟩ => ⟨S500000x1, .f32⟩
  | .hbm, ⟨28, _⟩ => ⟨S500000, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000, .i32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000, .i32⟩
  | .hbm, ⟨65, _⟩ => ⟨S1000000, .i32⟩
  | .hbm, ⟨66, _⟩ => ⟨S1000000, .i32⟩
  | .hbm, ⟨67, _⟩ => ⟨S1000000, .f32⟩
  | .hbm, ⟨68, _⟩ => ⟨S1000000, .f32⟩
  | .hbm, ⟨69, _⟩ => ⟨S_, .f32⟩
  | .hbm, ⟨70, _⟩ => ⟨S1000000, .f32⟩
  | .hbm, ⟨71, _⟩ => ⟨S1000000, .f32⟩
  | .hbm, ⟨72, _⟩ => ⟨S1000000, .f32⟩
  | .hbm, ⟨73, _⟩ => ⟨S1000000, .f32⟩
  | .hbm, ⟨74, _⟩ => ⟨S_, .f32⟩
  | .hbm, ⟨75, _⟩ => ⟨S1000000, .f32⟩
  | .hbm, ⟨76, _⟩ => ⟨S1000000, .f32⟩
  | .hbm, ⟨77, _⟩ => ⟨S_, .f32⟩
  | .hbm, ⟨78, _⟩ => ⟨S1000000, .f32⟩
  | .hbm, ⟨79, _⟩ => ⟨S1000000, .f32⟩
  | .hbm, ⟨80, _⟩ => ⟨S1000000, .f32⟩
  | .hbm, ⟨81, _⟩ => ⟨S_, .f32⟩
  | .hbm, ⟨82, _⟩ => ⟨S1000000, .f32⟩
  | .hbm, ⟨83, _⟩ => ⟨S1000000, .f32⟩
  | .hbm, ⟨84, _⟩ => ⟨S1000000, .f32⟩
  | .hbm, ⟨85, _⟩ => ⟨S1000000, .f32⟩
  | .hbm, ⟨86, _⟩ => ⟨S_, .f32⟩
  | .hbm, ⟨87, _⟩ => ⟨S1000000, .f32⟩
  | .hbm, ⟨88, _⟩ => ⟨S1000000, .f32⟩
  | .hbm, ⟨89, _⟩ => ⟨S1000000, .f32⟩
  | .hbm, ⟨90, _⟩ => ⟨S_, .f32⟩
  | .hbm, ⟨91, _⟩ => ⟨S1000000, .f32⟩
  | .hbm, ⟨92, _⟩ => ⟨S1000000, .f32⟩
  | .hbm, ⟨93, _⟩ => ⟨S1000000, .f32⟩
  | .hbm, ⟨94, _⟩ => ⟨S1000000, .f32⟩
  | .hbm, ⟨95, _⟩ => ⟨S1000000, .f32⟩
  | .hbm, ⟨96, _⟩ => ⟨S_, .f32⟩
  | .hbm, ⟨97, _⟩ => ⟨S_, .f32⟩
  | _, _ => ⟨S500000x136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000_S_d0 : S1000000.ReducesTo [0] S_
  h_S_ : 0 < S_.numel
  dot_S500000x136_S136x256_S500000x256_1_0_0_1_n_n_wf : DotDims.WF S500000x136 S136x256 S500000x256 [1] [0] [0] [1] [] []
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []
  gather_S500000_S1000000x1_S1000000_n_0_n_n_0_1_1_wf : GatherDims.WF S500000 S1000000x1 S1000000 [] [0] [] [0] [] 1 ![1]

variable [Facts₀]

def dot_S500000x136_S136x256_S500000x256_1_0_0_1_n_n : DotDims S500000x136 S136x256 S500000x256 where
  lhsContracting := [1]
  rhsContracting := [0]
  lhsNonContracting := [0]
  rhsNonContracting := [1]
  lhsBatch := []
  rhsBatch := []
  wf := dot_S500000x136_S136x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def gather_S500000_S1000000x1_S1000000_n_0_n_n_0_1_1 : GatherDims S500000 S1000000x1 S1000000 where
  offsetDims := []
  collapsedSliceDims := [0]
  operandBatchingDims := []
  startIndicesBatchingDims := []
  startIndexMap := [0]
  indexVectorDim := 1
  sliceSizes := ![1]
  wf := gather_S500000_S1000000x1_S1000000_n_0_n_n_0_1_1_wf

class Facts : Prop extends Facts₀ where

variable [Facts]
-- ==== Proof.K.Mlp.lean ====
/- REGION 0 of the program: the MLP scoring kernel as a pipeline of 8 windows over a grid of 100 row blocks.
   Stated at a PARAMETER V, the TensorCore's buffer contents when the region is entered: each window's block at
   a grid point, what the body leaves in the output block (the score payload of the seven input blocks), the
   body's triple on whole staging memrefs, the pipeline's proof data and its body obligation. -/
import proofs.«409445_j54322746359987_3_alg».proof.Proof.Gen.Kernel.Launch
import proofs.«409445_j54322746359987_3_alg».proof.Proof.Gen.Kernel.Skeleton
import proofs.«409445_j54322746359987_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it: for window 0 the t-th block of
    5000 feature rows, for windows 1 to 6 the whole weight or bias array, for window 7 the t-th block of 5000 scores. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store go through the whole-block rectangle at offset zero -/

theorem zeros1 : (![0] : Fin 1 → Nat) = fun _ => 0 := by funext a; fin_cases a; rfl
theorem zeros2 : (![0, 0] : Fin 2 → Nat) = fun _ => 0 := by funext a; fin_cases a <;> rfl

abbrev rX : Rect S5000x136 := Rect.unit (s := S5000x136) ![0, 0] S5000x136.size inb_S5000x136_S5000x136_0_0
abbrev rW1 : Rect S136x256 := Rect.unit (s := S136x256) ![0, 0] S136x256.size inb_S136x256_S136x256_0_0
abbrev rB1 : Rect S256 := Rect.unit (s := S256) ![0] S256.size inb_S256_S256_0
abbrev rW2 : Rect S256x128 := Rect.unit (s := S256x128) ![0, 0] S256x128.size inb_S256x128_S256x128_0_0
abbrev rB2 : Rect S128 := Rect.unit (s := S128) ![0] S128.size inb_S128_S128_0
abbrev rW3 : Rect S128x1 := Rect.unit (s := S128x1) ![0, 0] S128x1.size inb_S128x1_S128x1_0_0
abbrev rB3 : Rect S1 := Rect.unit (s := S1) ![0] S1.size inb_S1_S1_0
abbrev rOut : Rect S5000x1 := Rect.unit (s := S5000x1) ![0, 0] S5000x1.size inb_S5000x1_S5000x1_0_0

/-! ## What the body leaves in the output block -/

/-- The score block after the body, from the seven input blocks: its one store, the score payload of the loaded
    feature block, weights and biases, laid over the block. -/
def out7 (x0 : Vec F S5000x136 .f32) (x1 : Vec F S136x256 .f32) (x2 : Vec F S256 .f32) (x3 : Vec F S256x128 .f32)
    (x4 : Vec F S128 .f32) (x5 : Vec F S128x1 .f32) (x6 : Vec F S1 .f32) : Vec F S5000x1 .f32 :=
  View.canon [⟨rOut, k0_pay1 (View.ld x0 rX) (View.ld x1 rW1) (View.ld x2 rB1) (View.ld x3 rW2) (View.ld x4 rB2) (View.ld x5 rW3) (View.ld x6 rB3)⟩]

/-- One store through the whole block leaves its payload, and a load through a whole block reads the block: the
    score block is the payload of the input blocks. -/
theorem out7_eq (x0 : Vec F S5000x136 .f32) (x1 : Vec F S136x256 .f32) (x2 : Vec F S256 .f32) (x3 : Vec F S256x128 .f32)
    (x4 : Vec F S128 .f32) (x5 : Vec F S128x1 .f32) (x6 : Vec F S1 .f32) :
    out7 x0 x1 x2 x3 x4 x5 x6 = k0_pay1 x0 x1 x2 x3 x4 x5 x6 := by
  unfold out7
  rw [View.canon_unit_zero (S := S5000x1) zeros2 inb_S5000x1_S5000x1_0_0]
  rw [View.ld_unit_zero (S := S5000x136) zeros2 inb_S5000x136_S5000x136_0_0 x0,
    View.ld_unit_zero (S := S136x256) zeros2 inb_S136x256_S136x256_0_0 x1,
    View.ld_unit_zero (S := S256) zeros1 inb_S256_S256_0 x2,
    View.ld_unit_zero (S := S256x128) zeros2 inb_S256x128_S256x128_0_0 x3,
    View.ld_unit_zero (S := S128) zeros1 inb_S128_S128_0 x4,
    View.ld_unit_zero (S := S128x1) zeros2 inb_S128x1_S128x1_0_0 x5,
    View.ld_unit_zero (S := S1) zeros1 inb_S1_S1_0 x6]

/-- The one store covers the score block: every index lies in the whole-block rectangle. -/
theorem cover_out (p : Vec F S5000x1 .f32) (y : S5000x1.Idx) :
    ∃ pc ∈ ([⟨rOut, p⟩] : List (View.Piece (Elt F) S5000x1 .f32)), y ∈ pc.1.set :=
  ⟨_, List.mem_singleton_self _, View.mem_set_unit_zero (S := S5000x1) zeros2 inb_S5000x1_S5000x1_0_0 y⟩

/-! ## The body's triple -/

set_option maxHeartbeats 1000000 in
/-- The kernel body on whole staging memrefs — the seven inputs' at read contents x0 … x6, the score block's at
    anything (the body reads it once before it overwrites it, and uses nothing of what it read) — runs to the
    continuation holding the inputs' as they were and the score block's at the payload of the inputs. -/
theorem sound_kernel (c : Dev nD) (E : Set ℕ) (i : grid0.Coords) (arg1 : Memref sig .tc .vmem S5000x136 .f32) (harg1 : arg1.IsWhole) (arg2 : Memref sig .tc .vmem S136x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S128x1 .f32) (harg6 : arg6.IsWhole) (arg7 : Memref sig .tc .vmem S1 .f32) (harg7 : arg7.IsWhole) (arg8 : Memref sig .tc .vmem S5000x1 .f32) (harg8 : arg8.IsWhole)
    (x0 : Vec F S5000x136 .f32) (x1 : Vec F S136x256 .f32) (x2 : Vec F S256 .f32) (x3 : Vec F S256x128 .f32) (x4 : Vec F S128 .f32) (x5 : Vec F S128x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## What the body finds in each input window's buffer -/

/-- Input window 0 (the t-th block of 5000 feature rows): its current staging buffer holds its block at every point,
    fetched there or not — where it is not fetched its block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the first layer's weights, whole): its current staging buffer holds its block at every point,
    fetched there or not — where it is not fetched its block index has not moved. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the first layer's bias, whole): its current staging buffer holds its block at every point,
    fetched there or not — where it is not fetched its block index has not moved. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the second layer's weights, whole): its current staging buffer holds its block at every point,
    fetched there or not — where it is not fetched its block index has not moved. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (the second layer's bias, whole): its current staging buffer holds its block at every point,
    fetched there or not — where it is not fetched its block index has not moved. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 (the third layer's weights, whole): its current staging buffer holds its block at every point,
    fetched there or not — where it is not fetched its block index has not moved. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 (the third layer's bias, whole): its current staging buffer holds its block at every point,
    fetched there or not — where it is not fetched its block index has not moved. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the scoring pipeline on core c: the arrays as the region finds them; after the body at
    point t each input's buffer still at its block and the score buffer at the payload of the seven input blocks;
    the invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (iblk V c 0 t) (iblk V c 1 t) (iblk V c 2 t) (iblk V c 3 t) (iblk V c 4 t) (iblk V c 5 t) (iblk V c 6 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window: an input's block stays, the score block is the payload's. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = out7 (iblk V c 0 t) (iblk V c 1 t) (iblk V c 2 t) (iblk V c 3 t) (iblk V c 4 t) (iblk V c 5 t) (iblk V c 6 t) := by dsimp only [dat]

/-- Each input's current staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d

/-! ## The body obligation, at a generic point -/

/-- What the body is called with at point t: the invariant, what the core owes, and every window's current buffer, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.Bce.lean ====
/- Region 1 of the program: the block-sum kernel on the grid (2, 4), eight points in row-major order, four per
   core-row. The kernel keeps a one-element accumulator across the points of a row: at the first point of a row
   (coordinate 1 equal to 0) it clears the accumulator, at every point it adds the masked sum of the point's block
   to it, and at the last point of a row (coordinate 1 equal to 3) it broadcasts the accumulator into the row's
   output block. Stated here, at the contents `V` the TensorCore's buffers have when the region is entered: the
   accumulator after each point by recursion on the point, the output block at the points that write it, the
   region's proof data and invariant, one triple of the body per control case, and the body obligation. -/
import proofs.«409445_j54322746359987_3_alg».proof.Proof.Gen.Kernel.Launch
import proofs.«409445_j54322746359987_3_alg».proof.Proof.Gen.Kernel.Skeleton
import proofs.«409445_j54322746359987_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body are zero. -/
theorem off_zero2 : (![0, 0] : Fin 2 → ℕ) = fun _ => 0 := by
  funext a; fin_cases a <;> rfl

/-- The condition under which the body first clears the accumulator: grid coordinate 1 is zero. -/
abbrev condReset (i : grid1.Coords) : Prop :=
  (Scalar.cmpi .ne (Scalar.extui (Scalar.cmpi .eq (BitVec.ofNat 32 (i 1).val) 0#32)) 0#32) = 1#1

/-- The condition under which the body writes the accumulator out: grid coordinate 1 is three. -/
abbrev condOut (i : grid1.Coords) : Prop := k1_cond2 i = 1#1

/-- One accumulation: the accumulator after the body, from the three input blocks and the accumulator before it. -/
def step (i : grid1.Coords) (x0 x1 x2 : Vec F S1024x128 .f32) (a : Vec F S1x1 .f32) : Vec F S1x1 .f32 :=
  k1_pay1 (k1_pay4 x0 x1 x2) (k1_pay5 i) k1_pay6 a

/-- The whole-buffer rectangle of the accumulator. -/
abbrev rAcc : Rect S1x1 := Rect.unit (s := S1x1) ![0, 0] S1x1.size inb_S1x1_S1x1_0_0
/-- The whole-buffer rectangle of the output block. -/
abbrev rOut : Rect S1x128 := Rect.unit (s := S1x128) ![0, 0] S1x128.size inb_S1x128_S1x128_0_0

/-- A last store through the accumulator's whole rectangle covers it, whatever was stored before. -/
theorem cover_acc (p : Vec F S1x1 .f32) (L : List (View.Piece (Elt F) S1x1 .f32)) (y : S1x1.Idx) :
    ∃ pc ∈ ((⟨rAcc, p⟩ : View.Piece (Elt F) S1x1 .f32) :: L), y ∈ pc.1.set :=
  ⟨_, List.mem_cons_self, View.mem_set_unit_zero off_zero2 inb_S1x1_S1x1_0_0 y⟩

/-- A last store through the output block's whole rectangle covers it. -/
theorem cover_out (p : Vec F S1x128 .f32) (L : List (View.Piece (Elt F) S1x128 .f32)) (y : S1x128.Idx) :
    ∃ pc ∈ ((⟨rOut, p⟩ : View.Piece (Elt F) S1x128 .f32) :: L), y ∈ pc.1.set :=
  ⟨_, List.mem_cons_self, View.mem_set_unit_zero off_zero2 inb_S1x128_S1x128_0_0 y⟩

/-! ## The three control cases of the body, on any whole memrefs -/

set_option maxHeartbeats 1000000 in
/-- A point that clears the accumulator first: whatever it held, it ends at one accumulation from zero. -/
theorem run_reset (c : Dev nD) (i : grid1.Coords)
    (arg2 : Memref sig .tc .vmem S1024x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1x128 .f32) (harg5 : arg5.IsWhole)
    (arg6 : Memref sig .tc .vmem S1x1 .f32) (harg6 : arg6.IsWhole)
    (hr : condReset i) (hw : ¬ condOut i)
    (x0 x1 x2 : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg6 fullShare (step i x0 x1 x2 k1_pay3)) -∗ K ⟨⟩))
      ⊢ wp frame (wpE (defs₀ (F := F)) Variants.none c none) E (cc1__bce_kernel i arg2 harg2 arg3 harg3 arg4 harg4 arg5 harg5 arg6 harg6) K := by
  simp only [cc1__bce_kernel_eq_skeleton]; unfold cc1__bce_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hr | exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (cover_acc _ _), View.canon_cons_unit_zero off_zero2]
  unfold step
  simp only [View.readAt_eq_ld, harg2.read_unread, harg3.read_unread, harg4.read_unread,
    View.ld_unit_zero (S := S1024x128) off_zero2, View.ld_unit_zero (S := S1x1) off_zero2,
    View.readCov_unit_zero (S := S1x1) _ off_zero2]
set_option maxHeartbeats 1000000 in
/-- A point that neither clears nor writes out. -/
theorem run_acc (c : Dev nD) (i : grid1.Coords)
    (arg2 : Memref sig .tc .vmem S1024x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1x128 .f32) (harg5 : arg5.IsWhole)
    (arg6 : Memref sig .tc .vmem S1x1 .f32) (harg6 : arg6.IsWhole)
    (hr : ¬ condReset i) (hw : ¬ condOut i)
    (x0 x1 x2 : Vec F S1024x128 .f32) (a : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg6 fullShare a
        ∗ (iprop(owns (c : Thread nD τ) arg2 fullShare x0 ∗ owns (c : Thread nD τ) arg3 fullShare x1
            ∗ owns (c : Thread nD τ) arg4 fullShare x2 ∗ owns (c : Thread nD τ) arg6 fullShare (step i x0 x1 x2 a)) -∗ K ⟨⟩))
      ⊢ wp frame (wpE (defs₀ (F := F)) Variants.none c none) E (cc1__bce_kernel i arg2 harg2 arg3 harg3 arg4 harg4 arg5 harg5 arg6 harg6) K := by
  simp only [cc1__bce_kernel_eq_skeleton]; unfold cc1__bce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hr | exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (cover_acc _ _), View.canon_cons_unit_zero off_zero2]
  unfold step; sl_unfold_words
  simp only [View.readAt_eq_ld, harg2.read_unread, harg3.read_unread, harg4.read_unread, harg6.read_unread,
    View.ld_unit_zero (S := S1024x128) off_zero2, View.ld_unit_zero (S := S1x1) off_zero2]

set_option maxHeartbeats 1000000 in
/-- A point that writes out: after the accumulation the output block is filled from the accumulator. -/
theorem run_out (c : Dev nD) (i : grid1.Coords)
    (arg2 : Memref sig .tc .vmem S1024x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1x128 .f32) (harg5 : arg5.IsWhole)
    (arg6 : Memref sig .tc .vmem S1x1 .f32) (harg6 : arg6.IsWhole)
    (hr : ¬ condReset i) (hw : condOut i)
    (x0 x1 x2 : Vec F S1024x128 .f32) (a : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare a
        ∗ (iprop(owns (c : Thread nD τ) arg2 fullShare x0 ∗ owns (c : Thread nD τ) arg3 fullShare x1
            ∗ owns (c : Thread nD τ) arg4 fullShare x2
            ∗ owns (c : Thread nD τ) arg5 fullShare (k1_pay2 (step i x0 x1 x2 a))
            ∗ owns (c : Thread nD τ) arg6 fullShare (step i x0 x1 x2 a)) -∗ K ⟨⟩))
      ⊢ wp frame (wpE (defs₀ (F := F)) Variants.none c none) E (cc1__bce_kernel i arg2 harg2 arg3 harg3 arg4 harg4 arg5 harg5 arg6 harg6) K := by
  simp only [cc1__bce_kernel_eq_skeleton]; unfold cc1__bce_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hr | exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (cover_out _ _), View.canon_cons_unit_zero off_zero2]
    unfold step
    simp only [View.readAt_eq_ld, harg2.read_unread, harg3.read_unread, harg4.read_unread, harg6.read_unread,
      View.ld_unit_zero (S := S1024x128) off_zero2, View.ld_unit_zero (S := S1x1) off_zero2,
      View.readCov_unit_zero (S := S1x1) _ off_zero2]
  iexists _; isplitr
  swap; · iexact HS
  ipureintro
  sl_unfold_words
  rw [View.read_writes_eq_canon _ _ _ (cover_acc _ _), View.canon_cons_unit_zero off_zero2]
  unfold step
  simp only [View.readAt_eq_ld, harg2.read_unread, harg3.read_unread, harg4.read_unread, harg6.read_unread,
    View.ld_unit_zero (S := S1024x128) off_zero2, View.ld_unit_zero (S := S1x1) off_zero2,
    View.readCov_unit_zero (S := S1x1) _ off_zero2]

/-! ## The conditions over the grid, and where the output window is idle -/

/-- The accumulator is cleared exactly at the first point of each row of four. -/
theorem hcondReset : ∀ t : Fin cfg1.N, condReset (grid1.coords t) ↔ t.val % 4 = 0 :=
  (by decide +kernel : ∀ t : Fin grid1.N, condReset (grid1.coords t) ↔ t.val % 4 = 0)

/-- The accumulator is written out exactly at the last point of each row of four. -/
theorem hcondOut : ∀ t : Fin cfg1.N, condOut (grid1.coords t) ↔ t.val % 4 = 3 :=
  (by decide +kernel : ∀ t : Fin grid1.N, condOut (grid1.coords t) ↔ t.val % 4 = 3)

/-- The three input windows are never idle. -/
theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
/-- The output window is idle at the points that do not write out, -/
theorem idle_3 : ∀ t : Fin cfg1.N, ¬condOut (grid1.coords t) → cfg1.idle 3 (grid1.coords t) = true := by decide +kernel
/-- live at the points that do, -/
theorem live_3 : ∀ t : Fin cfg1.N, condOut (grid1.coords t) → cfg1.idle 3 (grid1.coords t) = false := by decide +kernel
/-- and its block is not written back at the points that are not the last of a row. -/
theorem noFlush_3 (t : Fin cfg1.N) (h : ¬t.val % 4 = 3) : (cfg1.win 3).flush t = false :=
  Bool.eq_false_iff.mpr fun hf => h ((flush1_3 t).mp hf)

/-! ## The scoped buffers beside the accumulator -/

/-- The accumulator: the kernel's one scratch operand, a whole scoped buffer of one element. -/
abbrev scM : Memref sig .tc .vmem S1x1 .f32 := Memref.whole cc1_scratch0

/-- What the region's invariant holds beside the accumulator and never names: the core's other scoped buffers
    that are no staging buffer of this region (the other region's staging buffers), each at some contents, and the
    generator register at some state. -/
def Rest (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f))
    ∗ ∃ r, prngReg c r)

/-- The class's invariant (every scoped buffer that is no staging buffer of the region at some contents, the
    generator register at some state) is the accumulator at some contents beside the rest: one way, -/
theorem PhiA_split (c : Dev nD) :
    (Pipeline.ΦA spec1 c : sProp 𝕄) ⊢ iprop((∃ d, owns (c : Thread nD τ) scM fullShare d) ∗ Rest (F := F) c) := by
  unfold Pipeline.ΦA Rest; rw [scopedRest1_eq]; simp only [scM, owns_whole]
  iintro ⟨⟨A0, A1, A2, A3, A4, A5, A6, A7, A8, A9, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

/-- and the other. -/
theorem PhiA_join (c : Dev nD) :
    iprop((∃ d, owns (c : Thread nD τ) scM fullShare d) ∗ Rest (F := F) c) ⊢ (Pipeline.ΦA spec1 c : sProp 𝕄) := by
  unfold Pipeline.ΦA Rest; rw [scopedRest1_eq]; simp only [scM, owns_whole]
  iintro ⟨HS, ⟨A0, A1, A2, A3, A4, A5, A6, A7, A8, A9⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator and the output block, point by point -/

/-- THE ACCUMULATOR after point `n`: one accumulation of the point's three blocks, from zero at the first point of
    a row of four (`n % 4 = 0`: the body clears it there first), else from what the point before left. -/
def accAt (c : Dev nD) : (n : ℕ) → n < cfg1.N → Vec F S1x1 .f32
  | 0, hn => step (grid1.coords ⟨0, hn⟩) (iblk V c 0 ⟨0, hn⟩) (iblk V c 1 ⟨0, hn⟩) (iblk V c 2 ⟨0, hn⟩) k1_pay3
  | n + 1, hn =>
    if (n + 1) % 4 = 0 then
      step (grid1.coords ⟨n + 1, hn⟩) (iblk V c 0 ⟨n + 1, hn⟩) (iblk V c 1 ⟨n + 1, hn⟩) (iblk V c 2 ⟨n + 1, hn⟩) k1_pay3
    else
      step (grid1.coords ⟨n + 1, hn⟩) (iblk V c 0 ⟨n + 1, hn⟩) (iblk V c 1 ⟨n + 1, hn⟩) (iblk V c 2 ⟨n + 1, hn⟩)
        (accAt c n (Nat.lt_of_succ_lt hn))

/-- At the first point of a row the accumulation starts from zero. -/
theorem accAt_reset (c : Dev nD) (t : Fin cfg1.N) (h : t.val % 4 = 0) :
    accAt V c t.val t.isLt = step (grid1.coords t) (iblk V c 0 t) (iblk V c 1 t) (iblk V c 2 t) k1_pay3 := by
  obtain ⟨n, hn⟩ := t
  cases n with
  | zero => rfl
  | succ n => exact if_pos h

/-- At the other points it continues from the point before. -/
theorem accAt_acc (c : Dev nD) (t : Fin cfg1.N) (h : ¬t.val % 4 = 0) :
    accAt V c t.val t.isLt = step (grid1.coords t) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h
  | succ n => exact if_neg h

/-- THE OUTPUT BLOCK's staging buffer after point `n`: the accumulator broadcast along the block. Only the last
    point of each row (`n % 4 = 3`) stores it and writes it back; at the other points the window is idle, its buffer
    handed back as found, and this value is consulted by nothing. -/
def outAt (c : Dev nD) (n : ℕ) (hn : n < cfg1.N) : Vec F S1x128 .f32 :=
  k1_pay2 (accAt V c n hn)

/-- At a point that writes out, the output block is the row's finished accumulator, broadcast. -/
theorem outAt_flush (c : Dev nD) (t : Fin cfg1.N) (h : t.val % 4 = 3) :
    outAt V c t.val t.isLt = k1_pay2 (accAt V c t.val t.isLt) := rfl

/-! ## The invariant -/

/-- The region's invariant before position `n`: before the first point the class's (every scoped buffer that is no
    staging buffer of the region at anything); afterwards the accumulator at what the point before left in it,
    beside the rest. -/
def PhiS (c : Dev nD) : (n : ℕ) → n ≤ cfg1.N → sProp 𝕄
  | 0, _ => Pipeline.ΦA spec1 c
  | n + 1, hn => iprop(owns (c : Thread nD τ) scM fullShare (accAt V c n hn) ∗ Rest (F := F) c)

theorem PhiS_zero (c : Dev nD) (n : ℕ) (h : n ≤ cfg1.N) (hz : n = 0) : PhiS V c n h = Pipeline.ΦA spec1 c := by
  subst hz; rfl

/-- After point `n`: the accumulator at that point's value. -/
theorem PhiS_succ (c : Dev nD) (n : ℕ) (hn : n < cfg1.N) :
    PhiS V c (n + 1) hn = iprop(owns (c : Thread nD τ) scM fullShare (accAt V c n hn) ∗ Rest (F := F) c) := rfl

/-- Before a point that is not the first: the accumulator at what the point before left. -/
theorem PhiS_pos (c : Dev nD) (n : ℕ) (h : n ≤ cfg1.N) (hz : n ≠ 0) :
    PhiS V c n h = iprop(owns (c : Thread nD τ) scM fullShare (accAt V c (n - 1) (by omega)) ∗ Rest (F := F) c) := by
  cases n with
  | zero => exact absurd rfl hz
  | succ n => rfl

/-! ## The region's proof data -/

/-- The proof data of the region on core `c`: the arrays as the region finds them (`V`); after the body at point
    `t` each input's buffer at its block and the output's at `outAt`; the invariant `PhiS`; nothing owed; full
    shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t.val t.isLt := by dsimp only [dat]

/-- The invariant at a point's start, restated at the point's number. -/
theorem PhiS_castSucc (c : Dev nD) (t : Fin cfg1.N) :
    (dat V c).Φ t.castSucc = PhiS V c t.val (Nat.le_of_lt t.isLt) := by
  dsimp only [dat]; simp only [Fin.coe_castSucc]

/-- Each input's current staging buffer holds its block at every point: the three inputs are uncut, never idle,
    and the body leaves them as it finds them. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body obligation asks of an input's buffer after the body: the block, still. -/
theorem leaves_0 (c : Dev nD) (t : Fin cfg1.N) :
    (dat V c).leavesExact 0 t = owns (c : Thread nD τ) (st1_0 t) fullShare (iblk V c 0 t) := by
  unfold Dat.leavesExact; rw [live_0 t, after_0]
theorem leaves_1 (c : Dev nD) (t : Fin cfg1.N) :
    (dat V c).leavesExact 1 t = owns (c : Thread nD τ) (st1_1 t) fullShare (iblk V c 1 t) := by
  unfold Dat.leavesExact; rw [live_1 t, after_1]
theorem leaves_2 (c : Dev nD) (t : Fin cfg1.N) :
    (dat V c).leavesExact 2 t = owns (c : Thread nD τ) (st1_2 t) fullShare (iblk V c 2 t) := by
  unfold Dat.leavesExact; rw [live_2 t, after_2]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number decides the control case.
    At the first point of a row the invariant hands over the accumulator at anything (before the very first point,
    out of the class's invariant; later, what the row before left, forgotten) and takes it back at one accumulation
    from zero; at the other points it hands it over at what the point before left and takes it back one accumulation
    on. The output's buffer is handed back as found except at the last point of a row, where it is left at the
    accumulator broadcast. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 8 := lt_of_lt_of_eq t.isLt (show cfg1.N = 8 from N_1)
  by_cases h0 : t.val % 4 = 0
  · have h3 : ¬t.val % 4 = 3 := by omega
    rw [Dat.leavesExact_idle (dat V c) 3 t (idle_3 t (fun h => h3 ((hcondOut t).mp h))) (noFlush_3 t h3)]
    rw [accAt_reset V c t h0]
    by_cases hz : t.val = 0
    · rw [PhiS_castSucc V c t, PhiS_zero V c _ _ hz]
      iintro ⟨HΦ, Ho, ⟨%d0, H0⟩, ⟨%d1, H1⟩, ⟨%d2, H2⟩, H3⟩
      ihave ⟨HS, HR⟩ := (PhiA_split c) $$ HΦ
      iapply (run_reset c (grid1.coords t) _ _ _ _ _ _ _ _ _ _ ((hcondReset t).mpr h0) (fun h => h3 ((hcondOut t).mp h))
        (iblk V c 0 t) (iblk V c 1 t) (iblk V c 2 t) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [PhiS_castSucc V c t, PhiS_pos V c _ _ hz]
      iintro ⟨⟨HS, HR⟩, Ho, ⟨%d0, H0⟩, ⟨%d1, H1⟩, ⟨%d2, H2⟩, H3⟩
      iapply (run_reset c (grid1.coords t) _ _ _ _ _ _ _ _ _ _ ((hcondReset t).mpr h0) (fun h => h3 ((hcondOut t).mp h))
        (iblk V c 0 t) (iblk V c 1 t) (iblk V c 2 t) Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexact H3
  · have hz : t.val ≠ 0 := fun e => h0 (by rw [e])
    rw [accAt_acc V c t h0]
    rw [PhiS_castSucc V c t, PhiS_pos V c _ _ hz]
    by_cases h3 : t.val % 4 = 3
    · rw [show (dat V c).leavesExact 3 t = owns (c : Thread nD τ) (st1_3 t) fullShare ((dat V c).after 3 t) from by
        unfold Dat.leavesExact; rw [live_3 t ((hcondOut t).mpr h3)], after_3, outAt_flush V c t h3, accAt_acc V c t h0]
      iintro ⟨⟨HS, HR⟩, Ho, ⟨%d0, H0⟩, ⟨%d1, H1⟩, ⟨%d2, H2⟩, ⟨%d3, H3⟩⟩
      iapply (run_out c (grid1.coords t) _ _ _ _ _ _ _ _ _ _ (fun h => h0 ((hcondReset t).mp h)) ((hcondOut t).mpr h3)
        (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat V c) 3 t (idle_3 t (fun h => h3 ((hcondOut t).mp h))) (noFlush_3 t h3)]
      iintro ⟨⟨HS, HR⟩, Ho, ⟨%d0, H0⟩, ⟨%d1, H1⟩, ⟨%d2, H2⟩, H3⟩
      iapply (run_acc c (grid1.coords t) _ _ _ _ _ _ _ _ _ _ (fun h => h0 ((hcondReset t).mp h)) (fun h => h3 ((hcondOut t).mp h))
        (iblk V c 0 t) (iblk V c 1 t) (iblk V c 2 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point the invariant gives the class's back: the accumulator's value is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HS, HR⟩
  iapply (PhiA_join c)
  isplitl [HS]; · iexists _; iexact HS
  iexact HR

/-- The same after the last point. -/
theorem hout (c : Dev nD) : (dat V c).Φ (Fin.last cfg1.N) ⊢ Pipeline.ΦA spec1 c :=
  Phi_out V c _ (by rw [Fin.val_last]; have : cfg1.N = 8 := N_1; omega)

/-- info: 'Cert.Kernel.R1.body_obligation' depends on axioms: [propext, Classical.choice, Quot.sound] -/
#guard_msgs in #print axioms body_obligation

end Region

end Cert.Kernel.R1

end
-- ==== Proof.K.Run.lean ====
/- THE LAUNCH of the two-region program, at any float instance.

   @main is: region 0 (the scoring kernel), ten stretches of host operations, region 1 (the block-sum kernel),
   a last stretch. Between two items a core's unscoped buffers are held whole at a named valuation: the launch
   memory, then region 0's output array replaced by what its pipeline's write-backs leave, then each host
   stretch applied, then region 1's output array replaced likewise, then the last stretch. Each region is a
   record around those thread states: its arrays are split out of the unscoped buffers at entry and put back
   at their final contents at exit; region 0 keeps the class invariant, region 1 the invariant that carries
   its accumulator. The launch then says: every weakly fair execution terminates, every argument array ends
   as launched, and the result buffer ends at the last valuation's contents. -/
import proofs.«409445_j54322746359987_3_alg».proof.Proof.Gen.Kernel.Regions
import proofs.«409445_j54322746359987_3_alg».proof.Proof.K.Mlp
import proofs.«409445_j54322746359987_3_alg».proof.Proof.K.Bce
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0 is entered from the launch memory. -/
abbrev EA : (c : Dev nD) → (b : Ref sig .tc) → Buf (Elt F) ((c : Thread nD τ).loc b) := fun c b => V0 m c b

/-- At region 0's exit: its arrays at what the pipeline leaves (the inputs as entered, the score array's
    write-backs folded), every other buffer as entered. -/
def WA (c : Dev nD) : Valuation τ sig (Elt F) :=
  Pipeline.withArrays spec0 c (V0 m c) fun w => (R0.dat (EA m) c).arrAt w cfg0.N

/-- What region 0 leaves, as the unknowns of the valuations between the items. -/
def outsA : Outs (F := F) := fun _ r c => WA m c r

/-- Region 1 is entered from the valuation after the tenth host stretch. -/
abbrev EB : (c : Dev nD) → (b : Ref sig .tc) → Buf (Elt F) ((c : Thread nD τ).loc b) := fun c b => V11 m (outsA m) c b

/-- At region 1's exit: its arrays at what the pipeline leaves, every other buffer as entered. -/
def WB (c : Dev nD) : Valuation τ sig (Elt F) :=
  Pipeline.withArrays spec1 c (V11 m (outsA m) c) fun w => (R1.dat (EB m) c).arrAt w cfg1.N

/-- What the two regions leave: after item 0 region 0's exit contents, after item 11 region 1's. -/
def outs : Outs (F := F) := fun J r c => if J = 1 then WA m c r else WB m c r

theorem outs_one (r : Ref sig .tc) (c : Dev nD) : outs m 1 r c = WA m c r := if_pos rfl
theorem outs_twelve (r : Ref sig .tc) (c : Dev nD) : outs m 12 r c = WB m c r := if_neg (by decide)

/-- The valuations up to region 1's entry only read what region 0 left. -/
theorem V1_eq (c : Dev nD) : V1 m (outs m) c = V1 m (outsA m) c := by
  show Function.update (V0 m c) main_v0 (outs m 1 main_v0 c) = Function.update (V0 m c) main_v0 (outsA m 1 main_v0 c)
  rw [outs_one]; rfl

theorem V11_eq (c : Dev nD) : V11 m (outs m) c = V11 m (outsA m) c := by
  show StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2
    (StableHlo.after hostOps1_1 (StableHlo.after hostOps1 (V1 m (outs m) c)))))))))) = _
  rw [V1_eq]

/-- After region 0 the score array holds what the pipeline's write-backs leave. -/
theorem V1_main_v0 (c : Dev nD) : V1 m (outs m) c main_v0 = (R0.dat (EA m) c).arrAt 7 cfg0.N := by
  show Function.update (V0 m c) main_v0 (outs m 1 main_v0 c) main_v0 = _
  rw [Function.update_self, outs_one]
  exact Pipeline.withArrays_arr spec0 launch0.win.arr_inj c _ _ 7

/-- After region 1 the partial-sum array holds what the pipeline's write-backs leave. -/
theorem V12_main_v24 (c : Dev nD) : V12 m (outs m) c main_v24 = (R1.dat (EB m) c).arrAt 3 cfg1.N := by
  show Function.update (V11 m (outs m) c) main_v24 (outs m 12 main_v24 c) main_v24 = _
  rw [Function.update_self, outs_twelve]
  exact Pipeline.withArrays_arr spec1 launch1.win.arr_inj c _ _ 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (EA m) c
  | ⟨1, _⟩ => fun c => R1.dat (EB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Region 0's arrays at its exit -/

theorem hF0 (c : Dev nD) : ∀ w : Fin cfg0.W, (pdats m 0 c).arrAt w cfg0.N = V1 m (outs m) c (Pipeline.arrRef spec0 w)
  | ⟨0, _⟩ => ((R0.dat (EA m) c).arrAt_in 0 rfl _).trans ((R0.A_eq (EA m) c 0).trans (V1_of m (outs m) c main_arg0 (by decide)).symm)
  | ⟨1, _⟩ => ((R0.dat (EA m) c).arrAt_in 1 rfl _).trans ((R0.A_eq (EA m) c 1).trans (V1_of m (outs m) c main_arg4 (by decide)).symm)
  | ⟨2, _⟩ => ((R0.dat (EA m) c).arrAt_in 2 rfl _).trans ((R0.A_eq (EA m) c 2).trans (V1_of m (outs m) c main_arg5 (by decide)).symm)
  | ⟨3, _⟩ => ((R0.dat (EA m) c).arrAt_in 3 rfl _).trans ((R0.A_eq (EA m) c 3).trans (V1_of m (outs m) c main_arg6 (by decide)).symm)
  | ⟨4, _⟩ => ((R0.dat (EA m) c).arrAt_in 4 rfl _).trans ((R0.A_eq (EA m) c 4).trans (V1_of m (outs m) c main_arg7 (by decide)).symm)
  | ⟨5, _⟩ => ((R0.dat (EA m) c).arrAt_in 5 rfl _).trans ((R0.A_eq (EA m) c 5).trans (V1_of m (outs m) c main_arg8 (by decide)).symm)
  | ⟨6, _⟩ => ((R0.dat (EA m) c).arrAt_in 6 rfl _).trans ((R0.A_eq (EA m) c 6).trans (V1_of m (outs m) c main_arg9 (by decide)).symm)
  | ⟨7, _⟩ => (V1_main_v0 m c).symm

theorem hrest0 (c : Dev nD) : ∀ b, b ∉ Finset.univ.image (Pipeline.arrRef spec0) → V1 m (outs m) c b = EA m c b :=
  fun b hb => V1_of m (outs m) c b (fun h => hb (Finset.mem_image.mpr ⟨7, Finset.mem_univ _, (List.mem_singleton.mp h).symm⟩))

/-! ## Region 1's arrays at its exit -/

theorem hF1 (c : Dev nD) : ∀ w : Fin cfg1.W, (pdats m 1 c).arrAt w cfg1.N = V12 m (outs m) c (Pipeline.arrRef spec1 w)
  | ⟨0, _⟩ => ((R1.dat (EB m) c).arrAt_in 0 rfl _).trans ((R1.A_eq (EB m) c 0).trans
      ((congrFun (V11_eq m c) main_v21).symm.trans (V12_of m (outs m) c main_v21 (by decide)).symm))
  | ⟨1, _⟩ => ((R1.dat (EB m) c).arrAt_in 1 rfl _).trans ((R1.A_eq (EB m) c 1).trans
      ((congrFun (V11_eq m c) main_v22).symm.trans (V12_of m (outs m) c main_v22 (by decide)).symm))
  | ⟨2, _⟩ => ((R1.dat (EB m) c).arrAt_in 2 rfl _).trans ((R1.A_eq (EB m) c 2).trans
      ((congrFun (V11_eq m c) main_v23).symm.trans (V12_of m (outs m) c main_v23 (by decide)).symm))
  | ⟨3, _⟩ => (V12_main_v24 m c).symm

theorem hrest1 (c : Dev nD) : ∀ b, b ∉ Finset.univ.image (Pipeline.arrRef spec1) → V12 m (outs m) c b = EB m c b :=
  fun b hb => (V12_of m (outs m) c b (fun h => hb (Finset.mem_image.mpr ⟨3, Finset.mem_univ _, (List.mem_singleton.mp h).symm⟩))).trans
    (congrFun (V11_eq m c) b)

/-! ## The regions as segments -/

set_option backward.isDefEq.respectTransparency.types false in
/-- REGION 0 over the thread state: entered from every unscoped buffer at the launch contents, left at the
    contents with the score array replaced. Its arrays split out of the unscoped buffers and put back at the
    exit contents; the generator register into the class invariant and out; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (EA m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (EA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EA m c) (R0.A_eq (EA m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EA m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the tenth host
    stretch, left at those contents with the partial-sum array replaced. The class invariant is what the region
    is handed and what it gives back; inside, the invariant carries the accumulator from point to point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (EB m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (EB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EB m c) (R1.A_eq (EB m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (EB m) c)
    unfold Pipeline.ΦA
    iintro ⟨Hp, -, Hr⟩
    isplitl [Hr]; · iexact Hr
    iexact Hp
  hout c := by
    rw [Pipeline.ownSems0_none]
    refine BIBase.Entails.trans (R1.hout (EB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EB m c) (fun b => V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and first thread state -/

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

theorem hpre1 (c : Dev nD) : iprop(StableHlo.held (c : Thread nD τ) (Pipeline.ucRefs τ sig) (V11 m (outs m) c) ∗ E (F := F) 1 c) ⊢ (reg1 m).pre c := by
  rw [V11_eq]; exact .rfl

/-! ## The frame, and the run with the result read -/

/-- THE FRAME at any float instance: every weakly fair execution of @main terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) 0 (fun _ => iprop(emp)) u₀ hu₀ E (hE0 ρ) hE2
    (reg0 m) (fun _ => .rfl) (fun _ => .rfl) (reg1 m) (hpre1 m) (fun _ => .rfl)

/-! ## The run with the result read -/

-- the launch theorem's implicit arguments are found by unifying its conclusion with this one, which takes unfolding
-- plain definitions in a metavariable's type
set_option backward.isDefEq.respectTransparency.types false in
/-- THE RUN at any float instance: every weakly fair execution of @main terminates, nothing faulting; the result
    buffer ends at what the last valuation holds there, and every argument array ends as launched. The same
    segments and chaining as the frame; at the end the result's buffer is read off the last thread state beside
    the arguments'. -/
theorem run_value : θ_run defs (onTc (τ := τ) (main (F := F))) ⟨m, fun _ => 0, ρ⟩ (fun r => ∀ c : Dev nD,
      r.2.mem ((c.tc : Thread nD τ).loc main_v29) = V13 m (outs m) c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, hpre1 m c, .rfl, sep_mono .rfl (hE2 c)⟩)
    (hinit := ?_) (QY := fun c s => s.mem ((c.tc : Thread nD τ).loc main_v29) = V13 m (outs m) c main_v29
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: on every core the unscoped buffers are held at the launch contents, the generator register at its
    -- launch state, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v29) (Finset.mem_filter.mpr ⟨StableHlo.devRef_mem_tcRefs main_v29, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c)⟩
    · iexact HSI

end Cert.Kernel.Launch

end
-- ==== Proof.KI.Mlp.lean ====
/- REGION 0 of the program: the MLP scoring kernel as a pipeline of 8 windows over a grid of 100 row blocks.
   Stated at a PARAMETER V, the TensorCore's buffer contents when the region is entered: each window's block at
   a grid point, what the body leaves in the output block (the score payload of the seven input blocks), the
   body's triple on whole staging memrefs, the pipeline's proof data and its body obligation. -/
import proofs.«409445_j54322746359987_3_alg».proof.Proof.Gen.KernelIdeal.Launch
import proofs.«409445_j54322746359987_3_alg».proof.Proof.Gen.KernelIdeal.Skeleton
import proofs.«409445_j54322746359987_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at grid point t, read off its array as the region finds it: for window 0 the t-th block of
    5000 feature rows, for windows 1 to 6 the whole weight or bias array, for window 7 the t-th block of 5000 scores. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store go through the whole-block rectangle at offset zero -/

theorem zeros1 : (![0] : Fin 1 → Nat) = fun _ => 0 := by funext a; fin_cases a; rfl
theorem zeros2 : (![0, 0] : Fin 2 → Nat) = fun _ => 0 := by funext a; fin_cases a <;> rfl

abbrev rX : Rect S5000x136 := Rect.unit (s := S5000x136) ![0, 0] S5000x136.size inb_S5000x136_S5000x136_0_0
abbrev rW1 : Rect S136x256 := Rect.unit (s := S136x256) ![0, 0] S136x256.size inb_S136x256_S136x256_0_0
abbrev rB1 : Rect S256 := Rect.unit (s := S256) ![0] S256.size inb_S256_S256_0
abbrev rW2 : Rect S256x128 := Rect.unit (s := S256x128) ![0, 0] S256x128.size inb_S256x128_S256x128_0_0
abbrev rB2 : Rect S128 := Rect.unit (s := S128) ![0] S128.size inb_S128_S128_0
abbrev rW3 : Rect S128x1 := Rect.unit (s := S128x1) ![0, 0] S128x1.size inb_S128x1_S128x1_0_0
abbrev rB3 : Rect S1 := Rect.unit (s := S1) ![0] S1.size inb_S1_S1_0
abbrev rOut : Rect S5000x1 := Rect.unit (s := S5000x1) ![0, 0] S5000x1.size inb_S5000x1_S5000x1_0_0

/-! ## What the body leaves in the output block -/

/-- The score block after the body, from the seven input blocks: its one store, the score payload of the loaded
    feature block, weights and biases, laid over the block. -/
def out7 (x0 : Vec F S5000x136 .f32) (x1 : Vec F S136x256 .f32) (x2 : Vec F S256 .f32) (x3 : Vec F S256x128 .f32)
    (x4 : Vec F S128 .f32) (x5 : Vec F S128x1 .f32) (x6 : Vec F S1 .f32) : Vec F S5000x1 .f32 :=
  View.canon [⟨rOut, k0_pay1 (View.ld x0 rX) (View.ld x1 rW1) (View.ld x2 rB1) (View.ld x3 rW2) (View.ld x4 rB2) (View.ld x5 rW3) (View.ld x6 rB3)⟩]

/-- One store through the whole block leaves its payload, and a load through a whole block reads the block: the
    score block is the payload of the input blocks. -/
theorem out7_eq (x0 : Vec F S5000x136 .f32) (x1 : Vec F S136x256 .f32) (x2 : Vec F S256 .f32) (x3 : Vec F S256x128 .f32)
    (x4 : Vec F S128 .f32) (x5 : Vec F S128x1 .f32) (x6 : Vec F S1 .f32) :
    out7 x0 x1 x2 x3 x4 x5 x6 = k0_pay1 x0 x1 x2 x3 x4 x5 x6 := by
  unfold out7
  rw [View.canon_unit_zero (S := S5000x1) zeros2 inb_S5000x1_S5000x1_0_0]
  rw [View.ld_unit_zero (S := S5000x136) zeros2 inb_S5000x136_S5000x136_0_0 x0,
    View.ld_unit_zero (S := S136x256) zeros2 inb_S136x256_S136x256_0_0 x1,
    View.ld_unit_zero (S := S256) zeros1 inb_S256_S256_0 x2,
    View.ld_unit_zero (S := S256x128) zeros2 inb_S256x128_S256x128_0_0 x3,
    View.ld_unit_zero (S := S128) zeros1 inb_S128_S128_0 x4,
    View.ld_unit_zero (S := S128x1) zeros2 inb_S128x1_S128x1_0_0 x5,
    View.ld_unit_zero (S := S1) zeros1 inb_S1_S1_0 x6]

/-- The one store covers the score block: every index lies in the whole-block rectangle. -/
theorem cover_out (p : Vec F S5000x1 .f32) (y : S5000x1.Idx) :
    ∃ pc ∈ ([⟨rOut, p⟩] : List (View.Piece (Elt F) S5000x1 .f32)), y ∈ pc.1.set :=
  ⟨_, List.mem_singleton_self _, View.mem_set_unit_zero (S := S5000x1) zeros2 inb_S5000x1_S5000x1_0_0 y⟩

/-! ## The body's triple -/

set_option maxHeartbeats 1000000 in
/-- The kernel body on whole staging memrefs — the seven inputs' at read contents x0 … x6, the score block's at
    anything (the body reads it once before it overwrites it, and uses nothing of what it read) — runs to the
    continuation holding the inputs' as they were and the score block's at the payload of the inputs. -/
theorem sound_kernel (c : Dev nD) (E : Set ℕ) (i : grid0.Coords) (arg1 : Memref sig .tc .vmem S5000x136 .f32) (harg1 : arg1.IsWhole) (arg2 : Memref sig .tc .vmem S136x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S128x1 .f32) (harg6 : arg6.IsWhole) (arg7 : Memref sig .tc .vmem S1 .f32) (harg7 : arg7.IsWhole) (arg8 : Memref sig .tc .vmem S5000x1 .f32) (harg8 : arg8.IsWhole)
    (x0 : Vec F S5000x136 .f32) (x1 : Vec F S136x256 .f32) (x2 : Vec F S256 .f32) (x3 : Vec F S256x128 .f32) (x4 : Vec F S128 .f32) (x5 : Vec F S128x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-! ## What the body finds in each input window's buffer -/

/-- Input window 0 (the t-th block of 5000 feature rows): its current staging buffer holds its block at every point,
    fetched there or not — where it is not fetched its block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the first layer's weights, whole): its current staging buffer holds its block at every point,
    fetched there or not — where it is not fetched its block index has not moved. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the first layer's bias, whole): its current staging buffer holds its block at every point,
    fetched there or not — where it is not fetched its block index has not moved. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 (the second layer's weights, whole): its current staging buffer holds its block at every point,
    fetched there or not — where it is not fetched its block index has not moved. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 (the second layer's bias, whole): its current staging buffer holds its block at every point,
    fetched there or not — where it is not fetched its block index has not moved. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 (the third layer's weights, whole): its current staging buffer holds its block at every point,
    fetched there or not — where it is not fetched its block index has not moved. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 (the third layer's bias, whole): its current staging buffer holds its block at every point,
    fetched there or not — where it is not fetched its block index has not moved. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the scoring pipeline on core c: the arrays as the region finds them; after the body at
    point t each input's buffer still at its block and the score buffer at the payload of the seven input blocks;
    the invariant the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 (iblk V c 0 t) (iblk V c 1 t) (iblk V c 2 t) (iblk V c 3 t) (iblk V c 4 t) (iblk V c 5 t) (iblk V c 6 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window: an input's block stays, the score block is the payload's. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = out7 (iblk V c 0 t) (iblk V c 1 t) (iblk V c 2 t) (iblk V c 3 t) (iblk V c 4 t) (iblk V c 5 t) (iblk V c 6 t) := by dsimp only [dat]

/-- Each input's current staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d

/-! ## The body obligation, at a generic point -/

/-- What the body is called with at point t: the invariant, what the core owes, and every window's current buffer, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so the body's triple applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.Bce.lean ====
/- Region 1 of the program: the block-sum kernel on the grid (2, 4), eight points in row-major order, four per
   core-row. The kernel keeps a one-element accumulator across the points of a row: at the first point of a row
   (coordinate 1 equal to 0) it clears the accumulator, at every point it adds the masked sum of the point's block
   to it, and at the last point of a row (coordinate 1 equal to 3) it broadcasts the accumulator into the row's
   output block. Stated here, at the contents `V` the TensorCore's buffers have when the region is entered: the
   accumulator after each point by recursion on the point, the output block at the points that write it, the
   region's proof data and invariant, one triple of the body per control case, and the body obligation. -/
import proofs.«409445_j54322746359987_3_alg».proof.Proof.Gen.KernelIdeal.Launch
import proofs.«409445_j54322746359987_3_alg».proof.Proof.Gen.KernelIdeal.Skeleton
import proofs.«409445_j54322746359987_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every access of the body are zero. -/
theorem off_zero2 : (![0, 0] : Fin 2 → ℕ) = fun _ => 0 := by
  funext a; fin_cases a <;> rfl

/-- The condition under which the body first clears the accumulator: grid coordinate 1 is zero. -/
abbrev condReset (i : grid1.Coords) : Prop :=
  (Scalar.cmpi .ne (Scalar.extui (Scalar.cmpi .eq (BitVec.ofNat 32 (i 1).val) 0#32)) 0#32) = 1#1

/-- The condition under which the body writes the accumulator out: grid coordinate 1 is three. -/
abbrev condOut (i : grid1.Coords) : Prop := k1_cond2 i = 1#1

/-- One accumulation: the accumulator after the body, from the three input blocks and the accumulator before it. -/
def step (i : grid1.Coords) (x0 x1 x2 : Vec F S1024x128 .f32) (a : Vec F S1x1 .f32) : Vec F S1x1 .f32 :=
  k1_pay1 (k1_pay4 x0 x1 x2) (k1_pay5 i) k1_pay6 a

/-- The whole-buffer rectangle of the accumulator. -/
abbrev rAcc : Rect S1x1 := Rect.unit (s := S1x1) ![0, 0] S1x1.size inb_S1x1_S1x1_0_0
/-- The whole-buffer rectangle of the output block. -/
abbrev rOut : Rect S1x128 := Rect.unit (s := S1x128) ![0, 0] S1x128.size inb_S1x128_S1x128_0_0

/-- A last store through the accumulator's whole rectangle covers it, whatever was stored before. -/
theorem cover_acc (p : Vec F S1x1 .f32) (L : List (View.Piece (Elt F) S1x1 .f32)) (y : S1x1.Idx) :
    ∃ pc ∈ ((⟨rAcc, p⟩ : View.Piece (Elt F) S1x1 .f32) :: L), y ∈ pc.1.set :=
  ⟨_, List.mem_cons_self, View.mem_set_unit_zero off_zero2 inb_S1x1_S1x1_0_0 y⟩

/-- A last store through the output block's whole rectangle covers it. -/
theorem cover_out (p : Vec F S1x128 .f32) (L : List (View.Piece (Elt F) S1x128 .f32)) (y : S1x128.Idx) :
    ∃ pc ∈ ((⟨rOut, p⟩ : View.Piece (Elt F) S1x128 .f32) :: L), y ∈ pc.1.set :=
  ⟨_, List.mem_cons_self, View.mem_set_unit_zero off_zero2 inb_S1x128_S1x128_0_0 y⟩

/-! ## The three control cases of the body, on any whole memrefs -/

set_option maxHeartbeats 1000000 in
/-- A point that clears the accumulator first: whatever it held, it ends at one accumulation from zero. -/
theorem run_reset (c : Dev nD) (i : grid1.Coords)
    (arg2 : Memref sig .tc .vmem S1024x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1x128 .f32) (harg5 : arg5.IsWhole)
    (arg6 : Memref sig .tc .vmem S1x1 .f32) (harg6 : arg6.IsWhole)
    (hr : condReset i) (hw : ¬ condOut i)
    (x0 x1 x2 : Vec F S1024x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg6 fullShare (step i x0 x1 x2 k1_pay3)) -∗ K ⟨⟩))
      ⊢ wp frame (wpE (defs₀ (F := F)) Variants.none c none) E (cc1__bce_kernel i arg2 harg2 arg3 harg3 arg4 harg4 arg5 harg5 arg6 harg6) K := by
  simp only [cc1__bce_kernel_eq_skeleton]; unfold cc1__bce_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hr | exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (cover_acc _ _), View.canon_cons_unit_zero off_zero2]
  unfold step
  simp only [View.readAt_eq_ld, harg2.read_unread, harg3.read_unread, harg4.read_unread,
    View.ld_unit_zero (S := S1024x128) off_zero2, View.ld_unit_zero (S := S1x1) off_zero2,
    View.readCov_unit_zero (S := S1x1) _ off_zero2]
set_option maxHeartbeats 1000000 in
/-- A point that neither clears nor writes out. -/
theorem run_acc (c : Dev nD) (i : grid1.Coords)
    (arg2 : Memref sig .tc .vmem S1024x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1x128 .f32) (harg5 : arg5.IsWhole)
    (arg6 : Memref sig .tc .vmem S1x1 .f32) (harg6 : arg6.IsWhole)
    (hr : ¬ condReset i) (hw : ¬ condOut i)
    (x0 x1 x2 : Vec F S1024x128 .f32) (a : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg6 fullShare a
        ∗ (iprop(owns (c : Thread nD τ) arg2 fullShare x0 ∗ owns (c : Thread nD τ) arg3 fullShare x1
            ∗ owns (c : Thread nD τ) arg4 fullShare x2 ∗ owns (c : Thread nD τ) arg6 fullShare (step i x0 x1 x2 a)) -∗ K ⟨⟩))
      ⊢ wp frame (wpE (defs₀ (F := F)) Variants.none c none) E (cc1__bce_kernel i arg2 harg2 arg3 harg3 arg4 harg4 arg5 harg5 arg6 harg6) K := by
  simp only [cc1__bce_kernel_eq_skeleton]; unfold cc1__bce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hr | exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (cover_acc _ _), View.canon_cons_unit_zero off_zero2]
  unfold step; sl_unfold_words
  simp only [View.readAt_eq_ld, harg2.read_unread, harg3.read_unread, harg4.read_unread, harg6.read_unread,
    View.ld_unit_zero (S := S1024x128) off_zero2, View.ld_unit_zero (S := S1x1) off_zero2]

set_option maxHeartbeats 1000000 in
/-- A point that writes out: after the accumulation the output block is filled from the accumulator. -/
theorem run_out (c : Dev nD) (i : grid1.Coords)
    (arg2 : Memref sig .tc .vmem S1024x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1x128 .f32) (harg5 : arg5.IsWhole)
    (arg6 : Memref sig .tc .vmem S1x1 .f32) (harg6 : arg6.IsWhole)
    (hr : ¬ condReset i) (hw : condOut i)
    (x0 x1 x2 : Vec F S1024x128 .f32) (a : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare a
        ∗ (iprop(owns (c : Thread nD τ) arg2 fullShare x0 ∗ owns (c : Thread nD τ) arg3 fullShare x1
            ∗ owns (c : Thread nD τ) arg4 fullShare x2
            ∗ owns (c : Thread nD τ) arg5 fullShare (k1_pay2 (step i x0 x1 x2 a))
            ∗ owns (c : Thread nD τ) arg6 fullShare (step i x0 x1 x2 a)) -∗ K ⟨⟩))
      ⊢ wp frame (wpE (defs₀ (F := F)) Variants.none c none) E (cc1__bce_kernel i arg2 harg2 arg3 harg3 arg4 harg4 arg5 harg5 arg6 harg6) K := by
  simp only [cc1__bce_kernel_eq_skeleton]; unfold cc1__bce_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hr | exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (cover_out _ _), View.canon_cons_unit_zero off_zero2]
    unfold step
    simp only [View.readAt_eq_ld, harg2.read_unread, harg3.read_unread, harg4.read_unread, harg6.read_unread,
      View.ld_unit_zero (S := S1024x128) off_zero2, View.ld_unit_zero (S := S1x1) off_zero2,
      View.readCov_unit_zero (S := S1x1) _ off_zero2]
  iexists _; isplitr
  swap; · iexact HS
  ipureintro
  sl_unfold_words
  rw [View.read_writes_eq_canon _ _ _ (cover_acc _ _), View.canon_cons_unit_zero off_zero2]
  unfold step
  simp only [View.readAt_eq_ld, harg2.read_unread, harg3.read_unread, harg4.read_unread, harg6.read_unread,
    View.ld_unit_zero (S := S1024x128) off_zero2, View.ld_unit_zero (S := S1x1) off_zero2,
    View.readCov_unit_zero (S := S1x1) _ off_zero2]

/-! ## The conditions over the grid, and where the output window is idle -/

/-- The accumulator is cleared exactly at the first point of each row of four. -/
theorem hcondReset : ∀ t : Fin cfg1.N, condReset (grid1.coords t) ↔ t.val % 4 = 0 :=
  (by decide +kernel : ∀ t : Fin grid1.N, condReset (grid1.coords t) ↔ t.val % 4 = 0)

/-- The accumulator is written out exactly at the last point of each row of four. -/
theorem hcondOut : ∀ t : Fin cfg1.N, condOut (grid1.coords t) ↔ t.val % 4 = 3 :=
  (by decide +kernel : ∀ t : Fin grid1.N, condOut (grid1.coords t) ↔ t.val % 4 = 3)

/-- The three input windows are never idle. -/
theorem live_0 : ∀ t : Fin cfg1.N, cfg1.idle 0 (grid1.coords t) = false := fun _ => rfl
theorem live_1 : ∀ t : Fin cfg1.N, cfg1.idle 1 (grid1.coords t) = false := fun _ => rfl
theorem live_2 : ∀ t : Fin cfg1.N, cfg1.idle 2 (grid1.coords t) = false := fun _ => rfl
/-- The output window is idle at the points that do not write out, -/
theorem idle_3 : ∀ t : Fin cfg1.N, ¬condOut (grid1.coords t) → cfg1.idle 3 (grid1.coords t) = true := by decide +kernel
/-- live at the points that do, -/
theorem live_3 : ∀ t : Fin cfg1.N, condOut (grid1.coords t) → cfg1.idle 3 (grid1.coords t) = false := by decide +kernel
/-- and its block is not written back at the points that are not the last of a row. -/
theorem noFlush_3 (t : Fin cfg1.N) (h : ¬t.val % 4 = 3) : (cfg1.win 3).flush t = false :=
  Bool.eq_false_iff.mpr fun hf => h ((flush1_3 t).mp hf)

/-! ## The scoped buffers beside the accumulator -/

/-- The accumulator: the kernel's one scratch operand, a whole scoped buffer of one element. -/
abbrev scM : Memref sig .tc .vmem S1x1 .f32 := Memref.whole cc1_scratch0

/-- What the region's invariant holds beside the accumulator and never names: the core's other scoped buffers
    that are no staging buffer of this region (the other region's staging buffers), each at some contents, and the
    generator register at some state. -/
def Rest (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg7_1), ((c : Thread nD τ).loc cc0_stg7_1) ↦{fullShare} f))
    ∗ ∃ r, prngReg c r)

/-- The class's invariant (every scoped buffer that is no staging buffer of the region at some contents, the
    generator register at some state) is the accumulator at some contents beside the rest: one way, -/
theorem PhiA_split (c : Dev nD) :
    (Pipeline.ΦA spec1 c : sProp 𝕄) ⊢ iprop((∃ d, owns (c : Thread nD τ) scM fullShare d) ∗ Rest (F := F) c) := by
  unfold Pipeline.ΦA Rest; rw [scopedRest1_eq]; simp only [scM, owns_whole]
  iintro ⟨⟨A0, A1, A2, A3, A4, A5, A6, A7, A8, A9, HS⟩, Hg⟩
  isplitl [HS]; · iexact HS
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hg

/-- and the other. -/
theorem PhiA_join (c : Dev nD) :
    iprop((∃ d, owns (c : Thread nD τ) scM fullShare d) ∗ Rest (F := F) c) ⊢ (Pipeline.ΦA spec1 c : sProp 𝕄) := by
  unfold Pipeline.ΦA Rest; rw [scopedRest1_eq]; simp only [scM, owns_whole]
  iintro ⟨HS, ⟨A0, A1, A2, A3, A4, A5, A6, A7, A8, A9⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact HS
  iexact Hg

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator and the output block, point by point -/

/-- THE ACCUMULATOR after point `n`: one accumulation of the point's three blocks, from zero at the first point of
    a row of four (`n % 4 = 0`: the body clears it there first), else from what the point before left. -/
def accAt (c : Dev nD) : (n : ℕ) → n < cfg1.N → Vec F S1x1 .f32
  | 0, hn => step (grid1.coords ⟨0, hn⟩) (iblk V c 0 ⟨0, hn⟩) (iblk V c 1 ⟨0, hn⟩) (iblk V c 2 ⟨0, hn⟩) k1_pay3
  | n + 1, hn =>
    if (n + 1) % 4 = 0 then
      step (grid1.coords ⟨n + 1, hn⟩) (iblk V c 0 ⟨n + 1, hn⟩) (iblk V c 1 ⟨n + 1, hn⟩) (iblk V c 2 ⟨n + 1, hn⟩) k1_pay3
    else
      step (grid1.coords ⟨n + 1, hn⟩) (iblk V c 0 ⟨n + 1, hn⟩) (iblk V c 1 ⟨n + 1, hn⟩) (iblk V c 2 ⟨n + 1, hn⟩)
        (accAt c n (Nat.lt_of_succ_lt hn))

/-- At the first point of a row the accumulation starts from zero. -/
theorem accAt_reset (c : Dev nD) (t : Fin cfg1.N) (h : t.val % 4 = 0) :
    accAt V c t.val t.isLt = step (grid1.coords t) (iblk V c 0 t) (iblk V c 1 t) (iblk V c 2 t) k1_pay3 := by
  obtain ⟨n, hn⟩ := t
  cases n with
  | zero => rfl
  | succ n => exact if_pos h

/-- At the other points it continues from the point before. -/
theorem accAt_acc (c : Dev nD) (t : Fin cfg1.N) (h : ¬t.val % 4 = 0) :
    accAt V c t.val t.isLt = step (grid1.coords t) (iblk V c 0 t) (iblk V c 1 t) (iblk V c 2 t)
      (accAt V c (t.val - 1) (Nat.lt_of_le_of_lt (Nat.sub_le _ _) t.isLt)) := by
  obtain ⟨n, hn⟩ := t
  cases n with
  | zero => exact absurd (Nat.zero_mod _) h
  | succ n => exact if_neg h

/-- THE OUTPUT BLOCK's staging buffer after point `n`: the accumulator broadcast along the block. Only the last
    point of each row (`n % 4 = 3`) stores it and writes it back; at the other points the window is idle, its buffer
    handed back as found, and this value is consulted by nothing. -/
def outAt (c : Dev nD) (n : ℕ) (hn : n < cfg1.N) : Vec F S1x128 .f32 :=
  k1_pay2 (accAt V c n hn)

/-- At a point that writes out, the output block is the row's finished accumulator, broadcast. -/
theorem outAt_flush (c : Dev nD) (t : Fin cfg1.N) (h : t.val % 4 = 3) :
    outAt V c t.val t.isLt = k1_pay2 (accAt V c t.val t.isLt) := rfl

/-! ## The invariant -/

/-- The region's invariant before position `n`: before the first point the class's (every scoped buffer that is no
    staging buffer of the region at anything); afterwards the accumulator at what the point before left in it,
    beside the rest. -/
def PhiS (c : Dev nD) : (n : ℕ) → n ≤ cfg1.N → sProp 𝕄
  | 0, _ => Pipeline.ΦA spec1 c
  | n + 1, hn => iprop(owns (c : Thread nD τ) scM fullShare (accAt V c n hn) ∗ Rest (F := F) c)

theorem PhiS_zero (c : Dev nD) (n : ℕ) (h : n ≤ cfg1.N) (hz : n = 0) : PhiS V c n h = Pipeline.ΦA spec1 c := by
  subst hz; rfl

/-- After point `n`: the accumulator at that point's value. -/
theorem PhiS_succ (c : Dev nD) (n : ℕ) (hn : n < cfg1.N) :
    PhiS V c (n + 1) hn = iprop(owns (c : Thread nD τ) scM fullShare (accAt V c n hn) ∗ Rest (F := F) c) := rfl

/-- Before a point that is not the first: the accumulator at what the point before left. -/
theorem PhiS_pos (c : Dev nD) (n : ℕ) (h : n ≤ cfg1.N) (hz : n ≠ 0) :
    PhiS V c n h = iprop(owns (c : Thread nD τ) scM fullShare (accAt V c (n - 1) (by omega)) ∗ Rest (F := F) c) := by
  cases n with
  | zero => exact absurd rfl hz
  | succ n => rfl

/-! ## The region's proof data -/

/-- The proof data of the region on core `c`: the arrays as the region finds them (`V`); after the body at point
    `t` each input's buffer at its block and the output's at `outAt`; the invariant `PhiS`; nothing owed; full
    shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outAt V c t.val t.isLt := by dsimp only [dat]

/-- The invariant at a point's start, restated at the point's number. -/
theorem PhiS_castSucc (c : Dev nD) (t : Fin cfg1.N) :
    (dat V c).Φ t.castSucc = PhiS V c t.val (Nat.le_of_lt t.isLt) := by
  dsimp only [dat]; simp only [Fin.coe_castSucc]

/-- Each input's current staging buffer holds its block at every point: the three inputs are uncut, never idle,
    and the body leaves them as it finds them. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body obligation asks of an input's buffer after the body: the block, still. -/
theorem leaves_0 (c : Dev nD) (t : Fin cfg1.N) :
    (dat V c).leavesExact 0 t = owns (c : Thread nD τ) (st1_0 t) fullShare (iblk V c 0 t) := by
  unfold Dat.leavesExact; rw [live_0 t, after_0]
theorem leaves_1 (c : Dev nD) (t : Fin cfg1.N) :
    (dat V c).leavesExact 1 t = owns (c : Thread nD τ) (st1_1 t) fullShare (iblk V c 1 t) := by
  unfold Dat.leavesExact; rw [live_1 t, after_1]
theorem leaves_2 (c : Dev nD) (t : Fin cfg1.N) :
    (dat V c).leavesExact 2 t = owns (c : Thread nD τ) (st1_2 t) fullShare (iblk V c 2 t) := by
  unfold Dat.leavesExact; rw [live_2 t, after_2]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number decides the control case.
    At the first point of a row the invariant hands over the accumulator at anything (before the very first point,
    out of the class's invariant; later, what the row before left, forgotten) and takes it back at one accumulation
    from zero; at the other points it hands it over at what the point before left and takes it back one accumulation
    on. The output's buffer is handed back as found except at the last point of a row, where it is left at the
    accumulator broadcast. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [leaves_0, leaves_1, leaves_2]
  have hN : t.val < 8 := lt_of_lt_of_eq t.isLt (show cfg1.N = 8 from N_1)
  by_cases h0 : t.val % 4 = 0
  · have h3 : ¬t.val % 4 = 3 := by omega
    rw [Dat.leavesExact_idle (dat V c) 3 t (idle_3 t (fun h => h3 ((hcondOut t).mp h))) (noFlush_3 t h3)]
    rw [accAt_reset V c t h0]
    by_cases hz : t.val = 0
    · rw [PhiS_castSucc V c t, PhiS_zero V c _ _ hz]
      iintro ⟨HΦ, Ho, ⟨%d0, H0⟩, ⟨%d1, H1⟩, ⟨%d2, H2⟩, H3⟩
      ihave ⟨HS, HR⟩ := (PhiA_split c) $$ HΦ
      iapply (run_reset c (grid1.coords t) _ _ _ _ _ _ _ _ _ _ ((hcondReset t).mpr h0) (fun h => h3 ((hcondOut t).mp h))
        (iblk V c 0 t) (iblk V c 1 t) (iblk V c 2 t) Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [PhiS_castSucc V c t, PhiS_pos V c _ _ hz]
      iintro ⟨⟨HS, HR⟩, Ho, ⟨%d0, H0⟩, ⟨%d1, H1⟩, ⟨%d2, H2⟩, H3⟩
      iapply (run_reset c (grid1.coords t) _ _ _ _ _ _ _ _ _ _ ((hcondReset t).mpr h0) (fun h => h3 ((hcondOut t).mp h))
        (iblk V c 0 t) (iblk V c 1 t) (iblk V c 2 t) Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexact H3
  · have hz : t.val ≠ 0 := fun e => h0 (by rw [e])
    rw [accAt_acc V c t h0]
    rw [PhiS_castSucc V c t, PhiS_pos V c _ _ hz]
    by_cases h3 : t.val % 4 = 3
    · rw [show (dat V c).leavesExact 3 t = owns (c : Thread nD τ) (st1_3 t) fullShare ((dat V c).after 3 t) from by
        unfold Dat.leavesExact; rw [live_3 t ((hcondOut t).mpr h3)], after_3, outAt_flush V c t h3, accAt_acc V c t h0]
      iintro ⟨⟨HS, HR⟩, Ho, ⟨%d0, H0⟩, ⟨%d1, H1⟩, ⟨%d2, H2⟩, ⟨%d3, H3⟩⟩
      iapply (run_out c (grid1.coords t) _ _ _ _ _ _ _ _ _ _ (fun h => h0 ((hcondReset t).mp h)) ((hcondOut t).mpr h3)
        (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · rw [Dat.leavesExact_idle (dat V c) 3 t (idle_3 t (fun h => h3 ((hcondOut t).mp h))) (noFlush_3 t h3)]
      iintro ⟨⟨HS, HR⟩, Ho, ⟨%d0, H0⟩, ⟨%d1, H1⟩, ⟨%d2, H2⟩, H3⟩
      iapply (run_acc c (grid1.coords t) _ _ _ _ _ _ _ _ _ _ (fun h => h0 ((hcondReset t).mp h)) (fun h => h3 ((hcondOut t).mp h))
        (iblk V c 0 t) (iblk V c 1 t) (iblk V c 2 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point the invariant gives the class's back: the accumulator's value is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HS, HR⟩
  iapply (PhiA_join c)
  isplitl [HS]; · iexists _; iexact HS
  iexact HR

/-- The same after the last point. -/
theorem hout (c : Dev nD) : (dat V c).Φ (Fin.last cfg1.N) ⊢ Pipeline.ΦA spec1 c :=
  Phi_out V c _ (by rw [Fin.val_last]; have : cfg1.N = 8 := N_1; omega)

/-- info: 'Cert.KernelIdeal.R1.body_obligation' depends on axioms: [propext, Classical.choice, Quot.sound] -/
#guard_msgs in #print axioms body_obligation

end Region

end Cert.KernelIdeal.R1

end
-- ==== Proof.KI.Run.lean ====
/- THE LAUNCH of the two-region program, at any float instance.

   @main is: region 0 (the scoring kernel), ten stretches of host operations, region 1 (the block-sum kernel),
   a last stretch. Between two items a core's unscoped buffers are held whole at a named valuation: the launch
   memory, then region 0's output array replaced by what its pipeline's write-backs leave, then each host
   stretch applied, then region 1's output array replaced likewise, then the last stretch. Each region is a
   record around those thread states: its arrays are split out of the unscoped buffers at entry and put back
   at their final contents at exit; region 0 keeps the class invariant, region 1 the invariant that carries
   its accumulator. The launch then says: every weakly fair execution terminates, every argument array ends
   as launched, and the result buffer ends at the last valuation's contents. -/
import proofs.«409445_j54322746359987_3_alg».proof.Proof.Gen.KernelIdeal.Regions
import proofs.«409445_j54322746359987_3_alg».proof.Proof.KI.Mlp
import proofs.«409445_j54322746359987_3_alg».proof.Proof.KI.Bce
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0 is entered from the launch memory. -/
abbrev EA : (c : Dev nD) → (b : Ref sig .tc) → Buf (Elt F) ((c : Thread nD τ).loc b) := fun c b => V0 m c b

/-- At region 0's exit: its arrays at what the pipeline leaves (the inputs as entered, the score array's
    write-backs folded), every other buffer as entered. -/
def WA (c : Dev nD) : Valuation τ sig (Elt F) :=
  Pipeline.withArrays spec0 c (V0 m c) fun w => (R0.dat (EA m) c).arrAt w cfg0.N

/-- What region 0 leaves, as the unknowns of the valuations between the items. -/
def outsA : Outs (F := F) := fun _ r c => WA m c r

/-- Region 1 is entered from the valuation after the tenth host stretch. -/
abbrev EB : (c : Dev nD) → (b : Ref sig .tc) → Buf (Elt F) ((c : Thread nD τ).loc b) := fun c b => V11 m (outsA m) c b

/-- At region 1's exit: its arrays at what the pipeline leaves, every other buffer as entered. -/
def WB (c : Dev nD) : Valuation τ sig (Elt F) :=
  Pipeline.withArrays spec1 c (V11 m (outsA m) c) fun w => (R1.dat (EB m) c).arrAt w cfg1.N

/-- What the two regions leave: after item 0 region 0's exit contents, after item 11 region 1's. -/
def outs : Outs (F := F) := fun J r c => if J = 1 then WA m c r else WB m c r

theorem outs_one (r : Ref sig .tc) (c : Dev nD) : outs m 1 r c = WA m c r := if_pos rfl
theorem outs_twelve (r : Ref sig .tc) (c : Dev nD) : outs m 12 r c = WB m c r := if_neg (by decide)

/-- The valuations up to region 1's entry only read what region 0 left. -/
theorem V1_eq (c : Dev nD) : V1 m (outs m) c = V1 m (outsA m) c := by
  show Function.update (V0 m c) main_v0 (outs m 1 main_v0 c) = Function.update (V0 m c) main_v0 (outsA m 1 main_v0 c)
  rw [outs_one]; rfl

theorem V11_eq (c : Dev nD) : V11 m (outs m) c = V11 m (outsA m) c := by
  show StableHlo.after hostOps1_9 (StableHlo.after hostOps1_8 (StableHlo.after hostOps1_7 (StableHlo.after hostOps1_6
    (StableHlo.after hostOps1_5 (StableHlo.after hostOps1_4 (StableHlo.after hostOps1_3 (StableHlo.after hostOps1_2
    (StableHlo.after hostOps1_1 (StableHlo.after hostOps1 (V1 m (outs m) c)))))))))) = _
  rw [V1_eq]

/-- After region 0 the score array holds what the pipeline's write-backs leave. -/
theorem V1_main_v0 (c : Dev nD) : V1 m (outs m) c main_v0 = (R0.dat (EA m) c).arrAt 7 cfg0.N := by
  show Function.update (V0 m c) main_v0 (outs m 1 main_v0 c) main_v0 = _
  rw [Function.update_self, outs_one]
  exact Pipeline.withArrays_arr spec0 launch0.win.arr_inj c _ _ 7

/-- After region 1 the partial-sum array holds what the pipeline's write-backs leave. -/
theorem V12_main_v24 (c : Dev nD) : V12 m (outs m) c main_v24 = (R1.dat (EB m) c).arrAt 3 cfg1.N := by
  show Function.update (V11 m (outs m) c) main_v24 (outs m 12 main_v24 c) main_v24 = _
  rw [Function.update_self, outs_twelve]
  exact Pipeline.withArrays_arr spec1 launch1.win.arr_inj c _ _ 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (EA m) c
  | ⟨1, _⟩ => fun c => R1.dat (EB m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Region 0's arrays at its exit -/

theorem hF0 (c : Dev nD) : ∀ w : Fin cfg0.W, (pdats m 0 c).arrAt w cfg0.N = V1 m (outs m) c (Pipeline.arrRef spec0 w)
  | ⟨0, _⟩ => ((R0.dat (EA m) c).arrAt_in 0 rfl _).trans ((R0.A_eq (EA m) c 0).trans (V1_of m (outs m) c main_arg0 (by decide)).symm)
  | ⟨1, _⟩ => ((R0.dat (EA m) c).arrAt_in 1 rfl _).trans ((R0.A_eq (EA m) c 1).trans (V1_of m (outs m) c main_arg4 (by decide)).symm)
  | ⟨2, _⟩ => ((R0.dat (EA m) c).arrAt_in 2 rfl _).trans ((R0.A_eq (EA m) c 2).trans (V1_of m (outs m) c main_arg5 (by decide)).symm)
  | ⟨3, _⟩ => ((R0.dat (EA m) c).arrAt_in 3 rfl _).trans ((R0.A_eq (EA m) c 3).trans (V1_of m (outs m) c main_arg6 (by decide)).symm)
  | ⟨4, _⟩ => ((R0.dat (EA m) c).arrAt_in 4 rfl _).trans ((R0.A_eq (EA m) c 4).trans (V1_of m (outs m) c main_arg7 (by decide)).symm)
  | ⟨5, _⟩ => ((R0.dat (EA m) c).arrAt_in 5 rfl _).trans ((R0.A_eq (EA m) c 5).trans (V1_of m (outs m) c main_arg8 (by decide)).symm)
  | ⟨6, _⟩ => ((R0.dat (EA m) c).arrAt_in 6 rfl _).trans ((R0.A_eq (EA m) c 6).trans (V1_of m (outs m) c main_arg9 (by decide)).symm)
  | ⟨7, _⟩ => (V1_main_v0 m c).symm

theorem hrest0 (c : Dev nD) : ∀ b, b ∉ Finset.univ.image (Pipeline.arrRef spec0) → V1 m (outs m) c b = EA m c b :=
  fun b hb => V1_of m (outs m) c b (fun h => hb (Finset.mem_image.mpr ⟨7, Finset.mem_univ _, (List.mem_singleton.mp h).symm⟩))

/-! ## Region 1's arrays at its exit -/

theorem hF1 (c : Dev nD) : ∀ w : Fin cfg1.W, (pdats m 1 c).arrAt w cfg1.N = V12 m (outs m) c (Pipeline.arrRef spec1 w)
  | ⟨0, _⟩ => ((R1.dat (EB m) c).arrAt_in 0 rfl _).trans ((R1.A_eq (EB m) c 0).trans
      ((congrFun (V11_eq m c) main_v21).symm.trans (V12_of m (outs m) c main_v21 (by decide)).symm))
  | ⟨1, _⟩ => ((R1.dat (EB m) c).arrAt_in 1 rfl _).trans ((R1.A_eq (EB m) c 1).trans
      ((congrFun (V11_eq m c) main_v22).symm.trans (V12_of m (outs m) c main_v22 (by decide)).symm))
  | ⟨2, _⟩ => ((R1.dat (EB m) c).arrAt_in 2 rfl _).trans ((R1.A_eq (EB m) c 2).trans
      ((congrFun (V11_eq m c) main_v23).symm.trans (V12_of m (outs m) c main_v23 (by decide)).symm))
  | ⟨3, _⟩ => (V12_main_v24 m c).symm

theorem hrest1 (c : Dev nD) : ∀ b, b ∉ Finset.univ.image (Pipeline.arrRef spec1) → V12 m (outs m) c b = EB m c b :=
  fun b hb => (V12_of m (outs m) c b (fun h => hb (Finset.mem_image.mpr ⟨3, Finset.mem_univ _, (List.mem_singleton.mp h).symm⟩))).trans
    (congrFun (V11_eq m c) b)

/-! ## The regions as segments -/

set_option backward.isDefEq.respectTransparency.types false in
/-- REGION 0 over the thread state: entered from every unscoped buffer at the launch contents, left at the
    contents with the score array replaced. Its arrays split out of the unscoped buffers and put back at the
    exit contents; the generator register into the class invariant and out; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (EA m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (EA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (EA m c) (R0.A_eq (EA m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (EA m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the tenth host
    stretch, left at those contents with the partial-sum array replaced. The class invariant is what the region
    is handed and what it gives back; inside, the invariant carries the accumulator from point to point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (EB m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (EB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (EB m c) (R1.A_eq (EB m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (EB m) c)
    unfold Pipeline.ΦA
    iintro ⟨Hp, -, Hr⟩
    isplitl [Hr]; · iexact Hr
    iexact Hp
  hout c := by
    rw [Pipeline.ownSems0_none]
    refine BIBase.Entails.trans (R1.hout (EB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (EB m c) (fun b => V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and first thread state -/

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

theorem hpre1 (c : Dev nD) : iprop(StableHlo.held (c : Thread nD τ) (Pipeline.ucRefs τ sig) (V11 m (outs m) c) ∗ E (F := F) 1 c) ⊢ (reg1 m).pre c := by
  rw [V11_eq]; exact .rfl

/-! ## The frame, and the run with the result read -/

/-- THE FRAME at any float instance: every weakly fair execution of @main terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) 0 (fun _ => iprop(emp)) u₀ hu₀ E (hE0 ρ) hE2
    (reg0 m) (fun _ => .rfl) (fun _ => .rfl) (reg1 m) (hpre1 m) (fun _ => .rfl)

/-! ## The run with the result read -/

-- the launch theorem's implicit arguments are found by unifying its conclusion with this one, which takes unfolding
-- plain definitions in a metavariable's type
set_option backward.isDefEq.respectTransparency.types false in
/-- THE RUN at any float instance: every weakly fair execution of @main terminates, nothing faulting; the result
    buffer ends at what the last valuation holds there, and every argument array ends as launched. The same
    segments and chaining as the frame; at the end the result's buffer is read off the last thread state beside
    the arguments'. -/
theorem run_value : θ_run defs (onTc (τ := τ) (main (F := F))) ⟨m, fun _ => 0, ρ⟩ (fun r => ∀ c : Dev nD,
      r.2.mem ((c.tc : Thread nD τ).loc main_v29) = V13 m (outs m) c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, hpre1 m c, .rfl, sep_mono .rfl (hE2 c)⟩)
    (hinit := ?_) (QY := fun c s => s.mem ((c.tc : Thread nD τ).loc main_v29) = V13 m (outs m) c main_v29
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: on every core the unscoped buffers are held at the launch contents, the generator register at its
    -- launch state, nothing owed
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result's and each argument's buffer read off the last valuation
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v29) (Finset.mem_filter.mpr ⟨StableHlo.devRef_mem_tcRefs main_v29, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c)⟩
    · iexact HSI

end Cert.KernelIdeal.Launch

end
-- ==== Proof.Spec.lean ====
/-
  The mathematics both programs compute, stated once over the argument arrays at the extended reals.

  A row of the feature matrix is scored by a three-layer perceptron: two hidden layers, each an affine map
  followed by the positive part, then an affine map to one number. A pair of positions (i, j) names two rows
  (a negative position counts from the end, as in NumPy; the row actually read is that position clamped into
  the table). The pair's loss is the binary cross-entropy of the logistic of the score difference against the
  order of the two rows' labels (the sign of the exact difference of the labels, so S is 1, 0 or -1), each
  logarithm cut off below at -100. The result is the sum of the pairs' losses.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A real matrix of literal extents, a real vector, a vector of 32-bit words. -/
abbrev Mat (a b : Nat) : Type := (⟨2, ![a, b]⟩ : Shape).Idx → EReal
abbrev Vc (a : Nat) : Type := (⟨1, ![a]⟩ : Shape).Idx → EReal
abbrev Wc (a : Nat) : Type := (⟨1, ![a]⟩ : Shape).Idx → BitVec 32

/-- The float literals the two programs share, kept as their words: 1 and -100. -/
abbrev one32 : EReal := Ideal.ofBits .f32 0x3F800000#32
abbrev m100 : EReal := Ideal.ofBits .f32 0xC2C80000#32

/-- First hidden layer at row `r`, unit `j`: the positive part of  Σₖ x[r,k]·W1[k,j] + b1[j]. -/
def hid1 (x : Mat 500000 136) (W1 : Mat 136 256) (b1 : Vc 256) (r : Fin 500000) (j : Fin 256) : EReal :=
  max ((∑ k : Fin 136, x (ix2 r k) * W1 (ix2 k j)) + b1 (ix1 j)) 0

/-- Second hidden layer at row `r`, unit `j`: the positive part of  Σₖ h1[r,k]·W2[k,j] + b2[j]. -/
def hid2 (x : Mat 500000 136) (W1 : Mat 136 256) (b1 : Vc 256) (W2 : Mat 256 128) (b2 : Vc 128)
    (r : Fin 500000) (j : Fin 128) : EReal :=
  max ((∑ k : Fin 256, hid1 x W1 b1 r k * W2 (ix2 k j)) + b2 (ix1 j)) 0

/-- The score of row `r`:  Σₖ h2[r,k]·W3[k,0] + b3[0]. -/
def score (x : Mat 500000 136) (W1 : Mat 136 256) (b1 : Vc 256) (W2 : Mat 256 128) (b2 : Vc 128)
    (W3 : Mat 128 1) (b3 : Vc 1) (r : Fin 500000) : EReal :=
  (∑ k : Fin 128, hid2 x W1 b1 W2 b2 r k * W3 (ix2 k 0)) + b3 (ix1 0)

/-- A negative position counts from the end of the 500000 rows. -/
def wrap (i : BitVec 32) : BitVec 32 := if i.slt 0#32 then i + 500000#32 else i

/-- The row a position reads: wrapped, read signed, clamped into the table. -/
def row (i : BitVec 32) : Fin 500000 := ⟨min (wrap i).toInt.toNat 499999, by omega⟩

/-- The order of two labels as a real number: the sign of their exact difference. -/
def ord (ti tj : BitVec 32) : EReal := Ideal.sign (((ti.toInt : ℝ) : EReal) - ((tj.toInt : ℝ) : EReal))

/-- One pair's loss from its two scores and its label order `S`:
    -(S·max(log p, -100) + (1 - S)·max(log(1 - p), -100))  with  p = logistic(1·(sᵢ - sⱼ)). -/
def loss (si sj S : EReal) : EReal :=
  -(S * max (Ideal.log (Ideal.logistic (one32 * (si - sj)))) m100
    + (one32 - S) * max (Ideal.log1p (-(Ideal.logistic (one32 * (si - sj))))) m100)

/-- Pair `p`'s loss from the arguments. -/
def pairLoss (x : Mat 500000 136) (W1 : Mat 136 256) (b1 : Vc 256) (W2 : Mat 256 128) (b2 : Vc 128)
    (W3 : Mat 128 1) (b3 : Vc 1) (t : Wc 500000) (ii jj : Wc 1000000) (p : Fin 1000000) : EReal :=
  loss (score x W1 b1 W2 b2 W3 b3 (row (ii (ix1 p)))) (score x W1 b1 W2 b2 W3 b3 (row (jj (ix1 p))))
    (ord (t (ix1 (row (ii (ix1 p))))) (t (ix1 (row (jj (ix1 p))))))

/-- The result: the sum of the pairs' losses. -/
def total (x : Mat 500000 136) (W1 : Mat 136 256) (b1 : Vc 256) (W2 : Mat 256 128) (b2 : Vc 128)
    (W3 : Mat 128 1) (b3 : Vc 1) (t : Wc 500000) (ii jj : Wc 1000000) : EReal :=
  ∑ p : Fin 1000000, pairLoss x W1 b1 W2 b2 W3 b3 t ii jj p

end Cert.Spec

end
-- ==== Proof.KI.MlpPay.lean ====
/-
  The scoring body's stored value, read at one row of its block, is the specification's score of that row.

  The body stores  (h₂ · W3 + b3)  where  h₂ = max(h₁ · W2 + b2, 0)  and  h₁ = max(X · W1 + b1, 0)  for the block X of
  5000 feature rows: three matrix products into zero accumulators, each followed by a bias reshaped [n] → [1, n] and
  repeated down the rows, the first two followed by the positive part. At the extended reals the narrowing of a
  product's operands to 16 bits is the identity, a product into the zero accumulator read at (r, j) is the sum over
  the contraction coordinate k of lhs[r, k] · rhs[k, j], and the repeated bias read at (r, j) is b[j]. So row r of the
  stored column depends only on row r of X, and is the three-layer perceptron of that row.
-/
import proofs.«409445_j54322746359987_3_alg».proof.Proof.Gen.KernelIdeal.Skeleton
import proofs.«409445_j54322746359987_3_alg».proof.Proof.Spec
import Idealize.ShloMosaic.Lib.Pipeline.Value
import Idealize.ShloMosaic.Lib.ValueIdx
import Idealize.ShloMosaic.PureOps.Ideal.Laws

noncomputable section

namespace Cert.KernelIdeal.R0V

open Cert.KernelIdeal Cert.KernelIdeal.Gen Idealize.ShloMosaic Idealize.ShloMosaic.ValueIdx

/-! ## A product into the zero accumulator, read at (r, j)

For each of the three products: which coordinate of each operand index the output index and the contraction index
give (the left operand is read at (r, k), the right at (k, j)), then the sum over the one-axis contraction index
re-indexed by its coordinate k. -/

theorem lhs_mm1_0 (i : S5000x256.Idx) (q : dot_S5000x136_S136x256_S5000x256_1_0_0_1_n_n.contr.Idx) :
    (dot_S5000x136_S136x256_S5000x256_1_0_0_1_n_n.lhsIdx i q 0).val = (i 0).val := by
  unfold DotDims.lhsIdx
  rw [dif_neg (show ¬(0 : Fin S5000x136.rank) ∈ dot_S5000x136_S136x256_S5000x256_1_0_0_1_n_n.lhsBatch by decide), dif_pos (show (0 : Fin S5000x136.rank) ∈ dot_S5000x136_S136x256_S5000x256_1_0_0_1_n_n.lhsNonContracting by decide)]
  rfl
theorem lhs_mm1_1 (i : S5000x256.Idx) (q : dot_S5000x136_S136x256_S5000x256_1_0_0_1_n_n.contr.Idx) :
    (dot_S5000x136_S136x256_S5000x256_1_0_0_1_n_n.lhsIdx i q 1).val = (q ⟨0, by decide⟩).val :=
  dot_S5000x136_S136x256_S5000x256_1_0_0_1_n_n.lhsIdx_val_of_single rfl i q
theorem rhs_mm1_0 (i : S5000x256.Idx) (q : dot_S5000x136_S136x256_S5000x256_1_0_0_1_n_n.contr.Idx) :
    (dot_S5000x136_S136x256_S5000x256_1_0_0_1_n_n.rhsIdx i q 0).val = (q ⟨0, by decide⟩).val :=
  dot_S5000x136_S136x256_S5000x256_1_0_0_1_n_n.rhsIdx_val_of_single rfl i q
theorem rhs_mm1_1 (i : S5000x256.Idx) (q : dot_S5000x136_S136x256_S5000x256_1_0_0_1_n_n.contr.Idx) :
    (dot_S5000x136_S136x256_S5000x256_1_0_0_1_n_n.rhsIdx i q 1).val = (i 1).val := by
  unfold DotDims.rhsIdx
  rw [dif_neg (show ¬(1 : Fin S136x256.rank) ∈ dot_S5000x136_S136x256_S5000x256_1_0_0_1_n_n.rhsBatch by decide), dif_pos (show (1 : Fin S136x256.rank) ∈ dot_S5000x136_S136x256_S5000x256_1_0_0_1_n_n.rhsNonContracting by decide)]
  rfl

/-- First product, [5000,136] · [136,256], at (r, j): Σₖ a[r,k] · b[k,j] over the 136 features. -/
theorem mm1_apply (a : FVec Ideal S5000x136 .bf16) (b : FVec Ideal S136x256 .bf16) (r : Fin 5000) (j : Fin 256) :
    matmul dot_S5000x136_S136x256_S5000x256_1_0_0_1_n_n none a b (constant (F := Ideal) S5000x256 .f32 0x00000000#32) (ix2 r j)
      = ∑ k : Fin 136, a (ix2 r k) * b (ix2 k j) := by
  simp only [matmul]
  rw [Ideal.matmul_constant_zero_apply, ← Equiv.sum_comp (contrEquiv1 dot_S5000x136_S136x256_S5000x256_1_0_0_1_n_n 136 rfl rfl).symm]
  refine Finset.sum_congr rfl fun k _ => ?_
  have hk := contrEquiv1_symm_val dot_S5000x136_S136x256_S5000x256_1_0_0_1_n_n 136 rfl rfl k
  have el : dot_S5000x136_S136x256_S5000x256_1_0_0_1_n_n.lhsIdx (ix2 r j) ((contrEquiv1 dot_S5000x136_S136x256_S5000x256_1_0_0_1_n_n 136 rfl rfl).symm k) = ix2 r k := funext fun c => Fin.ext (by
    match c with
    | ⟨0, _⟩ => exact lhs_mm1_0 _ _
    | ⟨1, _⟩ => exact (lhs_mm1_1 _ _).trans hk)
  have er : dot_S5000x136_S136x256_S5000x256_1_0_0_1_n_n.rhsIdx (ix2 r j) ((contrEquiv1 dot_S5000x136_S136x256_S5000x256_1_0_0_1_n_n 136 rfl rfl).symm k) = ix2 k j := funext fun c => Fin.ext (by
    match c with
    | ⟨0, _⟩ => exact (rhs_mm1_0 _ _).trans hk
    | ⟨1, _⟩ => exact rhs_mm1_1 _ _)
  rw [el, er]

theorem lhs_mm2_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_mm2_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_mm2_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_mm2_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Second product, [5000,256] · [256,128], at (r, j): Σₖ a[r,k] · b[k,j] over the 256 first-layer units. -/
theorem mm2_apply (a : FVec Ideal S5000x256 .bf16) (b : FVec Ideal S256x128 .bf16) (r : Fin 5000) (j : Fin 128) :
    matmul dot_S5000x256_S256x128_S5000x128_1_0_0_1_n_n none a b (constant (F := Ideal) S5000x128 .f32 0x00000000#32) (ix2 r j)
      = ∑ k : Fin 256, a (ix2 r k) * b (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r j) ((contrEquiv1 dot_S5000x256_S256x128_S5000x128_1_0_0_1_n_n 256 rfl rfl).symm k) = ix2 r k := funext fun c => Fin.ext (by
    match c with
    | ⟨0, _⟩ => exact lhs_mm2_0 _ _
    | ⟨1, _⟩ => exact (lhs_mm2_1 _ _).trans hk)
  have er : dot_S5000x256_S256x128_S5000x128_1_0_0_1_n_n.rhsIdx (ix2 r j) ((contrEquiv1 dot_S5000x256_S256x128_S5000x128_1_0_0_1_n_n 256 rfl rfl).symm k) = ix2 k j := funext fun c => Fin.ext (by
    match c with
    | ⟨0, _⟩ => exact (rhs_mm2_0 _ _).trans hk
    | ⟨1, _⟩ => exact rhs_mm2_1 _ _)
  rw [el, er]

theorem lhs_mm3_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_mm3_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_mm3_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_mm3_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Third product, [5000,128] · [128,1], at (r, j): Σₖ a[r,k] · b[k,j] over the 128 second-layer units. -/
theorem mm3_apply (a : FVec Ideal S5000x128 .bf16) (b : FVec Ideal S128x1 .bf16) (r : Fin 5000) (j : Fin 1) :
    matmul dot_S5000x128_S128x1_S5000x1_1_0_0_1_n_n none a b (constant (F := Ideal) S5000x1 .f32 0x00000000#32) (ix2 r j)
      = ∑ k : Fin 128, a (ix2 r k) * b (ix2 k j) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 r j) ((contrEquiv1 dot_S5000x128_S128x1_S5000x1_1_0_0_1_n_n 128 rfl rfl).symm k) = ix2 r k := funext fun c => Fin.ext (by
    match c with
    | ⟨0, _⟩ => exact lhs_mm3_0 _ _
    | ⟨1, _⟩ => exact (lhs_mm3_1 _ _).trans hk)
  have er : dot_S5000x128_S128x1_S5000x1_1_0_0_1_n_n.rhsIdx (ix2 r j) ((contrEquiv1 dot_S5000x128_S128x1_S5000x1_1_0_0_1_n_n 128 rfl rfl).symm k) = ix2 k j := funext fun c => Fin.ext (by
    match c with
    | ⟨0, _⟩ => exact (rhs_mm3_0 _ _).trans hk
    | ⟨1, _⟩ => exact rhs_mm3_1 _ _)
  rw [el, er]

/-! ## A bias repeated down the rows -/

/-- A bias vector reshaped [n] → [1, n] and repeated down the m rows reads, at row r and column j, the bias at j. -/
theorem bias_apply {m n : Nat} (b : (⟨1, ![n]⟩ : Shape).Idx → EReal)
    (hs : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ b hs) hb (ix2 r j) = b (ix1 j) := by
  refine (broadcastTo_apply _ hb (ix2 r j) (ix2 (0 : Fin 1) j) (fun a => ?_)).trans ?_
  · match a with
    | ⟨0, _⟩ =>
      show (0 : Nat) = if (1 : Nat) = 1 then 0 else _
      rw [if_pos rfl]
    | ⟨1, _⟩ =>
      show j.val = if n = 1 then 0 else j.val
      split_ifs with h
      · have := j.isLt; omega
      · rfl
  · refine shapeCast_apply b hs (ix2 (0 : Fin 1) j) (ix1 j) ?_
    rw [Shape.rowMajor_val_one, Shape.rowMajor_val_two]
    show j.val = 0 * n + j.val
    omega

/-! ## The three layers of the block -/

/-- First hidden layer of a block of feature rows: max(X · W1 + b1, 0). -/
def lay1 (x0 : Vec Ideal S5000x136 .f32) (x1 : Vec Ideal S136x256 .f32) (x2 : Vec Ideal S256 .f32) : FVec Ideal S5000x256 .f32 :=
  maximumf
    (addf
      (matmul dot_S5000x136_S136x256_S5000x256_1_0_0_1_n_n none (truncf .bf16 x0 bitsLt_bf16_f32) (truncf .bf16 x1 bitsLt_bf16_f32)
        (constant (F := Ideal) S5000x256 .f32 0x00000000#32))
      (broadcastTo S5000x256 (shapeCast S1x256 x2 shapeCasts_S256_S1x256) broadcasts_S1x256_S5000x256))
    (broadcast S5000x256 (Scalar.ofBits (F := Ideal) .f32 0x00000000#32))

/-- Second hidden layer from the first: max(h · W2 + b2, 0). -/
def lay2 (h : FVec Ideal S5000x256 .f32) (x3 : Vec Ideal S256x128 .f32) (x4 : Vec Ideal S128 .f32) : FVec Ideal S5000x128 .f32 :=
  maximumf
    (addf
      (matmul dot_S5000x256_S256x128_S5000x128_1_0_0_1_n_n none (truncf .bf16 h bitsLt_bf16_f32) (truncf .bf16 x3 bitsLt_bf16_f32)
        (constant (F := Ideal) S5000x128 .f32 0x00000000#32))
      (broadcastTo S5000x128 (shapeCast S1x128 x4 shapeCasts_S128_S1x128) broadcasts_S1x128_S5000x128))
    (broadcast S5000x128 (Scalar.ofBits (F := Ideal) .f32 0x00000000#32))

/-- The score column from the second hidden layer: h · W3 + b3. -/
def lay3 (h : FVec Ideal S5000x128 .f32) (x5 : Vec Ideal S128x1 .f32) (x6 : Vec Ideal S1 .f32) : FVec Ideal S5000x1 .f32 :=
  addf
    (matmul dot_S5000x128_S128x1_S5000x1_1_0_0_1_n_n none (truncf .bf16 h bitsLt_bf16_f32) (truncf .bf16 x5 bitsLt_bf16_f32)
      (constant (F := Ideal) S5000x1 .f32 0x00000000#32))
    (broadcastTo S5000x1 (shapeCast S1x1 x6 shapeCasts_S1_S1x1) broadcasts_S1x1_S5000x1)

/-- The stored value is the three layers composed. -/
theorem pay_eq_layers (x0 : Vec Ideal S5000x136 .f32) (x1 : Vec Ideal S136x256 .f32) (x2 : Vec Ideal S256 .f32)
    (x3 : Vec Ideal S256x128 .f32) (x4 : Vec Ideal S128 .f32) (x5 : Vec Ideal S128x1 .f32) (x6 : Vec Ideal S1 .f32) :
    k0_pay1 (F := Ideal) x0 x1 x2 x3 x4 x5 x6 = lay3 (lay2 (lay1 x0 x1 x2) x3 x4) x5 x6 := by
  unfold k0_pay1 lay3 lay2 lay1
  rfl

/-- First layer at row r, unit j: the positive part of Σₖ x[r,k]·W1[k,j] + b1[j]. -/
theorem lay1_apply (x0 : Vec Ideal S5000x136 .f32) (x1 : Vec Ideal S136x256 .f32) (x2 : Vec Ideal S256 .f32)
    (r : Fin 5000) (j : Fin 256) :
    lay1 x0 x1 x2 (ix2 r j) = max ((∑ k : Fin 136, x0 (ix2 r k) * x1 (ix2 k j)) + x2 (ix1 j)) 0 := by
  unfold lay1
  rw [maximumf_apply, addf_apply, mm1_apply, bias_apply, broadcast_apply]
  show max _ (Ideal.ofBits .f32 0x00000000#32) = _
  rw [Ideal.ofBits_zero_f32]
  rfl

/-- Second layer at row r, unit j: the positive part of Σₖ h[r,k]·W2[k,j] + b2[j]. -/
theorem lay2_apply (h : FVec Ideal S5000x256 .f32) (x3 : Vec Ideal S256x128 .f32) (x4 : Vec Ideal S128 .f32)
    (r : Fin 5000) (j : Fin 128) :
    lay2 h x3 x4 (ix2 r j) = max ((∑ k : Fin 256, h (ix2 r k) * x3 (ix2 k j)) + x4 (ix1 j)) 0 := by
  unfold lay2
  rw [maximumf_apply, addf_apply, mm2_apply, bias_apply, broadcast_apply]
  show max _ (Ideal.ofBits .f32 0x00000000#32) = _
  rw [Ideal.ofBits_zero_f32]
  rfl

/-- The score column at row r: Σₖ h[r,k]·W3[k,0] + b3[0]. -/
theorem lay3_apply (h : FVec Ideal S5000x128 .f32) (x5 : Vec Ideal S128x1 .f32) (x6 : Vec Ideal S1 .f32)
    (r : Fin 5000) :
    lay3 h x5 x6 (ix2 r 0) = (∑ k : Fin 128, h (ix2 r k) * x5 (ix2 k 0)) + x6 (ix1 0) := by
  unfold lay3
  rw [addf_apply, mm3_apply, bias_apply]
  rfl

/-! ## The stored value at a row -/

/-- Row r of the stored column is the score of the feature-matrix row R that row r of the block holds. -/
theorem pay_row (x0 : Vec Ideal S5000x136 .f32) (x1 : Vec Ideal S136x256 .f32) (x2 : Vec Ideal S256 .f32)
    (x3 : Vec Ideal S256x128 .f32) (x4 : Vec Ideal S128 .f32) (x5 : Vec Ideal S128x1 .f32) (x6 : Vec Ideal S1 .f32)
    (x : Cert.Spec.Mat 500000 136) (r : Fin 5000) (R : Fin 500000) (hx : ∀ k : Fin 136, x0 (ix2 r k) = x (ix2 R k)) :
    k0_pay1 (F := Ideal) x0 x1 x2 x3 x4 x5 x6 (ix2 r 0) = Cert.Spec.score x x1 x2 x3 x4 x5 x6 R := by
  rw [pay_eq_layers, lay3_apply]
  unfold Cert.Spec.score
  refine congrArg (· + x6 (ix1 0)) (Finset.sum_congr rfl fun k _ => congrArg (· * x5 (ix2 k 0)) ?_)
  rw [lay2_apply]
  unfold Cert.Spec.hid2
  refine congrArg (fun s => max (s + x4 (ix1 k)) 0) (Finset.sum_congr rfl fun l _ => congrArg (· * x3 (ix2 l k)) ?_)
  rw [lay1_apply]
  unfold Cert.Spec.hid1
  exact congrArg (fun s => max (s + x2 (ix1 l)) 0) (Finset.sum_congr rfl fun m _ => by rw [hx m])

end Cert.KernelIdeal.R0V

end
-- ==== Proof.KI.MlpValue.lean ====
/-
  The score array after the scoring region: entry (R, 0) is the specification's score of feature row R.

  The region runs 100 points. At point t the feature window holds rows 5000·t … 5000·t + 4999 of the feature matrix,
  the six weight and bias windows hold their whole arrays, and the body leaves in the score window's block the
  score column of those 5000 rows, which is written back as rows 5000·t … 5000·t + 4999 of the [500000, 1] score
  array. Row r of the block's column is the score of feature row 5000·t + r, so every point writes its block of ONE
  function of the region-entry arrays, R ↦ score of row R; the blocks tile the array (row R is in the block of point
  R / 5000), so the array ends holding that function.
-/
import proofs.«409445_j54322746359987_3_alg».proof.Proof.KI.Mlp
import proofs.«409445_j54322746359987_3_alg».proof.Proof.KI.MlpPay
import proofs.«409445_j54322746359987_3_alg».proof.Proof.Spec
import Idealize.ShloMosaic.Lib.Pipeline.Value
import Idealize.ShloMosaic.Lib.ValueIdx

noncomputable section

namespace Cert.KernelIdeal.R0V

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The windows' block indices, decided over the 100 grid points: the feature window and the score window are at
    block (t, 0), the six weight and bias windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The weight and bias windows hold their whole arrays

Each of these six windows has one block, the array itself, at block index 0: reading the block is reading the array. -/

theorem blk1 (c : Dev nD) (t : Fin cfg0.N) :
    (R0.iblk V c 1 t : Vec Ideal S136x256 .f32) = (V c main_arg4 : Vec Ideal S136x256 .f32) := by
  obtain ⟨-, -, e0, e1, -⟩ := idx_facts t
  funext y
  show V c main_arg4 (((cfg0.win 1).blk t).view.emb y) = V c main_arg4 y
  refine congrArg (V c main_arg4) (funext fun a => Fin.ext ?_)
  match a with
  | ⟨0, _⟩ => show win0_1.index t (0 : Fin 2) * 136 + 1 * (y 0).val = (y 0).val; omega
  | ⟨1, _⟩ => show win0_1.index t (1 : Fin 2) * 256 + 1 * (y 1).val = (y 1).val; omega

theorem blk2 (c : Dev nD) (t : Fin cfg0.N) :
    (R0.iblk V c 2 t : Vec Ideal S256 .f32) = (V c main_arg5 : Vec Ideal S256 .f32) := by
  obtain ⟨-, -, -, -, e0, -⟩ := idx_facts t
  funext y
  show V c main_arg5 (((cfg0.win 2).blk t).view.emb y) = V c main_arg5 y
  refine congrArg (V c main_arg5) (funext fun a => Fin.ext ?_)
  match a with
  | ⟨0, _⟩ => show win0_2.index t (0 : Fin 1) * 256 + 1 * (y 0).val = (y 0).val; omega

theorem blk3 (c : Dev nD) (t : Fin cfg0.N) :
    (R0.iblk V c 3 t : Vec Ideal S256x128 .f32) = (V c main_arg6 : Vec Ideal S256x128 .f32) := by
  obtain ⟨-, -, -, -, -, e0, e1, -⟩ := idx_facts t
  funext y
  show V c main_arg6 (((cfg0.win 3).blk t).view.emb y) = V c main_arg6 y
  refine congrArg (V c main_arg6) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem blk4 (c : Dev nD) (t : Fin cfg0.N) :
    (R0.iblk V c 4 t : Vec Ideal S128 .f32) = (V c main_arg7 : Vec Ideal S128 .f32) := by
  obtain ⟨-, -, -, -, -, -, -, e0, -⟩ := idx_facts t
  funext y
  show V c main_arg7 (((cfg0.win 4).blk t).view.emb y) = V c main_arg7 y
  refine congrArg (V c main_arg7) (funext fun a => Fin.ext ?_)
  match a with
  | ⟨0, _⟩ => show win0_4.index t (0 : Fin 1) * 128 + 1 * (y 0).val = (y 0).val; omega

theorem blk5 (c : Dev nD) (t : Fin cfg0.N) :
    (R0.iblk V c 5 t : Vec Ideal S128x1 .f32) = (V c main_arg8 : Vec Ideal S128x1 .f32) := by
  obtain ⟨-, -, -, -, -, -, -, -, e0, e1, -⟩ := idx_facts t
  funext y
  show V c main_arg8 (((cfg0.win 5).blk t).view.emb y) = V c main_arg8 y
  refine congrArg (V c main_arg8) (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

theorem blk6 (c : Dev nD) (t : Fin cfg0.N) :
    (R0.iblk V c 6 t : Vec Ideal S1 .f32) = (V c main_arg9 : Vec Ideal S1 .f32) := by
  obtain ⟨-, -, -, -, -, -, -, -, -, -, e0, -⟩ := idx_facts t
  funext y
  show V c main_arg9 (((cfg0.win 6).blk t).view.emb y) = V c main_arg9 y
  refine congrArg (V c main_arg9) (funext fun a => Fin.ext ?_)
  match a with
  | ⟨0, _⟩ => show win0_6.index t (0 : Fin 1) * 1 + 1 * (y 0).val = (y 0).val; omega

/-! ## The feature window's rows, the written block, the cover -/

/-- The feature window's block at point t, read at row r, is row 5000·t + r of the feature matrix. -/
theorem blk0_row (c : Dev nD) (t : Fin cfg0.N) (r : Fin 5000) (R : Fin 500000) (hR : R.val = t.val * 5000 + r.val) (k : Fin 136) :
    (R0.iblk V c 0 t : Vec Ideal S5000x136 .f32) (ix2 r k) = (V c main_arg0 : Cert.Spec.Mat 500000 136) (ix2 R k) := by
  obtain ⟨e0, e1, -⟩ := idx_facts t
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 5000 + 1 * r.val = R.val; omega
  | ⟨1, _⟩ => show win0_0.index t (1 : Fin 2) * 136 + 1 * k.val = k.val; omega

/-- The score array the region computes: entry (R, 0) is the score of feature row R under the region-entry weights. -/
abbrev scoreArr (c : Dev nD) : S500000x1.Idx → EReal := fun i =>
  Cert.Spec.score (V c main_arg0) (V c main_arg4) (V c main_arg5) (V c main_arg6) (V c main_arg7) (V c main_arg8) (V c main_arg9) (i 0)

/-- What point t writes back is block t of the score array: row r of the body's column is the score of the feature
    row the block's row r holds, and that row is row 5000·t + r, the array row under the block's row r. -/
theorem flushed_eq (c : Dev nD) (t : Fin cfg0.N) :
    (R0.dat V c).flushed 7 t = ((cfg0.win 7).blk t).view.read (Elt Ideal) (scoreArr V c) := by
  show (cfg0.win 7).cut (grid0.coords t) ((R0.dat V c).after 7 t) = _
  rw [R0.after_7, R0.out7_eq]
  obtain ⟨-, -, -, -, -, -, -, -, -, -, -, e0, e1⟩ := idx_facts t
  have ht : t.val < 100 := Nat.lt_of_lt_of_eq t.isLt (show cfg0.N = 100 from N_0)
  refine funext fun (j : S5000x1.Idx) => ?_
  obtain ⟨r, q, rfl⟩ : ∃ (r : Fin 5000) (q : Fin 1), j = ix2 r q := ⟨j 0, j 1, eq_ix2 j⟩
  obtain rfl : q = 0 := Subsingleton.elim _ _
  have hlt : t.val * 5000 + r.val < 500000 := by have := r.isLt; omega
  have hemb : (((cfg0.win 7).blk t).view.emb (ix2 r (0 : Fin 1)) : S500000x1.Idx) 0 = (⟨t.val * 5000 + r.val, hlt⟩ : Fin 500000) :=
    Fin.ext (by show win0_7.index t (0 : Fin 2) * 5000 + 1 * r.val = t.val * 5000 + r.val; omega)
  show k0_pay1 (F := Ideal) (R0.iblk V c 0 t) (R0.iblk V c 1 t) (R0.iblk V c 2 t) (R0.iblk V c 3 t) (R0.iblk V c 4 t) (R0.iblk V c 5 t) (R0.iblk V c 6 t) (ix2 r 0)
    = Cert.Spec.score (V c main_arg0) (V c main_arg4) (V c main_arg5) (V c main_arg6) (V c main_arg7) (V c main_arg8) (V c main_arg9)
        ((((cfg0.win 7).blk t).view.emb (ix2 r (0 : Fin 1)) : S500000x1.Idx) 0)
  rw [hemb]
  refine (pay_row (R0.iblk V c 0 t) (R0.iblk V c 1 t) (R0.iblk V c 2 t) (R0.iblk V c 3 t) (R0.iblk V c 4 t) (R0.iblk V c 5 t) (R0.iblk V c 6 t)
    (V c main_arg0) r ⟨t.val * 5000 + r.val, hlt⟩ (fun k => blk0_row V c t r ⟨t.val * 5000 + r.val, hlt⟩ rfl k)).trans ?_
  rw [blk1 V c t, blk2 V c t, blk3 V c t, blk4 V c t, blk5 V c t, blk6 V c t]

/-- An index of the score array is in point t's block iff each coordinate is in the block's range on its axis. -/
theorem mem_blk7 (t : Fin cfg0.N) (i : S500000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v0).slice (win0_7.rect t)).set ↔ _
  rw [View.set_slice_whole, Rect.mem_set_unit]
  exact Iff.rfl

/-- The blocks tile the score array: row R is in the block of point R / 5000, and every point writes its block back. -/
theorem cover7 (i : S500000x1.Idx) : ∃ t : Fin cfg0.N, (cfg0.win 7).flush t = true ∧ i ∈ ((cfg0.win 7).blk t).view.set := by
  have hi0 : (i 0).val < 500000 := (i 0).isLt
  have hi1 : (i 1).val < 1 := (i 1).isLt
  have hN : cfg0.N = 100 := N_0
  obtain ⟨t, htv⟩ : ∃ t : Fin cfg0.N, t.val = (i 0).val / 5000 := ⟨⟨(i 0).val / 5000, by rw [hN]; omega⟩, rfl⟩
  obtain ⟨-, -, -, -, -, -, -, -, -, -, -, e0, e1⟩ := idx_facts t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 1 ≤ (i 1).val ∧ (i 1).val < win0_7.index t (1 : Fin 2) * 1 + 1; omega

/-- The score array after the region: entry i is the score of feature row i₀ under the region-entry arrays. -/
theorem scores_final (c : Dev nD) :
    (R0.dat V c).arrAt 7 cfg0.N = fun i => Cert.Spec.score (V c main_arg0) (V c main_arg4) (V c main_arg5) (V c main_arg6) (V c main_arg7) (V c main_arg8) (V c main_arg9) (i 0) :=
  (R0.dat V c).arrAt_eq_of_cover 7 (scoreArr V c) (fun t _ => flushed_eq V c t) cover7

end Cert.KernelIdeal.R0V

end
-- ==== Proof.Facts.lean ====
/-
  Small facts the certificate's larger steps lean on, each self-contained.

  * The precondition decoded: from "the printed predicate is all ones" the three integer ranges it states —
    every position of either index vector in [-500000, 500000), every label in [-2³⁰, 2³⁰).
  * Position arithmetic: a position in that range, wrapped (a negative one gains 500000), lies in [0, 499999];
    no 32-bit wrap-around occurs and the clamp into the table does nothing.
  * The label order: for labels in that range the 32-bit difference is exact, so the word -1, 0 or 1 picked by
    "is it zero, is its top bit set" is, read signed and converted, the real sign of the exact difference.
  * The float literal of one is the real number 1, and two spellings of a pair's loss (negation written as
    0 - ·, the logistic written out as 1/(1 + e^(-z))) are the loss of the specification.
  * A sum over 1048576 padded positions of a term that is 0 from position 1000000 on is the sum over the
    first 1000000.
-/
import proofs.«409445_j54322746359987_3_alg».proof.Proof.Spec
import proofs.«409445_j54322746359987_3_alg».proof.Pre_finite_inputs
import Idealize.ShloMosaic.Lib.ReduceAll
import Idealize.ShloMosaic.Lib.StableHlo.Predicate
import Idealize.ShloMosaic.PureOps.Ideal.Laws
import Idealize.ShloMosaic.Lib.ValueIdx
import Mathlib.Algebra.BigOperators.Fin

noncomputable section

namespace Cert.Facts

open Idealize.ShloMosaic

/-! ## Position arithmetic -/

/-- The word 500000 read signed. -/
theorem toInt_500000 : (500000#32 : BitVec 32).toInt = 500000 := by decide

/-- A position in [-500000, 500000), wrapped, lies in [0, 499999]: a negative one gains 500000 with no
    32-bit wrap-around, a non-negative one is kept. -/
theorem wrap_range (i : BitVec 32) (h : -500000 ≤ i.toInt ∧ i.toInt < 500000) :
    0 ≤ (Cert.Spec.wrap i).toInt ∧ (Cert.Spec.wrap i).toInt ≤ 499999 := by
  unfold Cert.Spec.wrap
  have h0 : (0#32 : BitVec 32).toInt = 0 := by decide
  by_cases hs : i.slt 0#32 = true
  · rw [if_pos hs]
    rw [BitVec.slt_iff_toInt_lt, h0] at hs
    rw [BitVec.toInt_add, toInt_500000, Int.bmod_def]
    norm_num
    omega
  · rw [if_neg hs]
    rw [BitVec.slt_iff_toInt_lt, h0] at hs
    omega

/-- The row read at such a position is the wrapped position itself: the clamp does nothing. -/
theorem row_val (i : BitVec 32) (h : -500000 ≤ i.toInt ∧ i.toInt < 500000) :
    ((Cert.Spec.row i).val : ℤ) = (Cert.Spec.wrap i).toInt := by
  obtain ⟨h1, h2⟩ := wrap_range i h
  show ((min (Cert.Spec.wrap i).toInt.toNat 499999 : ℕ) : ℤ) = _
  omega

/-! ## The label order -/

/-- The order of two labels in [-2³⁰, 2³⁰): their 32-bit difference does not wrap, so it is zero, negative or
    positive exactly when the exact difference is, and the word -1, 0 or 1 picked by those cases, read signed
    and converted, is the real sign of the exact difference. -/
theorem ord_eq (a b : BitVec 32) (ha : -1073741824 ≤ a.toInt ∧ a.toInt < 1073741824)
    (hb : -1073741824 ≤ b.toInt ∧ b.toInt < 1073741824) :
    Cert.Spec.ord a b
      = (((if a - b = 0 then (0 : BitVec 32) else if (a - b).msb then -1 else 1).toInt : ℝ) : EReal) := by
  have hd : (a - b).toInt = a.toInt - b.toInt := by
    rw [BitVec.toInt_sub, Int.bmod_def]
    norm_num
    omega
  have hcast : ((a.toInt : ℝ) - (b.toInt : ℝ)) = (((a - b).toInt : ℤ) : ℝ) := by
    rw [hd]; push_cast; ring
  have e0 : (0 : BitVec 32).toInt = 0 := by decide
  have em : (-1 : BitVec 32).toInt = -1 := by decide
  have e1 : (1 : BitVec 32).toInt = 1 := by decide
  unfold Cert.Spec.ord
  rw [← EReal.coe_sub, Ideal.sign_coe, hcast]
  congr 1
  rcases lt_trichotomy (a - b).toInt 0 with hlt | heq | hgt
  · have hne : a - b ≠ 0 := by
      intro e; rw [e, e0] at hlt; exact lt_irrefl _ hlt
    have hm : (a - b).msb = true := by
      rw [BitVec.msb_eq_toInt]; exact decide_eq_true hlt
    rw [if_neg hne, if_pos hm, em, sign_neg (by exact_mod_cast hlt)]
    simp
  · have he : a - b = 0 := BitVec.eq_of_toInt_eq (by rw [heq, e0])
    rw [if_pos he, e0, heq]
    simp
  · have hne : a - b ≠ 0 := by
      intro e; rw [e, e0] at hgt; exact lt_irrefl _ hgt
    have hm : ¬ (a - b).msb = true := by
      rw [BitVec.msb_eq_toInt]; intro hc; have := of_decide_eq_true hc; omega
    rw [if_neg hne, if_neg hm, e1, sign_pos (by exact_mod_cast hgt)]
    simp

/-! ## Constants and the two spellings of the pair loss -/

/-- The float word 0x3F800000 (sign 0, exponent 127, fraction 0) is the real number 1. -/
theorem one32_eq : Cert.Spec.one32 = 1 := by
  simp [Ideal.ofBits, Ideal.ieee]
  rw [← EReal.coe_mul, ← EReal.coe_one]
  congr 1
  norm_num

/-- The loss with each negation written as a subtraction from zero. -/
theorem loss_kernel (si sj S : EReal) :
    (0 - (S * max (Ideal.log (Ideal.logistic (Cert.Spec.one32 * (si - sj)))) Cert.Spec.m100
      + (Cert.Spec.one32 - S) * max (Ideal.log1p (0 - Ideal.logistic (Cert.Spec.one32 * (si - sj)))) Cert.Spec.m100))
      = Cert.Spec.loss si sj S := by
  unfold Cert.Spec.loss
  rw [zero_sub, zero_sub]

/-- The loss with the logistic written out as 1/(1 + e^(-z)), the ones being the float literal. -/
theorem loss_ref (si sj S : EReal) :
    -(S * max (Ideal.log (Ideal.div Cert.Spec.one32 (Cert.Spec.one32 + Ideal.exp (-(Cert.Spec.one32 * (si - sj))))))
          Cert.Spec.m100
      + (Cert.Spec.one32 - S)
        * max (Ideal.log1p (-(Ideal.div Cert.Spec.one32 (Cert.Spec.one32 + Ideal.exp (-(Cert.Spec.one32 * (si - sj)))))))
          Cert.Spec.m100)
      = Cert.Spec.loss si sj S := by
  unfold Cert.Spec.loss Ideal.logistic
  rw [one32_eq]

/-! ## The sum over the padded positions -/

/-- A sum over `m` positions of a term that vanishes from position `n ≤ m` on is the sum over the first `n`. -/
theorem sum_masked_le (f : ℕ → EReal) (n m : ℕ) (h : n ≤ m) :
    (∑ q : Fin m, if q.val < n then f q.val else 0) = ∑ p : Fin n, f p.val := by
  rw [Fin.sum_univ_eq_sum_range (fun i => if i < n then f i else 0) m,
    Fin.sum_univ_eq_sum_range f n, ← Finset.sum_filter]
  congr 1
  ext i
  simp only [Finset.mem_filter, Finset.mem_range]
  omega

/-- At the program's extents: 1048576 padded positions, 1000000 pairs. -/
theorem sum_masked (f : ℕ → EReal) :
    (∑ q : Fin 1048576, if q.val < 1000000 then f q.val else 0) = ∑ p : Fin 1000000, f p.val :=
  sum_masked_le f 1000000 1048576 (by norm_num)

/-! ## The precondition decoded -/

section Pre

open Cert.Pre_finite_inputs

variable [Cert.Pre_finite_inputs.Facts]

/-- The words the predicate compares against, read signed. -/
theorem toInt_m500000 : (4294467296#32 : BitVec 32).toInt = -500000 := by decide
theorem toInt_m2p30 : (3221225472#32 : BitVec 32).toInt = -1073741824 := by decide
theorem toInt_2p30 : (1073741824#32 : BitVec 32).toInt = 1073741824 := by decide

/-- The predicate is a conjunction whose last three conjuncts are, in order, "every position of the first index
    vector is in [-500000, 500000)", the same of the second, and "every label is in [-2³⁰, 2³⁰)". When the predicate
    is all ones each conjunct is one, each conjunct being an "all" is one at every element, and an element of
    such a conjunct is the "and" of two signed comparisons against a constant. -/
theorem pre_all (a0 : FVec Ideal S500000x136 .f32) (a1 : IVec S500000 32) (a2 a3 : IVec S1000000 32)
    (a4 : FVec Ideal S136x256 .f32) (a5 : FVec Ideal S256 .f32) (a6 : FVec Ideal S256x128 .f32)
    (a7 : FVec Ideal S128 .f32) (a8 : FVec Ideal S128x1 .f32) (a9 : FVec Ideal S1 .f32)
    (h : fn (F := Ideal) a0 a1 a2 a3 a4 a5 a6 a7 a8 a9 = fun _ => 1#1) :
    (∀ p : S1000000.Idx, -500000 ≤ (a2 p).toInt ∧ (a2 p).toInt < 500000)
      ∧ (∀ p : S1000000.Idx, -500000 ≤ (a3 p).toInt ∧ (a3 p).toInt < 500000)
      ∧ (∀ r : S500000.Idx, -1073741824 ≤ (a1 r).toInt ∧ (a1 r).toInt < 1073741824) := by
  haveI : Subsingleton S_.Idx := ⟨fun a b => funext fun d => d.elim0⟩
  have h0 := congrFun h ValueIdx.ix0
  dsimp only [fn, fn_part1, fn_part2, fn_part3] at h0
  obtain ⟨h47, h53⟩ := IntOp.andi_eq_one.1 h0
  obtain ⟨h40, h46⟩ := IntOp.andi_eq_one.1 h47
  obtain ⟨-, h39⟩ := IntOp.andi_eq_one.1 h40
  refine ⟨fun p => ?_, fun p => ?_, fun r => ?_⟩
  · obtain ⟨e1, e2⟩ := IntOp.andi_eq_one.1 (Host.reduce_andi_all _ _ _ _ _ h39 p)
    have l : (4294467296#32 : BitVec 32).toInt ≤ (a2 p).toInt := IntOp.cmpi_sge.1 e1
    have u : (a2 p).toInt < (500000#32 : BitVec 32).toInt := IntOp.cmpi_slt.1 e2
    rw [toInt_m500000] at l
    rw [toInt_500000] at u
    exact ⟨l, u⟩
  · obtain ⟨e1, e2⟩ := IntOp.andi_eq_one.1 (Host.reduce_andi_all _ _ _ _ _ h46 p)
    have l : (4294467296#32 : BitVec 32).toInt ≤ (a3 p).toInt := IntOp.cmpi_sge.1 e1
    have u : (a3 p).toInt < (500000#32 : BitVec 32).toInt := IntOp.cmpi_slt.1 e2
    rw [toInt_m500000] at l
    rw [toInt_500000] at u
    exact ⟨l, u⟩
  · obtain ⟨e1, e2⟩ := IntOp.andi_eq_one.1 (Host.reduce_andi_all _ _ _ _ _ h53 r)
    have l : (3221225472#32 : BitVec 32).toInt ≤ (a1 r).toInt := IntOp.cmpi_sge.1 e1
    have u : (a1 r).toInt < (1073741824#32 : BitVec 32).toInt := IntOp.cmpi_slt.1 e2
    rw [toInt_m2p30] at l
    rw [toInt_2p30] at u
    exact ⟨l, u⟩

theorem pre_idx_i (a0 : FVec Ideal S500000x136 .f32) (a1 : IVec S500000 32) (a2 a3 : IVec S1000000 32)
    (a4 : FVec Ideal S136x256 .f32) (a5 : FVec Ideal S256 .f32) (a6 : FVec Ideal S256x128 .f32)
    (a7 : FVec Ideal S128 .f32) (a8 : FVec Ideal S128x1 .f32) (a9 : FVec Ideal S1 .f32)
    (h : fn (F := Ideal) a0 a1 a2 a3 a4 a5 a6 a7 a8 a9 = fun _ => 1#1) (p : S1000000.Idx) :
    -500000 ≤ (a2 p).toInt ∧ (a2 p).toInt < 500000 :=
  (pre_all a0 a1 a2 a3 a4 a5 a6 a7 a8 a9 h).1 p

theorem pre_idx_j (a0 : FVec Ideal S500000x136 .f32) (a1 : IVec S500000 32) (a2 a3 : IVec S1000000 32)
    (a4 : FVec Ideal S136x256 .f32) (a5 : FVec Ideal S256 .f32) (a6 : FVec Ideal S256x128 .f32)
    (a7 : FVec Ideal S128 .f32) (a8 : FVec Ideal S128x1 .f32) (a9 : FVec Ideal S1 .f32)
    (h : fn (F := Ideal) a0 a1 a2 a3 a4 a5 a6 a7 a8 a9 = fun _ => 1#1) (p : S1000000.Idx) :
    -500000 ≤ (a3 p).toInt ∧ (a3 p).toInt < 500000 :=
  (pre_all a0 a1 a2 a3 a4 a5 a6 a7 a8 a9 h).2.1 p

theorem pre_target (a0 : FVec Ideal S500000x136 .f32) (a1 : IVec S500000 32) (a2 a3 : IVec S1000000 32)
    (a4 : FVec Ideal S136x256 .f32) (a5 : FVec Ideal S256 .f32) (a6 : FVec Ideal S256x128 .f32)
    (a7 : FVec Ideal S128 .f32) (a8 : FVec Ideal S128x1 .f32) (a9 : FVec Ideal S1 .f32)
    (h : fn (F := Ideal) a0 a1 a2 a3 a4 a5 a6 a7 a8 a9 = fun _ => 1#1) (r : S500000.Idx) :
    -1073741824 ≤ (a1 r).toInt ∧ (a1 r).toInt < 1073741824 :=
  (pre_all a0 a1 a2 a3 a4 a5 a6 a7 a8 a9 h).2.2 r

end Pre

end Cert.Facts

end
-- ==== Proof.KI.HostMid.lean ====
/-
  BETWEEN THE TWO KERNEL REGIONS. Region 0 leaves a [500000 × 1] column of scores; before region 1 the host
  program turns it, with the labels and the two position vectors, into region 1's three input arrays. The steps:
  the score column read as a vector; the labels converted to reals (exactly); the two stacked as the columns of a
  [500000 × 2] table; the table's rows TAKEN at the positions idx_i and at the positions idx_j — a take wraps a
  negative position (adds 500000), tests 0 ≤ w ≤ 499999, gathers whole rows at the start index clamped into the
  table, and keeps the gathered row where the test holds (a not-a-number row elsewhere) —; column 0 of the two
  taken tables (the scores sᵢ, sⱼ) and the sign of the difference of their columns 1 (the label order S) as
  vectors of 1000000 entries; each padded with zeros to 1048576 entries and cut into 8192 rows of 128.

  Proved here: with every position in [-500000, 500000) the validity test holds and the clamp does nothing, so at
  entry (a, l), q = 128·a + l, the three arrays hold, for q < 1000000, the score of the row the specification's
  `row` names for idx_i[q], the same for idx_j[q], and the specification's label order of those two rows; and 0
  for q ≥ 1000000.

  The file goes: layout operations read at coordinates; the row gather and the validity reduction; the chain as
  functions of whole arrays; each host stretch as an equation between whole arrays; the chain read at an entry;
  the assembly.
-/
import proofs.«409445_j54322746359987_3_alg».proof.Proof.Gen.KernelIdeal.Regions
import proofs.«409445_j54322746359987_3_alg».proof.Proof.Spec
import proofs.«409445_j54322746359987_3_alg».proof.Proof.Facts
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Mid

open Cert.KernelIdeal Cert.KernelIdeal.Gen Idealize.ShloMosaic Idealize.ShloMosaic.ValueIdx
open Idealize.ShloMosaic.TcCoe Idealize.ShloMosaic.StableHlo

/-! ## Layout operations read at coordinates -/

section Layout
variable {α : Type}

/-- An [n × 1] column read as a vector: entry i is the column's entry (i, 0). -/
theorem cast_col_vec {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

/-- A vector laid along the first axis of an [n × m] rectangle reads, at (p, q), the vector at p. -/
theorem bcast_vec_rows {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) :=
  broadcastInDim_apply _ h v _ _ (fun a => by
    match a with
    | ⟨0, _⟩ =>
      show p.val = if n = 1 then 0 else p.val
      split
      · omega
      · rfl)

/-- A one-entry vector as a [1 × 1] square, then laid down an [n × 1] column: every entry is the vector's one. -/
theorem bcast_one_col {n : Nat} (h₁ : (⟨1, ![1]⟩ : Shape).BroadcastsInDim ⟨2, ![1, 1]⟩ ![1])
    (h₂ : (⟨2, ![1, 1]⟩ : Shape).BroadcastsInDim ⟨2, ![n, 1]⟩ ![0, 1]) (v : (⟨1, ![1]⟩ : Shape).Idx → α)
    (p : Fin n) (u : Fin 1) :
    broadcastInDim ⟨2, ![n, 1]⟩ ![0, 1] h₂ (broadcastInDim ⟨2, ![1, 1]⟩ ![1] h₁ v) (ix2 p u) = v (ix1 (0 : Fin 1)) :=
  (broadcastInDim_apply _ h₂ _ _ (ix2 (0 : Fin 1) (0 : Fin 1)) (fun a => by
    match a with
    | ⟨0, _⟩ => rfl
    | ⟨1, _⟩ => rfl)).trans
  (broadcastInDim_apply _ h₁ v _ _ (fun a => by
    match a with
    | ⟨0, _⟩ => rfl))

/-- A flat vector of 1048576 entries cut into 8192 rows of 128: entry (a, l) is the vector's entry 128·a + l. -/
theorem cast_vec_tiles (x : (⟨1, ![1048576]⟩ : Shape).Idx → α)
    (h : (⟨1, ![1048576]⟩ : Shape).ShapeCasts ⟨2, ![8192, 128]⟩) (a : Fin 8192) (l : Fin 128) :
    shapeCast ⟨2, ![8192, 128]⟩ x h (ix2 a l) = x (ix1 (⟨128 * a.val + l.val, by omega⟩ : Fin 1048576)) :=
  shapeCast_apply x h _ _ (by
    rw [Shape.rowMajor_val_two, Shape.rowMajor_val_one]
    show 128 * a.val + l.val = a.val * 128 + l.val
    omega)

/-- A vector of 1000000 entries padded behind to 1048576: the first 1000000 entries are the vector's, the rest
    the padding value. -/
theorem pad_tail_apply (x : (⟨1, ![1000000]⟩ : Shape).Idx → α) (v : (⟨0, ![]⟩ : Shape).Idx → α)
    (h : (⟨1, ![1000000]⟩ : Shape).Pads (![0] : Fin 1 → Nat) ![48576] ![0] ⟨1, ![1048576]⟩)
    (hu : 0 < (⟨0, ![]⟩ : Shape).numel) (q : Fin 1048576) :
    pad ⟨1, ![1048576]⟩ ![0] ![48576] ![0] x v h hu (ix1 q)
      = if hq : q.val < 1000000 then x (ix1 (⟨q.val, hq⟩ : Fin 1000000)) else v ix0 := by
  by_cases hq : q.val < 1000000
  · rw [dif_pos hq]
    exact pad_apply_of_inside _ _ _ x v h hu _ (ix1 (⟨q.val, hq⟩ : Fin 1000000)) (fun a => by
      match a with
      | ⟨0, _⟩ =>
        show q.val = 0 + q.val * (0 + 1)
        omega)
  · rw [dif_neg hq]
    refine (pad_apply_of_not_inside _ _ _ x v h hu _ (0 : Fin 1) (fun hc => hq ?_)).trans (congrArg v (eq_ix0 _))
    have h3 := hc.2.2
    have h3' : (q.val - 0) / (0 + 1) < 1000000 := h3
    omega

end Layout

/-! ## The row gather and the validity reduction -/

section Gather
variable {α : Type}

/-- THE ROW TAKE. A gather of whole rows of an [N × C] table at an [n × 1] column of positions (one collapsed,
    start-indexed operand axis; the row kept as the result's offset axis 1; the index vector on axis 1): result
    entry (p, q) reads the table at row "position p's start index, read signed and clamped into the table",
    column q. -/
theorem gather_rows {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  -- the operand's kept axes, the result's batch axes, the start indices' kept axes, as literal lists
  have hsk : d.sKept = [1] := by
    show Shape.kept _ (d.collapsedSliceDims ++ d.operandBatchingDims) = _
    rw [hcoll, hob]; rfl
  have hbd : d.batchDims = [0] := by
    show Shape.kept _ d.offsetDims = _
    rw [hoff]; rfl
  have hsik : d.siKept = [0] := by
    show (List.finRange 2).filter (fun b : Fin 2 => b.val ≠ d.indexVectorDim) = _
    rw [hivd]; rfl
  have get1 : ∀ (l : List (Fin 2)) (v : Fin 2) (e : l = [v]) (k : Nat) (hk : k < l.length), l[k]'hk = v := by
    intro l v e; subst e; intro k hk
    have : k = 0 := by simpa using hk
    subst this; rfl
  have hb0 : (0 : Fin 2) ∉ d.operandBatchingDims := by rw [hob]; exact List.not_mem_nil
  have hb1 : (1 : Fin 2) ∉ d.operandBatchingDims := by rw [hob]; exact List.not_mem_nil
  funext a
  match a with
  | ⟨0, _⟩ =>
    apply Fin.ext
    have hk : (0 : Fin 2) ∉ d.sKept := by
      rw [hsk]; intro hc
      exact absurd (congrArg Fin.val (List.mem_singleton.mp hc)) (by show ¬ (0 : ℕ) = 1; omega)
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ix2 p (0 : Fin 1))).toInt.toNat (N - 1)
    rw [GatherDims.batchCoord_eq_zero _ _ _ hb0, GatherDims.offCoord_eq_zero _ _ _ hk]
    simp only [Nat.add_zero]
    unfold GatherDims.start
    rw [dif_pos hm]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, C]⟩ : Shape).Idx) X).val = p.val := fun X hX => by subst hX; rfl
      exact e _ (get1 _ 0 hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [hsk]; exact List.mem_singleton.mpr rfl
    have hm : (1 : Fin 2) ∉ d.startIndexMap := by
      rw [hsim]; intro hc
      exact absurd (congrArg Fin.val (List.mem_singleton.mp hc)) (by show ¬ (1 : ℕ) = 0; omega)
    show d.start (ix2 p q) idx 1 + d.batchCoord (ix2 p q) 1 + d.offCoord (ix2 p q) 1 = q.val
    rw [GatherDims.batchCoord_eq_zero _ _ _ hb1]
    simp only [Nat.add_zero]
    unfold GatherDims.start
    rw [dif_neg hm, Nat.zero_add]
    unfold GatherDims.offCoord
    rw [dif_pos hk]
    have e : ∀ X : Fin 2, X = 1 → ((ix2 p q : (⟨2, ![n, C]⟩ : Shape).Idx) X).val = q.val := fun X hX => by subst hX; rfl
    exact e _ (get1 _ 1 hoff _ _)

/-- A conjunction over an axis of extent 1 (from the constant 1) is 1 at row p as soon as the one entry of row p is. -/
theorem reduce_and_unit {n : Nat} (x : IVec ⟨2, ![n, 1]⟩ 1) (init : (⟨0, ![]⟩ : Shape).Idx → BitVec 1)
    (h : (⟨2, ![n, 1]⟩ : Shape).ReducesTo [1] ⟨1, ![n]⟩) (hu : 0 < (⟨0, ![]⟩ : Shape).numel)
    (hinit : init (Shape.Idx.first hu) = 1#1) (p : Fin n) (hx : x (ix2 p (0 : Fin 1)) = 1#1) :
    Host.reduce IntOp.andi x init h hu (ix1 p) = 1#1 := by
  rw [Host.reduce_eq_foldl, hinit]
  have hall : ∀ i ∈ ((List.finRange (⟨2, ![n, 1]⟩ : Shape).numel).map (⟨2, ![n, 1]⟩ : Shape).rowMajor.symm).filter
      (fun i => h.drop i = ix1 p), x i = 1#1 := by
    intro i hi
    have hd : h.drop i = ix1 p := by simpa using (List.mem_filter.1 hi).2
    have hv : (h.drop i 0 : Nat) = i 0 := Shape.ReducesTo.drop_apply_val h i 0
    rw [hd] at hv
    have h1 : (i 1).val < 1 := (i 1).isLt
    have e : i = ix2 p (0 : Fin 1) := by
      funext b
      match b with
      | ⟨0, _⟩ => exact Fin.ext hv.symm
      | ⟨1, _⟩ => exact Fin.ext (by show (i 1).val = 0; omega)
    rw [e]; exact hx
  generalize ((List.finRange (⟨2, ![n, 1]⟩ : Shape).numel).map (⟨2, ![n, 1]⟩ : Shape).rowMajor.symm).filter
      (fun i => h.drop i = ix1 p) = L at hall
  induction L with
  | nil => rfl
  | cons i L ih =>
    rw [List.foldl_cons, hall i (List.mem_cons_self ..)]
    exact ih (fun k hk => hall k (List.mem_cons_of_mem _ hk))

end Gather

/-! ## The host chain between the two kernel regions, as functions of whole arrays -/

section Defs
variable {F : FTy → Type} [FloatOps F]

/-- The table the two takes read: column 0 the scores (the [500000 × 1] score column read as a vector and laid
    back as a column), column 1 the labels converted. -/
def tableOf (s : FVec F S500000x1 .f32) (t : IVec S500000 32) : FVec F S500000x2 .f32 :=
  concatenate S500000x2 1
    [⟨S500000x1, broadcastInDim S500000x1 ![0] bcast_S500000_S500000x1_0 (shapeCast S500000 s shapeCasts_S500000x1_S500000)⟩,
     ⟨S500000x1, broadcastInDim S500000x1 ![0] bcast_S500000_S500000x1_0 (sitofp (F := F) .f32 t)⟩]
    concatenates_S500000x1_S500000x1_S500000x2_d1

/-- The positions wrapped: a negative one gains 500000. -/
def wrapOf (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 500000#32))) idx

/-- The wrapped positions as an [1000000 × 1] column of start indices. -/
def startsOf (idx : IVec S1000000 32) : IVec S1000000x1 32 :=
  broadcastInDim S1000000x1 ![0] bcast_S1000000_S1000000x1_0 (wrapOf idx)

/-- Which positions are valid: 0 ≤ w ≤ 499999, as a conjunction over the column's one entry. -/
def validOf (idx : IVec S1000000 32) : IVec S1000000 1 :=
  Host.reduce IntOp.andi
    (andi (cmpi .sge (startsOf idx) (broadcastInDim S1000000x1 ![] bcast_S_S1000000x1 (constantI S_ 32 0#32)))
      (cmpi .sle (startsOf idx)
        (broadcastInDim S1000000x1 ![0, 1] bcast_S1x1_S1000000x1_0_1
          (broadcastInDim S1x1 ![1] bcast_S1_S1x1_1 (constantI S1 32 499999#32)))))
    (constantI S_ 1 1#1) reducesTo_S1000000x1_S1000000_d1 h_S_

/-- The take: the table's rows at the positions, a row of not-a-number words where the position is not valid. -/
def takeOf (x : FVec F S500000x2 .f32) (idx : IVec S1000000 32) : FVec F S1000000x2 .f32 :=
  select (broadcastInDim S1000000x2 ![0] bcast_S1000000_S1000000x2_0 (validOf idx))
    (Host.gather gather_S500000x2_S1000000x1_S1000000x2_1_0_n_n_0_1_12 x (startsOf idx))
    (broadcastInDim S1000000x2 ![] bcast_S_S1000000x2 (constant (F := F) S_ .f32 0x7FC00000#32))

/-- Column 0 of a taken table, as a vector. -/
def col0Of (y : FVec F S1000000x2 .f32) : FVec F S1000000 .f32 :=
  shapeCast S1000000 (extractStridedSlice S1000000x1 ![0, 0] y slices_S1000000x2_S1000000x1_0_0) shapeCasts_S1000000x1_S1000000

/-- Column 1 of a taken table, as a vector. -/
def col1Of (y : FVec F S1000000x2 .f32) : FVec F S1000000 .f32 :=
  shapeCast S1000000 (extractStridedSlice S1000000x1 ![0, 1] y slices_S1000000x2_S1000000x1_0_1) shapeCasts_S1000000x1_S1000000

/-- The order of the two taken label columns: the sign of their difference. -/
def ordOf (yi yj : FVec F S1000000x2 .f32) : FVec F S1000000 .f32 :=
  Host.sign (subf (col1Of yi) (col1Of yj))

/-- A vector padded with the converted zero word to 1048576 entries. -/
def padOf (x : FVec F S1000000 .f32) (z : IVec S_ 32) : FVec F S1048576 .f32 :=
  pad S1048576 ![0] ![48576] ![0] x (sitofp (F := F) .f32 z) pads_S1000000_S1048576_0485760 h_S_

/-- A padded vector as 8192 rows of 128. -/
def tilesOf (x : FVec F S1048576 .f32) : FVec F S8192x128 .f32 :=
  shapeCast S8192x128 x shapeCasts_S1048576_S8192x128

/-- Contents carried to a typed reference's buffer and back are the contents. -/
theorem ofBuf_toBuf {T : BufTy} {Val : EltTy → Type} (x : StableHlo.TRef sig T) (v : T.Contents Val) :
    x.ofBuf (x.toBuf v) = v := by
  obtain ⟨r, h, _, _⟩ := x
  subst h
  rfl

end Defs

/-! ## Each stretch: the buffers it writes, as functions of the buffers it reads -/

section Stretches
variable {F : FTy → Type} [FloatOps F] (W : Valuation τ sig (Elt F))

theorem table_eq :
    (StableHlo.after hostOps1 W (Proc.devRef .tc main_v5) : FVec F S500000x2 .f32)
      = tableOf (W (Proc.devRef .tc main_v0) : FVec F S500000x1 .f32) (W (Proc.devRef .tc main_arg1) : IVec S500000 32) := by
  after_results
  rfl

theorem take0_eq :
    (StableHlo.after hostOps1_1 W (Proc.devRef .tc main_v6) : FVec F S1000000x2 .f32)
      = takeOf (W (Proc.devRef .tc main_v5) : FVec F S500000x2 .f32) (W (Proc.devRef .tc main_arg2) : IVec S1000000 32) := by
  after_results_simp
  simp only [ofBuf_toBuf]
  rw [show ((TRef.of main_arg2 : TRef sig ⟨S1000000, .i32⟩).ofBuf (W (Proc.devRef .tc main_arg2)) : IVec S1000000 32)
        = W (Proc.devRef .tc main_arg2) from rfl,
    show ((TRef.of main_v5 : TRef sig ⟨S500000x2, .f32⟩).ofBuf (W (Proc.devRef .tc main_v5)) : FVec F S500000x2 .f32)
        = W (Proc.devRef .tc main_v5) from rfl]
  refine (cast_eq _ _).trans ?_
  unfold takeOf validOf startsOf wrapOf
  rfl

theorem take1_eq :
    (StableHlo.after hostOps1_2 W (Proc.devRef .tc main_v7) : FVec F S1000000x2 .f32)
      = takeOf (W (Proc.devRef .tc main_v5) : FVec F S500000x2 .f32) (W (Proc.devRef .tc main_arg3) : IVec S1000000 32) := by
  after_results_simp
  simp only [ofBuf_toBuf]
  rw [show ((TRef.of main_arg3 : TRef sig ⟨S1000000, .i32⟩).ofBuf (W (Proc.devRef .tc main_arg3)) : IVec S1000000 32)
        = W (Proc.devRef .tc main_arg3) from rfl,
    show ((TRef.of main_v5 : TRef sig ⟨S500000x2, .f32⟩).ofBuf (W (Proc.devRef .tc main_v5)) : FVec F S500000x2 .f32)
        = W (Proc.devRef .tc main_v5) from rfl]
  refine (cast_eq _ _).trans ?_
  unfold takeOf validOf startsOf wrapOf
  rfl

theorem cols_si :
    (StableHlo.after hostOps1_3 W (Proc.devRef .tc main_v9) : FVec F S1000000 .f32)
      = col0Of (W (Proc.devRef .tc main_v6) : FVec F S1000000x2 .f32) := by
  after_results
  rfl

theorem cols_sj :
    (StableHlo.after hostOps1_3 W (Proc.devRef .tc main_v11) : FVec F S1000000 .f32)
      = col0Of (W (Proc.devRef .tc main_v7) : FVec F S1000000x2 .f32) := by
  after_results
  rfl

theorem cols_ord :
    (StableHlo.after hostOps1_3 W (Proc.devRef .tc main_v17) : FVec F S1000000 .f32)
      = ordOf (W (Proc.devRef .tc main_v6) : FVec F S1000000x2 .f32) (W (Proc.devRef .tc main_v7) : FVec F S1000000x2 .f32) := by
  after_results
  rfl

theorem zero_c :
    (StableHlo.after hostOps1_3 W (Proc.devRef .tc main_c) : IVec S_ 32) = constantI S_ 32 0#32 := by
  after_results

theorem pad_si :
    (StableHlo.after hostOps1_4 W (Proc.devRef .tc main_v18) : FVec F S1048576 .f32)
      = padOf (W (Proc.devRef .tc main_v9) : FVec F S1000000 .f32) (W (Proc.devRef .tc main_c) : IVec S_ 32) := by
  after_results
  rfl

theorem zero_c0 :
    (StableHlo.after hostOps1_5 W (Proc.devRef .tc main_c_0) : IVec S_ 32) = constantI S_ 32 0#32 := by
  after_results

theorem pad_sj :
    (StableHlo.after hostOps1_6 W (Proc.devRef .tc main_v19) : FVec F S1048576 .f32)
      = padOf (W (Proc.devRef .tc main_v11) : FVec F S1000000 .f32) (W (Proc.devRef .tc main_c_0) : IVec S_ 32) := by
  after_results
  rfl

theorem zero_c1 :
    (StableHlo.after hostOps1_7 W (Proc.devRef .tc main_c_1) : IVec S_ 32) = constantI S_ 32 0#32 := by
  after_results

theorem pad_ord :
    (StableHlo.after hostOps1_8 W (Proc.devRef .tc main_v20) : FVec F S1048576 .f32)
      = padOf (W (Proc.devRef .tc main_v17) : FVec F S1000000 .f32) (W (Proc.devRef .tc main_c_1) : IVec S_ 32) := by
  after_results
  rfl

theorem tiles_si :
    (StableHlo.after hostOps1_9 W (Proc.devRef .tc main_v21) : FVec F S8192x128 .f32)
      = tilesOf (W (Proc.devRef .tc main_v18) : FVec F S1048576 .f32) := by
  after_results
  rfl

theorem tiles_sj :
    (StableHlo.after hostOps1_9 W (Proc.devRef .tc main_v22) : FVec F S8192x128 .f32)
      = tilesOf (W (Proc.devRef .tc main_v19) : FVec F S1048576 .f32) := by
  after_results
  rfl

theorem tiles_ord :
    (StableHlo.after hostOps1_9 W (Proc.devRef .tc main_v23) : FVec F S8192x128 .f32)
      = tilesOf (W (Proc.devRef .tc main_v20) : FVec F S1048576 .f32) := by
  after_results
  rfl

end Stretches

/-! ## The chain read at an entry, at the extended reals -/

section AtEntry

/-- Column 0 of the table is the score column. -/
theorem tableOf_apply0 (s : Cert.Spec.Mat 500000 1) (t : Cert.Spec.Wc 500000) (r : Fin 500000) :
    tableOf (F := Ideal) s t (ix2 r (0 : Fin 2)) = s (ix2 r (0 : Fin 1)) := by
  unfold tableOf
  refine (concatenate_pair_apply_left (t := S500000x2) (s₁ := S500000x1) (s₂ := S500000x1) (1 : Fin 2) _ _
    concatenates_S500000x1_S500000x1_S500000x2_d1 (ix2 r (0 : Fin 2)) rfl (ix2 r (0 : Fin 1)) (fun b => ?_)).trans ?_
  · match b with
    | ⟨0, _⟩ => rfl
    | ⟨1, _⟩ => rfl
  · rw [bcast_vec_rows, cast_col_vec]

/-- Column 1 of the table is the labels, each the real number its word reads signed. -/
theorem tableOf_apply1 (s : Cert.Spec.Mat 500000 1) (t : Cert.Spec.Wc 500000) (r : Fin 500000) :
    tableOf (F := Ideal) s t (ix2 r (1 : Fin 2)) = (((t (ix1 r)).toInt : ℝ) : EReal) := by
  unfold tableOf
  refine (concatenate_pair_apply_right (t := S500000x2) (s₁ := S500000x1) (s₂ := S500000x1) (1 : Fin 2) _ _
    concatenates_S500000x1_S500000x1_S500000x2_d1 (ix2 r (1 : Fin 2)) rfl rfl (ix2 r (0 : Fin 1)) (fun b hb => ?_) rfl).trans ?_
  · match b with
    | ⟨0, _⟩ => rfl
    | ⟨1, _⟩ => exact absurd rfl hb
  · rw [bcast_vec_rows]
    rfl

/-- A wrapped position is the specification's. -/
theorem wrapOf_apply (idx : Cert.Spec.Wc 1000000) (p : Fin 1000000) :
    wrapOf idx (ix1 p) = Cert.Spec.wrap (idx (ix1 p)) := by
  show Scalar.select (IntOp.cmpi .slt (idx (ix1 p)) 0#32) (IntOp.addi (idx (ix1 p)) 500000#32) (idx (ix1 p))
    = if (idx (ix1 p)).slt 0#32 then idx (ix1 p) + 500000#32 else idx (ix1 p)
  generalize idx (ix1 p) = i
  by_cases hs : i.slt 0#32 = true
  · simp [Scalar.select, IntOp.cmpi, IntOp.addi, hs]
  · simp [Scalar.select, IntOp.cmpi, IntOp.addi, hs]

/-- The start index of position p. -/
theorem startsOf_apply (idx : Cert.Spec.Wc 1000000) (p : Fin 1000000) (u : Fin 1) :
    startsOf idx (ix2 p u) = Cert.Spec.wrap (idx (ix1 p)) :=
  (bcast_vec_rows _ _ p u).trans (wrapOf_apply idx p)

/-- A position whose wrapped value lies in the table is valid. -/
theorem validOf_apply (idx : Cert.Spec.Wc 1000000) (p : Fin 1000000)
    (h : 0 ≤ (Cert.Spec.wrap (idx (ix1 p))).toInt ∧ (Cert.Spec.wrap (idx (ix1 p))).toInt ≤ 499999) :
    validOf idx (ix1 p) = 1#1 := by
  unfold validOf
  refine reduce_and_unit _ _ _ _ rfl p ?_
  show IntOp.andi (IntOp.cmpi .sge (startsOf idx (ix2 p (0 : Fin 1))) 0#32)
      (IntOp.cmpi .sle (startsOf idx (ix2 p (0 : Fin 1))) 499999#32) = 1#1
  rw [startsOf_apply]
  generalize Cert.Spec.wrap (idx (ix1 p)) = w at h
  have h0 : (0#32 : BitVec 32).toInt = 0 := by decide
  have h9 : (499999#32 : BitVec 32).toInt = 499999 := by decide
  have h1 : (0#32 : BitVec 32).sle w = true := by rw [BitVec.sle_iff_toInt_le, h0]; exact h.1
  have h2 : w.sle 499999#32 = true := by rw [BitVec.sle_iff_toInt_le, h9]; exact h.2
  simp [IntOp.andi, IntOp.cmpi, h1, h2]

/-- THE TAKE AT AN ENTRY: at a position in [-500000, 500000) it reads the table's row the specification names. -/
theorem takeOf_apply (x : Cert.Spec.Mat 500000 2) (idx : Cert.Spec.Wc 1000000) (p : Fin 1000000) (q : Fin 2)
    (h : -500000 ≤ (idx (ix1 p)).toInt ∧ (idx (ix1 p)).toInt < 500000) :
    takeOf (F := Ideal) x idx (ix2 p q) = x (ix2 (Cert.Spec.row (idx (ix1 p))) q) := by
  unfold takeOf
  rw [select_apply, bcast_vec_rows, validOf_apply idx p (Cert.Facts.wrap_range _ h), select_one,
    gather_rows _ rfl rfl rfl rfl rfl x _ p q (by norm_num)]
  refine congrArg x (congrArg (fun r : Fin 500000 => (ix2 r q : S500000x2.Idx)) (Fin.ext ?_))
  show min (startsOf idx (ix2 p (0 : Fin 1))).toInt.toNat (500000 - 1) = min (Cert.Spec.wrap (idx (ix1 p))).toInt.toNat 499999
  rw [startsOf_apply]

/-- The two columns of a taken table read as vectors. -/
theorem col0Of_apply (y : Cert.Spec.Mat 1000000 2) (p : Fin 1000000) :
    col0Of (F := Ideal) y (ix1 p) = y (ix2 p (0 : Fin 2)) := by
  unfold col0Of
  rw [cast_col_vec]
  exact slice2_axis1_apply 0 y _ p (0 : Fin 1) (0 : Fin 2) rfl

theorem col1Of_apply (y : Cert.Spec.Mat 1000000 2) (p : Fin 1000000) :
    col1Of (F := Ideal) y (ix1 p) = y (ix2 p (1 : Fin 2)) := by
  unfold col1Of
  rw [cast_col_vec]
  exact slice2_axis1_apply 1 y _ p (0 : Fin 1) (1 : Fin 2) rfl

/-- The host's sign at an entry is the extended reals' sign of the entry. -/
theorem sign_apply {s : Shape} {φ : FTy} (x : FVec Ideal s φ) (i : s.Idx) : Host.sign x i = Ideal.sign (x i) := rfl

/-- The padded vector: the vector's entries, then zeros (the zero word converted is the real number 0). -/
theorem padOf_apply (x : Cert.Spec.Vc 1000000) (q : Fin 1048576) :
    padOf (F := Ideal) x (constantI S_ 32 0#32) (ix1 q)
      = if hq : q.val < 1000000 then x (ix1 (⟨q.val, hq⟩ : Fin 1000000)) else 0 := by
  unfold padOf
  rw [pad_tail_apply]
  congr 1
  funext _
  show (((0#32 : BitVec 32).toInt : ℝ) : EReal) = 0
  rw [show (0#32 : BitVec 32).toInt = 0 from by decide]
  simp

end AtEntry

/-! ## Region 1's three input arrays as functions of the score column and the arguments -/

section Whole
variable {F : FTy → Type} [FloatOps F]
variable (m : (ℓ : Loc nD τ sig) → Buf (Elt F) ℓ) (outs : Outs (F := F)) (c : Dev nD)

/-- The first stretch finds the score column as region 0 left it and the arguments as launched. -/
theorem V1_scores : V1 m outs c main_v0 = outs 1 main_v0 c := by
  show Function.update (V0 m c) (Proc.devRef .tc main_v0) (outs 1 main_v0 c) (Proc.devRef .tc main_v0) = _
  exact Function.update_self ..

theorem V1_labels : V1 m outs c main_arg1 = m ((c : Thread nD τ).loc main_arg1) :=
  (V1_of m outs c main_arg1 (by decide)).trans rfl

/-- The takes find the positions as launched. -/
theorem V2_idx_i : V2 m outs c main_arg2 = m ((c : Thread nD τ).loc main_arg2) :=
  (V2_of m outs c main_arg2 (by decide)).trans ((V1_of m outs c main_arg2 (by decide)).trans rfl)

theorem V3_idx_j : V3 m outs c main_arg3 = m ((c : Thread nD τ).loc main_arg3) :=
  (V3_of m outs c main_arg3 (by decide)).trans ((V2_of m outs c main_arg3 (by decide)).trans
    ((V1_of m outs c main_arg3 (by decide)).trans rfl))

/-- The table of scores and labels. -/
theorem arr_table :
    (V2 m outs c main_v5 : FVec F S500000x2 .f32)
      = tableOf (outs 1 main_v0 c : FVec F S500000x1 .f32) (m ((c : Thread nD τ).loc main_arg1) : IVec S500000 32) := by
  refine (table_eq (V1 m outs c)).trans ?_
  rw [V1_scores, V1_labels]

/-- The table's rows at the positions idx_i. -/
theorem arr_take_i :
    (V4 m outs c main_v6 : FVec F S1000000x2 .f32)
      = takeOf (V2 m outs c main_v5 : FVec F S500000x2 .f32) (m ((c : Thread nD τ).loc main_arg2) : IVec S1000000 32) := by
  refine (V4_of m outs c main_v6 (by decide)).trans ((take0_eq (V2 m outs c)).trans ?_)
  rw [V2_idx_i]

/-- The table's rows at the positions idx_j. -/
theorem arr_take_j :
    (V4 m outs c main_v7 : FVec F S1000000x2 .f32)
      = takeOf (V2 m outs c main_v5 : FVec F S500000x2 .f32) (m ((c : Thread nD τ).loc main_arg3) : IVec S1000000 32) := by
  refine (take1_eq (V3 m outs c)).trans ?_
  rw [V3_idx_j, V3_of m outs c main_v5 (by decide)]

/-- Region 1's first input: the scores at idx_i, padded, in rows of 128. -/
theorem arr_v21 :
    (V11 m outs c main_v21 : FVec F S8192x128 .f32)
      = tilesOf (padOf (col0Of (V4 m outs c main_v6 : FVec F S1000000x2 .f32)) (constantI S_ 32 0#32)) := by
  refine (tiles_si (V10 m outs c)).trans ?_
  rw [V10_of m outs c main_v18 (by decide), V9_of m outs c main_v18 (by decide), V8_of m outs c main_v18 (by decide),
    V7_of m outs c main_v18 (by decide)]
  refine congrArg tilesOf ((pad_si (V5 m outs c)).trans ?_)
  rw [show (V5 m outs c main_v9 : FVec F S1000000 .f32) = _ from cols_si (V4 m outs c),
    show (V5 m outs c main_c : IVec S_ 32) = _ from zero_c (V4 m outs c)]

/-- Region 1's second input: the scores at idx_j, padded, in rows of 128. -/
theorem arr_v22 :
    (V11 m outs c main_v22 : FVec F S8192x128 .f32)
      = tilesOf (padOf (col0Of (V4 m outs c main_v7 : FVec F S1000000x2 .f32)) (constantI S_ 32 0#32)) := by
  refine (tiles_sj (V10 m outs c)).trans ?_
  rw [V10_of m outs c main_v19 (by decide), V9_of m outs c main_v19 (by decide)]
  refine congrArg tilesOf ((pad_sj (V7 m outs c)).trans ?_)
  rw [show (V7 m outs c main_c_0 : IVec S_ 32) = _ from zero_c0 (V6 m outs c),
    V7_of m outs c main_v11 (by decide), V6_of m outs c main_v11 (by decide),
    show (V5 m outs c main_v11 : FVec F S1000000 .f32) = _ from cols_sj (V4 m outs c)]

/-- Region 1's third input: the label order of the two takes, padded, in rows of 128. -/
theorem arr_v23 :
    (V11 m outs c main_v23 : FVec F S8192x128 .f32)
      = tilesOf (padOf (ordOf (V4 m outs c main_v6 : FVec F S1000000x2 .f32) (V4 m outs c main_v7 : FVec F S1000000x2 .f32))
          (constantI S_ 32 0#32)) := by
  refine (tiles_ord (V10 m outs c)).trans ?_
  refine congrArg tilesOf ((pad_ord (V9 m outs c)).trans ?_)
  rw [show (V9 m outs c main_c_1 : IVec S_ 32) = _ from zero_c1 (V8 m outs c),
    V9_of m outs c main_v17 (by decide), V8_of m outs c main_v17 (by decide), V7_of m outs c main_v17 (by decide),
    V6_of m outs c main_v17 (by decide),
    show (V5 m outs c main_v17 : FVec F S1000000 .f32) = _ from cols_ord (V4 m outs c)]

end Whole

/-! ## Region 1's inputs at an entry -/

section Final
variable (m : (ℓ : Loc nD τ sig) → Buf (Elt Ideal) ℓ) (outs : Outs (F := Ideal)) (c : Dev nD)

/-- Entry (a, l) of the first input, q = 128·a + l: the score of the row position idx_i[q] names, or 0 past the pairs. -/
theorem v21_apply (sc : Cert.Spec.Mat 500000 1) (hsc : outs 1 main_v0 c = sc)
    (hi : ∀ p, -500000 ≤ (m ((c : Thread nD τ).loc main_arg2) p).toInt ∧ (m ((c : Thread nD τ).loc main_arg2) p).toInt < 500000)
    (a : Fin 8192) (l : Fin 128) :
    V11 (F := Ideal) m outs c main_v21 (ix2 a l)
      = if h : 128 * a.val + l.val < 1000000 then
          sc (ix2 (Cert.Spec.row (m ((c : Thread nD τ).loc main_arg2) (ix1 ⟨128 * a.val + l.val, h⟩))) 0)
        else 0 := by
  refine (congrFun (arr_v21 m outs c) (ix2 a l)).trans ?_
  rw [arr_take_i, arr_table, hsc]
  unfold tilesOf
  rw [cast_vec_tiles, padOf_apply]
  by_cases h : 128 * a.val + l.val < 1000000
  · rw [dif_pos h, dif_pos h, col0Of_apply, takeOf_apply _ _ _ _ (hi _), tableOf_apply0]
  · rw [dif_neg h, dif_neg h]

/-- Entry (a, l) of the second input: the score of the row position idx_j[q] names, or 0 past the pairs. -/
theorem v22_apply (sc : Cert.Spec.Mat 500000 1) (hsc : outs 1 main_v0 c = sc)
    (hj : ∀ p, -500000 ≤ (m ((c : Thread nD τ).loc main_arg3) p).toInt ∧ (m ((c : Thread nD τ).loc main_arg3) p).toInt < 500000)
    (a : Fin 8192) (l : Fin 128) :
    V11 (F := Ideal) m outs c main_v22 (ix2 a l)
      = if h : 128 * a.val + l.val < 1000000 then
          sc (ix2 (Cert.Spec.row (m ((c : Thread nD τ).loc main_arg3) (ix1 ⟨128 * a.val + l.val, h⟩))) 0)
        else 0 := by
  refine (congrFun (arr_v22 m outs c) (ix2 a l)).trans ?_
  rw [arr_take_j, arr_table, hsc]
  unfold tilesOf
  rw [cast_vec_tiles, padOf_apply]
  by_cases h : 128 * a.val + l.val < 1000000
  · rw [dif_pos h, dif_pos h, col0Of_apply, takeOf_apply _ _ _ _ (hj _), tableOf_apply0]
  · rw [dif_neg h, dif_neg h]

/-- Entry (a, l) of the third input: the order of the labels of the two rows pair q names, or 0 past the pairs. -/
theorem v23_apply
    (hi : ∀ p, -500000 ≤ (m ((c : Thread nD τ).loc main_arg2) p).toInt ∧ (m ((c : Thread nD τ).loc main_arg2) p).toInt < 500000)
    (hj : ∀ p, -500000 ≤ (m ((c : Thread nD τ).loc main_arg3) p).toInt ∧ (m ((c : Thread nD τ).loc main_arg3) p).toInt < 500000)
    (a : Fin 8192) (l : Fin 128) :
    V11 (F := Ideal) m outs c main_v23 (ix2 a l)
      = if h : 128 * a.val + l.val < 1000000 then
          Cert.Spec.ord
            (m ((c : Thread nD τ).loc main_arg1)
              (ix1 (Cert.Spec.row (m ((c : Thread nD τ).loc main_arg2) (ix1 ⟨128 * a.val + l.val, h⟩)))))
            (m ((c : Thread nD τ).loc main_arg1)
              (ix1 (Cert.Spec.row (m ((c : Thread nD τ).loc main_arg3) (ix1 ⟨128 * a.val + l.val, h⟩)))))
        else 0 := by
  refine (congrFun (arr_v23 m outs c) (ix2 a l)).trans ?_
  rw [arr_take_i, arr_take_j, arr_table]
  unfold tilesOf
  rw [cast_vec_tiles, padOf_apply]
  by_cases h : 128 * a.val + l.val < 1000000
  · rw [dif_pos h, dif_pos h]
    unfold ordOf
    rw [sign_apply, subf_apply, col1Of_apply, col1Of_apply, takeOf_apply _ _ _ _ (hi _), takeOf_apply _ _ _ _ (hj _), tableOf_apply1,
      tableOf_apply1]
    rfl
  · rw [dif_neg h, dif_neg h]

end Final

end Cert.KernelIdeal.Mid

end
-- ==== Proof.KI.BcePay.lean ====
/- REGION 1 of the program, the values only: the pair-loss kernel's payloads read at an entry.

   At grid coordinates (core, k) the body reads three 1024 × 128 blocks (the two scores and the label order of each pair),
   forms the pair loss elementwise, keeps it where the pair's position ((core·4 + k)·1024 + row)·128 + lane is below the
   number of pairs, 1000000, and adds the sum of what it kept onto a 1 × 1 accumulator. Here: each payload at an index, the
   position word and its signed comparison as the comparison of natural numbers (the word never wraps: it is below 2²⁰), the
   two one-axis sums as Fin-indexed sums, and the accumulation step at its one entry. -/
import proofs.«409445_j54322746359987_3_alg».proof.Proof.Gen.KernelIdeal.Skeleton
import proofs.«409445_j54322746359987_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1V

open Cert.KernelIdeal Cert.KernelIdeal.Gen Idealize.ShloMosaic Idealize.ShloMosaic.ValueIdx

/-! ## The elementwise pair loss -/

/-- The loss payload at (r, l): 0 - (S·max(log p, -100) + (1 - S)·max(log1p(0 - p), -100)) with p = logistic(1·(sᵢ - sⱼ)),
    of the three blocks' elements at (r, l); a shape cast of a shape to itself is the identity. -/
theorem pay4_apply (x0 x1 x2 : Vec Ideal S1024x128 .f32) (r : Fin 1024) (l : Fin 128) :
    k1_pay4 (F := Ideal) x0 x1 x2 (ix2 r l)
      = 0 - (x2 (ix2 r l) * max (Ideal.log (Ideal.logistic (Cert.Spec.one32 * (x0 (ix2 r l) - x1 (ix2 r l))))) Cert.Spec.m100
          + (Cert.Spec.one32 - x2 (ix2 r l))
            * max (Ideal.log1p (0 - Ideal.logistic (Cert.Spec.one32 * (x0 (ix2 r l) - x1 (ix2 r l))))) Cert.Spec.m100) := by
  unfold k1_pay4
  simp only [shapeCast_self]
  rw [← Ideal.ofBits_zero_f32]
  rfl

/-- Subtracting from zero is negating: the kernel's spelling of a pair's loss is the specification's. -/
theorem loss_spelt (si sj S : EReal) :
    0 - (S * max (Ideal.log (Ideal.logistic (Cert.Spec.one32 * (si - sj)))) Cert.Spec.m100
        + (Cert.Spec.one32 - S) * max (Ideal.log1p (0 - Ideal.logistic (Cert.Spec.one32 * (si - sj)))) Cert.Spec.m100)
      = Cert.Spec.loss si sj S := by
  unfold Cert.Spec.loss
  rw [zero_sub, zero_sub]

/-! ## The position of an element among the pairs -/

/-- The position word at (r, l) is the word of the natural number ((core·4 + k)·1024 + r)·128 + l: the products and sums of
    words are the words of the products and sums, and each iota reads its coordinate. -/
theorem pay5_apply (i : grid1.Coords) (r : Fin 1024) (l : Fin 128) :
    k1_pay5 i (ix2 r l) = BitVec.ofNat 32 ((((i 0).val * 4 + (i 1).val) * 1024 + r.val) * 128 + l.val) := by
  unfold k1_pay5
  show IntOp.addi (IntOp.muli (IntOp.addi (Scalar.muli (Scalar.addi (Scalar.muli (BitVec.ofNat 32 (i 0).val) 4#32)
      (BitVec.ofNat 32 (i 1).val)) 1024#32) (iota .tc S1024x128 32 [0] iota_S1024x128_d0_w32 (ix2 r l))) 128#32)
      (iota .tc S1024x128 32 [1] iota_S1024x128_d1_w32 (ix2 r l)) = _
  rw [iota_single_apply, iota_single_apply]
  show ((BitVec.ofNat 32 (i 0).val * BitVec.ofNat 32 4 + BitVec.ofNat 32 (i 1).val) * BitVec.ofNat 32 1024
      + BitVec.ofNat 32 r.val) * BitVec.ofNat 32 128 + BitVec.ofNat 32 l.val = _
  simp only [BitVec.ofNat_add, BitVec.ofNat_mul]

/-- The bound the positions are compared with is the word 1000000 at every element. -/
theorem pay6_apply (r : Fin 1024) (l : Fin 128) : k1_pay6 (ix2 r l) = 1000000#32 := rfl

/-- Below 2³¹ a word read signed is the number itself, so the signed comparison with 1000000 is the numbers' comparison. -/
theorem slt_word (n : Nat) (hn : n < 2147483648) :
    IntOp.cmpi .slt (BitVec.ofNat 32 n) 1000000#32 = BitVec.ofBool (decide (n < 1000000)) := by
  show BitVec.ofBool ((BitVec.ofNat 32 n).slt 1000000#32) = _
  congr 1
  rw [BitVec.slt_eq_decide]
  have h1 : (BitVec.ofNat 32 n).toInt = (n : Int) := by
    rw [BitVec.toInt_eq_toNat_of_lt (by rw [BitVec.toNat_ofNat]; omega), BitVec.toNat_ofNat]
    omega
  have h2 : (1000000#32 : BitVec 32).toInt = 1000000 := by decide
  rw [h1, h2]
  exact decide_eq_decide.2 (by omega)

/-- A select on the bit of a decided condition is the `if` on the condition. -/
theorem select_ofBool {α : Type} (b : Bool) (x y : α) : Scalar.select (BitVec.ofBool b) x y = if b then x else y := by
  cases b <;> rfl

/-! ## The two sums -/

/-- Over row r of the 1024 × 128 block, the index with lane l put back is (r, l). -/
theorem lift_lane (h : S1024x128.Reduces [1] S1024) (r : Fin 1024) (l : Fin 128) :
    h.lift (ix1 r) l = ix2 r l := by
  funext a; match a with | ⟨0, _⟩ => rfl | ⟨1, _⟩ => rfl

/-- Over the one entry of the column's sum, the index with row r put back is (r, 0). -/
theorem lift_row (h : S1024x1.Reduces [0] S1) (u : Fin 1) (r : Fin 1024) :
    h.lift (ix1 u) r = ix2 r u := by
  funext a; match a with | ⟨0, _⟩ => rfl | ⟨1, _⟩ => rfl

/-- A vector [a] cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The accumulation payload at its one entry: the old accumulator plus the sum, over rows and then lanes, of the selected
    elements. A float sum over one axis is the Fin-indexed sum over that axis, the casts between [1024] and [1024, 1] and
    between [1] and [1, 1] keep the row-major position, and a cast of a shape to itself is the identity. -/
theorem pay1_apply (v27 : FVec Ideal S1024x128 .f32) (v37 v38 : IVec S1024x128 32) (a : Vec Ideal S1x1 .f32) :
    k1_pay1 (F := Ideal) v27 v37 v38 a (ix2 0 0)
      = a (ix2 0 0) + ∑ r : Fin 1024, ∑ l : Fin 128,
          Scalar.select (IntOp.cmpi .slt (v37 (ix2 r l)) (v38 (ix2 r l))) (v27 (ix2 r l)) (Ideal.ofBits .f32 0x00000000#32) := by
  unfold k1_pay1
  simp only [shapeCast_self]
  rw [addf_apply]
  congr 1
  refine (shapeCast_a_1a_apply _ _ 0 0).trans ?_
  refine (Ideal.multiReduction_add_single _ 0x00000000#32 reduces_S1024x1_S1 _ _ (ix1 0)).trans ?_
  refine Finset.sum_congr rfl fun (r : Fin 1024) _ => ?_
  refine (congrArg _ (lift_row reduces_S1024x1_S1 0 r)).trans ?_
  refine (shapeCast_a_a1_apply _ _ r 0).trans ?_
  refine (Ideal.multiReduction_add_single _ 0x00000000#32 reduces_S1024x128_S1024 _ _ (ix1 r)).trans ?_
  refine Finset.sum_congr rfl fun (l : Fin 128) _ => ?_
  refine (congrArg _ (lift_lane reduces_S1024x128_S1024 r l)).trans ?_
  rfl

/-! ## The accumulation step, the reset value, the broadcast of the accumulator -/

/-- The accumulation step at its one entry: the old accumulator plus, over the block's rows and lanes, the specification's
    pair loss of the three blocks' elements where the pair's position is below 1000000, and 0 elsewhere. -/
theorem step_apply (i : grid1.Coords) (x0 x1 x2 : Vec Ideal S1024x128 .f32) (a : Vec Ideal S1x1 .f32) :
    k1_pay1 (F := Ideal) (k1_pay4 x0 x1 x2) (k1_pay5 i) k1_pay6 a (ix2 0 0)
      = a (ix2 0 0) + ∑ r : Fin 1024, ∑ l : Fin 128,
          (if ((i 0).val * 4 + (i 1).val) * 131072 + r.val * 128 + l.val < 1000000
            then Cert.Spec.loss (x0 (ix2 r l)) (x1 (ix2 r l)) (x2 (ix2 r l)) else 0) := by
  rw [pay1_apply]
  congr 1
  refine Finset.sum_congr rfl fun r _ => Finset.sum_congr rfl fun l _ => ?_
  have hi0 : (i 0).val < 2 := (i 0).isLt
  have hi1 : (i 1).val < 4 := (i 1).isLt
  have hr : r.val < 1024 := r.isLt
  have hl : l.val < 128 := l.isLt
  have e : (((i 0).val * 4 + (i 1).val) * 1024 + r.val) * 128 + l.val
      = ((i 0).val * 4 + (i 1).val) * 131072 + r.val * 128 + l.val := by omega
  rw [pay5_apply, pay6_apply, slt_word _ (by omega), select_ofBool, pay4_apply, loss_spelt, Ideal.ofBits_zero_f32, e]
  simp only [decide_eq_true_eq]

/-- The reset value's one entry is 0. -/
theorem pay3_apply : (k1_pay3 (F := Ideal)) (ix2 0 0) = 0 := by
  unfold k1_pay3
  simp only [shapeCast_self]
  exact Ideal.ofBits_zero_f32

/-- The output block reads the accumulator's one entry on every lane. -/
theorem pay2_apply (v : Vec Ideal S1x1 .f32) (l : Fin 128) : k1_pay2 (F := Ideal) v (ix2 0 l) = v (ix2 0 0) := by
  unfold k1_pay2
  simp only [shapeCast_self]
  exact broadcastTo_apply v broadcasts_S1x1_S1x128 (ix2 0 l) (ix2 0 0)
    (fun a => match a with | ⟨0, _⟩ => rfl | ⟨1, _⟩ => rfl)

end Cert.KernelIdeal.R1V

end
-- ==== Proof.KI.BceValue.lean ====
/- REGION 1 of the program, the values only: what the pair-loss kernel leaves in its output array.

   The grid is 2 cores × 4 steps; point t = 4·core + k reads row block t (1024 rows) of the three padded 8192 × 128
   arrays, and the 1 × 1 accumulator is cleared at k = 0, gains the block's kept pair losses at every point, and is
   broadcast into lane block `core` of the 1 × 256 output at k = 3. So the output's entry (0, 128·core) is the sum over
   the core's four blocks of the blocks' sums: the accumulator's recursion unrolled, and the output window's two
   written blocks read back. -/
import proofs.«409445_j54322746359987_3_alg».proof.Proof.KI.BcePay
import proofs.«409445_j54322746359987_3_alg».proof.Proof.KI.Bce

set_option maxRecDepth 16384

noncomputable section

namespace Cert.KernelIdeal.R1V

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The printed index maps and the grid's coordinates, decided over the 8 points: input window w's block at point t is
    row block t, the output window's is lane block t / 4, and point t is (core, k) = (t / 4, t % 4). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val / 4
    ∧ (grid1.coords t 0).val = t.val / 4 ∧ (grid1.coords t 1).val = t.val % 4 :=
  (by decide +kernel : ∀ t : Fin grid1.N, _)

/-- Block t of a padded array read at (r, l) is the array at row 1024·t + r, lane l. -/
theorem iblk0_apply (c : Dev nD) (t : Fin cfg1.N) (r : Fin 1024) (l : Fin 128) :
    R1.iblk V c 0 t (ix2 r l) = V c main_v21 (ix2 ⟨t.val * 1024 + r.val, by have := t.isLt; have hN : cfg1.N = 8 := N_1; omega⟩ l) := by
  obtain ⟨e0, e1, -⟩ := idx_facts t
  unfold R1.iblk
  rw [View.read_apply]
  show V c main_v21 (((cfg1.win 0).blk t).view.emb (ix2 r l)) = _
  congr 1
  funext a; apply Fin.ext
  match a with
  | ⟨0, _⟩ => show win1_0.index t (0 : Fin 2) * 1024 + 1 * r.val = t.val * 1024 + r.val; rw [e0]; omega
  | ⟨1, _⟩ => show win1_0.index t (1 : Fin 2) * 128 + 1 * l.val = l.val; rw [e1]; omega

/-- The same for the second scores' array. -/
theorem iblk1_apply (c : Dev nD) (t : Fin cfg1.N) (r : Fin 1024) (l : Fin 128) :
    R1.iblk V c 1 t (ix2 r l) = V c main_v22 (ix2 ⟨t.val * 1024 + r.val, by have := t.isLt; have hN : cfg1.N = 8 := N_1; omega⟩ l) := by
  obtain ⟨-, -, e0, e1, -⟩ := idx_facts t
  unfold R1.iblk
  rw [View.read_apply]
  show V c main_v22 (((cfg1.win 1).blk t).view.emb (ix2 r l)) = _
  congr 1
  funext a; apply Fin.ext
  match a with
  | ⟨0, _⟩ => show win1_1.index t (0 : Fin 2) * 1024 + 1 * r.val = t.val * 1024 + r.val; rw [e0]; omega
  | ⟨1, _⟩ => show win1_1.index t (1 : Fin 2) * 128 + 1 * l.val = l.val; rw [e1]; omega

/-- The same for the label orders' array. -/
theorem iblk2_apply (c : Dev nD) (t : Fin cfg1.N) (r : Fin 1024) (l : Fin 128) :
    R1.iblk V c 2 t (ix2 r l) = V c main_v23 (ix2 ⟨t.val * 1024 + r.val, by have := t.isLt; have hN : cfg1.N = 8 := N_1; omega⟩ l) := by
  obtain ⟨-, -, -, -, e0, e1, -⟩ := idx_facts t
  unfold R1.iblk
  rw [View.read_apply]
  show V c main_v23 (((cfg1.win 2).blk t).view.emb (ix2 r l)) = _
  congr 1
  funext a; apply Fin.ext
  match a with
  | ⟨0, _⟩ => show win1_2.index t (0 : Fin 2) * 1024 + 1 * r.val = t.val * 1024 + r.val; rw [e0]; omega
  | ⟨1, _⟩ => show win1_2.index t (1 : Fin 2) * 128 + 1 * l.val = l.val; rw [e1]; omega

/-- The sum of the kept pair losses of block n of the three padded arrays. -/
def blockSum (c : Dev nD) (n : ℕ) (hn : n < 8) : EReal :=
  ∑ r : Fin 1024, ∑ l : Fin 128,
    (if n * 131072 + r.val * 128 + l.val < 1000000 then
      Cert.Spec.loss (V c main_v21 (ix2 ⟨n * 1024 + r.val, by omega⟩ l)) (V c main_v22 (ix2 ⟨n * 1024 + r.val, by omega⟩ l))
        (V c main_v23 (ix2 ⟨n * 1024 + r.val, by omega⟩ l))
    else 0)

/-- A point's number is below 8. -/
theorem lt8 (t : Fin cfg1.N) : t.val < 8 := by have := t.isLt; have hN : cfg1.N = 8 := N_1; omega

/-- One accumulation at point t, at the accumulator's entry: the old entry plus block t's sum. -/
theorem step_at (c : Dev nD) (t : Fin cfg1.N) (a : Vec Ideal S1x1 .f32) :
    R1.step (grid1.coords t) (R1.iblk V c 0 t) (R1.iblk V c 1 t) (R1.iblk V c 2 t) a (ix2 0 0)
      = a (ix2 0 0) + blockSum V c t.val (lt8 t) := by
  obtain ⟨-, -, -, -, -, -, -, -, g0, g1⟩ := idx_facts t
  refine (step_apply (grid1.coords t) _ _ _ a).trans ?_
  refine congrArg (a (ix2 0 0) + ·) ?_
  unfold blockSum
  refine Finset.sum_congr rfl fun r _ => Finset.sum_congr rfl fun l _ => ?_
  have e : (grid1.coords t 0).val * 4 + (grid1.coords t 1).val = t.val := by rw [g0, g1]; omega
  rw [iblk0_apply, iblk1_apply, iblk2_apply, e]

/-- At the first point of a row of four the accumulator's entry is the point's block sum (the reset value is 0). -/
theorem acc_reset (c : Dev nD) (n : ℕ) (hn : n < cfg1.N) (h : n % 4 = 0) :
    R1.accAt V c n hn (ix2 0 0) = blockSum V c n (lt8 ⟨n, hn⟩) := by
  have := R1.accAt_reset V c ⟨n, hn⟩ h
  rw [show R1.accAt V c n hn = _ from this, step_at, pay3_apply, zero_add]

/-- At the other points it is the entry the point before left plus the point's block sum. -/
theorem acc_acc (c : Dev nD) (n : ℕ) (hn : n + 1 < cfg1.N) (h : ¬(n + 1) % 4 = 0) :
    R1.accAt V c (n + 1) hn (ix2 0 0) = R1.accAt V c n (Nat.lt_of_succ_lt hn) (ix2 0 0) + blockSum V c (n + 1) (lt8 ⟨n + 1, hn⟩) := by
  have := R1.accAt_acc V c ⟨n + 1, hn⟩ h
  rw [show R1.accAt V c (n + 1) hn = _ from this, step_at]
  rfl

/-- The accumulator at equal point numbers. -/
theorem accAt_congr (c : Dev nD) {n n' : ℕ} (h : n = n') (hn : n < cfg1.N) (hn' : n' < cfg1.N) :
    R1.accAt V c n hn = R1.accAt V c n' hn' := by subst h; rfl

/-- What the output array ends holding: on the 128 lanes of block `core` the accumulator's entry after that core's
    last point, 4·core + 3. -/
def outG (c : Dev nD) : S1x256.Idx → EReal := fun i =>
  R1.accAt V c (4 * ((i 1).val / 128) + 3)
    (by have h : (i 1).val < 256 := (i 1).isLt; have hN : cfg1.N = 8 := N_1; omega) (ix2 0 0)

/-- What a writing point (t % 4 = 3) writes back is its block of that array: the accumulator after point t on each of the
    block's lanes, and lane block t / 4's core has 4·(t / 4) + 3 = t as its last point. -/
theorem flushed_eq (c : Dev nD) (t : Fin cfg1.N) (hf : (cfg1.win 3).flush t = true) :
    (R1.dat V c).flushed 3 t = ((cfg1.win 3).blk t).view.read (Elt Ideal) (outG V c) := by
  have h3 : t.val % 4 = 3 := (flush1_3 t).mp hf
  obtain ⟨-, -, -, -, -, -, o0, o1, -⟩ := idx_facts t
  show (cfg1.win 3).cut (grid1.coords t) ((R1.dat V c).after 3 t) = _
  rw [R1.after_3, R1.outAt_flush V c t h3]
  refine funext fun (j : S1x128.Idx) => ?_
  obtain ⟨u, l, rfl⟩ : ∃ (u : Fin 1) (l : Fin 128), j = ix2 u l := ⟨j 0, j 1, eq_ix2 j⟩
  obtain rfl : u = 0 := Subsingleton.elim _ _
  rw [View.read_apply]
  show k1_pay2 (R1.accAt V c t.val t.isLt) (ix2 0 l) = outG V c (((cfg1.win 3).blk t).view.emb (ix2 0 l))
  rw [pay2_apply]
  unfold outG
  have e : ((((cfg1.win 3).blk t).view.emb (ix2 0 l)) 1).val = t.val / 4 * 128 + l.val := by
    show win1_3.index t (1 : Fin 2) * 128 + 1 * l.val = _
    rw [o1]; omega
  exact congrFun (accAt_congr V c (by rw [e]; have := l.isLt; omega) _ _) _

/-- An index of the output array is in point t's block iff each coordinate is in the block's range on its axis. -/
theorem mem_blk (t : Fin cfg1.N) (i : S1x256.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v24).slice (win1_3.rect t)).set ↔ _
  rw [View.set_slice_whole, Rect.mem_set_unit]
  exact Iff.rfl

/-- The output array after the run, at the first lane of core's block, is the accumulator's entry after the core's last
    point: that point writes the block back and the index lies in it. -/
theorem out_acc (c : Dev nD) (core : Fin 2) :
    (R1.dat V c).arrAt 3 cfg1.N (ix2 0 ⟨128 * core.val, by omega⟩)
      = R1.accAt V c (4 * core.val + 3) (by have hN : cfg1.N = 8 := N_1; omega) (ix2 0 0) := by
  have hN : cfg1.N = 8 := N_1
  have hc : core.val < 2 := core.isLt
  have ht : 4 * core.val + 3 < cfg1.N := by omega
  obtain ⟨-, -, -, -, -, -, o0, o1, -⟩ := idx_facts ⟨4 * core.val + 3, ht⟩
  have hf : (cfg1.win 3).flush ⟨4 * core.val + 3, ht⟩ = true :=
    (flush1_3 ⟨4 * core.val + 3, ht⟩).mpr (by show (4 * core.val + 3) % 4 = 3; omega)
  refine ((R1.dat V c).arrAt_apply_of_mem 3 (outG V c) (flushed_eq V c) cfg1.N ⟨4 * core.val + 3, ht⟩ _ ht hf ?_).trans ?_
  · rw [mem_blk]
    intro a
    match a with
    | ⟨0, _⟩ =>
      show win1_3.index ⟨4 * core.val + 3, _⟩ (0 : Fin 2) * 1 ≤ 0 ∧ 0 < win1_3.index ⟨4 * core.val + 3, _⟩ (0 : Fin 2) * 1 + 1
      rw [o0]; omega
    | ⟨1, _⟩ =>
      show win1_3.index ⟨4 * core.val + 3, _⟩ (1 : Fin 2) * 128 ≤ 128 * core.val ∧ 128 * core.val < win1_3.index ⟨4 * core.val + 3, _⟩ (1 : Fin 2) * 128 + 128
      rw [o1]
      show (4 * core.val + 3) / 4 * 128 ≤ 128 * core.val ∧ 128 * core.val < (4 * core.val + 3) / 4 * 128 + 128
      omega
  · unfold outG
    exact congrFun (accAt_congr V c (by show 4 * (128 * core.val / 128) + 3 = 4 * core.val + 3; omega) _ _) _

/-- After a core's last point the accumulator's entry is the sum of the core's four block sums: the first point of the
    row starts from the reset value 0, each later point adds its block sum to what the point before left. -/
theorem acc_row (c : Dev nD) (core : Fin 2) :
    R1.accAt V c (4 * core.val + 3) (by have hN : cfg1.N = 8 := N_1; omega) (ix2 0 0)
      = ∑ k : Fin 4, blockSum V c (4 * core.val + k.val) (by omega) := by
  have hN : cfg1.N = 8 := N_1
  have hc : core.val < 2 := core.isLt
  have h3 := acc_acc V c (4 * core.val + 2) (by omega) (by omega)
  have h2 := acc_acc V c (4 * core.val + 1) (by omega) (by omega)
  have h1 := acc_acc V c (4 * core.val) (by omega) (by omega)
  have h0 := acc_reset V c (4 * core.val) (by omega) (by omega)
  rw [h0] at h1; rw [h1] at h2; rw [h2] at h3
  rw [Fin.sum_univ_four]
  exact h3

/-- A block sum written out, at an equal block number. -/
theorem blockSum_eq (c : Dev nD) (n n' : ℕ) (hn : n < 8) (hn' : n' < 8) (h : n = n') :
    blockSum V c n hn = ∑ r : Fin 1024, ∑ l : Fin 128,
      (if n' * 131072 + r.val * 128 + l.val < 1000000 then
        Cert.Spec.loss (V c main_v21 (ix2 ⟨n' * 1024 + r.val, by omega⟩ l)) (V c main_v22 (ix2 ⟨n' * 1024 + r.val, by omega⟩ l))
          (V c main_v23 (ix2 ⟨n' * 1024 + r.val, by omega⟩ l))
      else 0) := by
  subst h; rfl

/-- THE REGION'S OUTPUT ARRAY at the first lane of each core's block: the sum, over the core's four row blocks and
    their rows and lanes, of the specification's pair loss of the three padded arrays' elements where the pair's
    position is below 1000000. -/
theorem out_core (c : Dev nD) (core : Fin 2) :
    (R1.dat V c).arrAt 3 cfg1.N (ix2 0 ⟨128 * core.val, by omega⟩)
      = ∑ k : Fin 4, ∑ r : Fin 1024, ∑ l : Fin 128,
          (if (core.val * 4 + k.val) * 131072 + r.val * 128 + l.val < 1000000 then
            Cert.Spec.loss (V c main_v21 (ix2 ⟨(core.val * 4 + k.val) * 1024 + r.val, by omega⟩ l))
              (V c main_v22 (ix2 ⟨(core.val * 4 + k.val) * 1024 + r.val, by omega⟩ l))
              (V c main_v23 (ix2 ⟨(core.val * 4 + k.val) * 1024 + r.val, by omega⟩ l))
          else 0) :=
  (out_acc V c core).trans ((acc_row V c core).trans
    (Finset.sum_congr rfl fun k _ => blockSum_eq V c _ _ _ (by omega) (by omega)))

end Cert.KernelIdeal.R1V

end
-- ==== Proof.KI.Tail.lean ====
/-
  The last five host operations of the kernel program, read at the extended reals: the result is the sum of two
  entries of the second region's [1 × 256] output, the one at column 0 and the one at column 128 (each core's
  partial sum), and a sum over the cores' blocks of 131072 positions, eight blocks of 1024 rows of 128 lanes,
  is the sum over all 1048576 positions.
-/
import proofs.«409445_j54322746359987_3_alg».proof.Proof.Gen.KernelIdeal.Regions
import proofs.«409445_j54322746359987_3_alg».proof.Proof.Spec
import Idealize.ShloMosaic.Lib.StableHlo.Run
import Idealize.ShloMosaic.Lib.ValueIdx
import Idealize.ShloMosaic.Lib.Pipeline.Value
import Idealize.ShloMosaic.Lib.ValueLayout
import Mathlib.Algebra.BigOperators.Fin

noncomputable section

namespace Cert.KernelIdeal.Tail

open Cert.KernelIdeal Cert.KernelIdeal.Gen Idealize.ShloMosaic Idealize.ShloMosaic.TcCoe Idealize.ShloMosaic.ValueIdx

/-! ## The result after the last host operations -/

/-- The program's last five operations cut the entries at columns 0 and 128 out of the [1 × 256] array the second
    region leaves, recast each as a scalar, and add them: the result is the sum of those two entries. -/
theorem result_apply (m : (ℓ : Loc nD τ sig) → Buf (Elt Ideal) ℓ) (outs : Outs (F := Ideal)) (c : Dev nD) :
    (V13 (F := Ideal) m outs c main_v29 : S_.Idx → EReal)
      = fun _ => HAdd.hAdd (α := EReal) (β := EReal) (γ := EReal)
          ((V12 (F := Ideal) m outs c main_v24 : S1x256.Idx → EReal) (ix2 0 ⟨0, by decide⟩))
          ((V12 (F := Ideal) m outs c main_v24 : S1x256.Idx → EReal) (ix2 0 ⟨128, by decide⟩)) := by
  show StableHlo.after hostOps2 (V12 m outs c) main_v29 = _
  after_results
  funext i
  show HAdd.hAdd (α := EReal) (β := EReal) (γ := EReal)
      (shapeCast S_ (extractStridedSlice S1x1 ![0, 0] (V12 (F := Ideal) m outs c main_v24 : S1x256.Idx → EReal)
        slices_S1x256_S1x1_0_0) shapeCasts_S1x1_S_ i)
      (shapeCast S_ (extractStridedSlice S1x1 ![0, 128] (V12 (F := Ideal) m outs c main_v24 : S1x256.Idx → EReal)
        slices_S1x256_S1x1_0_128) shapeCasts_S1x1_S_ i) = _
  have hk : (S1x1.rowMajor (ix2 (0 : Fin 1) (0 : Fin 1))).val = (S_.rowMajor i).val := by
    rw [Shape.rowMajor_val_two]
    exact (Shape.rowMajorPi_zero _ _).symm
  rw [shapeCast_apply _ _ i (ix2 (0 : Fin 1) (0 : Fin 1)) hk, shapeCast_apply _ _ i (ix2 (0 : Fin 1) (0 : Fin 1)) hk,
    slice2_axis1_apply 0 _ _ (0 : Fin 1) (0 : Fin 1) (⟨0, by decide⟩ : Fin 256) rfl,
    slice2_axis1_apply 128 _ _ (0 : Fin 1) (0 : Fin 1) (⟨128, by decide⟩ : Fin 256) rfl]

/-! ## The sum over the cores' blocks -/

/-- A double sum over `n` blocks of `m` positions each is the single sum over all `n * m` positions: the pair
    (block, position in the block) numbers the positions. -/
theorem sum_split (g : ℕ → EReal) (n m N : ℕ) (hN : N = n * m) :
    (∑ a : Fin n, ∑ b : Fin m, g (a.val * m + b.val)) = ∑ q : Fin N, g q.val := by
  subst hN
  rw [← (finProdFinEquiv (m := n) (n := m)).sum_comp, Fintype.sum_prod_type]
  refine Finset.sum_congr rfl fun a _ => Finset.sum_congr rfl fun b _ => ?_
  refine congrArg g ?_
  show a.val * m + b.val = b.val + m * a.val
  rw [Nat.mul_comm, Nat.add_comm]

/-- Two cores, four blocks a core, 1024 rows a block, 128 lanes a row: position
    (core·4 + k)·131072 + r·128 + l runs over all 1048576 positions once. -/
theorem sum_blocks (f : ℕ → EReal) :
    (∑ core : Fin 2, ∑ k : Fin 4, ∑ r : Fin 1024, ∑ l : Fin 128,
        f ((core.val * 4 + k.val) * 131072 + r.val * 128 + l.val)) = ∑ q : Fin 1048576, f q.val := by
  have inner : ∀ b : ℕ, (∑ r : Fin 1024, ∑ l : Fin 128, f (b * 131072 + r.val * 128 + l.val))
      = ∑ t : Fin 131072, f (b * 131072 + t.val) := fun b => by
    have h := sum_split (fun t => f (b * 131072 + t)) 1024 128 131072 (by norm_num)
    simpa only [Nat.add_assoc] using h
  simp only [inner]
  rw [sum_split (fun b => ∑ t : Fin 131072, f (b * 131072 + t.val)) 2 4 8 (by norm_num)]
  exact sum_split f 8 131072 1048576 (by norm_num)

end Cert.KernelIdeal.Tail

end
-- ==== Proof.KI.Total.lean ====
/- The kernel program's result is the sum of the pairs' losses.

   The result buffer holds the sum of the two cores' partial sums. A core's partial sum is the sum over its four
   grid steps of the block sums of the masked pair losses, read off the three padded arrays region 1 is entered
   with; those arrays hold, at padded position q = 128·a + l below 1000000, the score of the row position i(q)
   reads, the score of the row position j(q) reads, and the order of the two rows' labels (the scores being what
   region 0 left: the perceptron's score of every row), and zero above. So the masked term at a padded position
   below 1000000 is that pair's loss and zero above, the four nested sums run over all 2^20 padded positions
   once each, and the masked sum over them is the sum over the 1000000 pairs. -/
import proofs.«409445_j54322746359987_3_alg».proof.Proof.KI.Run
import proofs.«409445_j54322746359987_3_alg».proof.Proof.KI.MlpValue
import proofs.«409445_j54322746359987_3_alg».proof.Proof.KI.HostMid
import proofs.«409445_j54322746359987_3_alg».proof.Proof.KI.BceValue
import proofs.«409445_j54322746359987_3_alg».proof.Proof.KI.Tail
import proofs.«409445_j54322746359987_3_alg».proof.Proof.Facts
import proofs.«409445_j54322746359987_3_alg».proof.Proof.Spec

set_option maxRecDepth 16384
set_option synthInstance.maxHeartbeats 400000

noncomputable section

namespace Cert.KernelIdeal.Total

open Idealize.ShloMosaic Idealize.ShloMosaic.TcCoe Idealize.ShloMosaic.ValueIdx Idealize.SL.Sem
open Cert.KernelIdeal Cert.KernelIdeal.Gen Cert.KernelIdeal.Launch

variable (m : (ℓ : Loc nD τ sig) → Buf (Elt Ideal) ℓ)

/-- What region 0 leaves in the score array: every row's score. -/
theorem scores_left (c : Dev nD) :
    outsA m 1 main_v0 c = fun i => Cert.Spec.score (m ((c : Thread nD τ).loc main_arg0)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (i 0) := by
  have h2 : outsA m 1 main_v0 c = (R0.dat (EA m) c).arrAt 7 cfg0.N := by
    show WA m c main_v0 = _
    exact Pipeline.withArrays_arr spec0 launch0.win.arr_inj c _ _ 7
  exact h2.trans (R0V.scores_final (EA m) c)

/-- The masked pair loss at a padded position, as a function of the position's number. -/
def term (c : Dev nD) (n : ℕ) : EReal :=
  if h : n < 1000000 then
    Cert.Spec.pairLoss (m ((c : Thread nD τ).loc main_arg0)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg1))
      (m ((c : Thread nD τ).loc main_arg2)) (m ((c : Thread nD τ).loc main_arg3)) ⟨n, h⟩
  else 0

/-- Beyond the 1000000 pairs the term is zero, so masking it again changes nothing. -/
theorem term_masked (c : Dev nD) (n : ℕ) : (if n < 1000000 then term m c n else 0) = term m c n := by
  by_cases h : n < 1000000
  · rw [if_pos h]
  · rw [if_neg h]; unfold term; rw [dif_neg h]

/-- The sum of the masked terms over the 2^20 padded positions is the sum of the pairs' losses. -/
theorem sum_terms (c : Dev nD) :
    (∑ q : Fin 1048576, term m c q.val) = Cert.Spec.total (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg2)) (m ((c : Thread nD τ).loc main_arg3)) := by
  have h1 : (∑ q : Fin 1048576, term m c q.val) = ∑ q : Fin 1048576, (if q.val < 1000000 then term m c q.val else 0) :=
    Finset.sum_congr rfl fun q _ => (term_masked m c q.val).symm
  rw [h1, Cert.Facts.sum_masked (term m c)]
  unfold Cert.Spec.total
  refine Finset.sum_congr rfl fun p _ => ?_
  unfold term
  rw [dif_pos p.isLt]

variable (hi : ∀ c : Dev nD, ∀ p, -500000 ≤ (m ((c : Thread nD τ).loc main_arg2) p).toInt ∧ (m ((c : Thread nD τ).loc main_arg2) p).toInt < 500000)
variable (hj : ∀ c : Dev nD, ∀ p, -500000 ≤ (m ((c : Thread nD τ).loc main_arg3) p).toInt ∧ (m ((c : Thread nD τ).loc main_arg3) p).toInt < 500000)

include hi hj in
/-- One core's partial sum, term by term: at block row (core·4 + k)·1024 + r and lane l the three padded arrays hold
    the two scores and the label order of padded position (core·4 + k)·131072 + r·128 + l. -/
theorem core_sum (c : Dev nD) (core : Fin 2) :
    (R1.dat (EB m) c).arrAt 3 cfg1.N (ix2 0 ⟨128 * core.val, by omega⟩)
      = (∑ k : Fin 4, ∑ r : Fin 1024, ∑ l : Fin 128, term m c ((core.val * 4 + k.val) * 131072 + r.val * 128 + l.val) : EReal) := by
  rw [R1V.out_core (EB m) c core]
  show @Eq EReal _ _
  refine Finset.sum_congr rfl fun k _ => Finset.sum_congr rfl fun r _ => Finset.sum_congr rfl fun l _ => ?_
  have hq : 128 * ((core.val * 4 + k.val) * 1024 + r.val) + l.val = (core.val * 4 + k.val) * 131072 + r.val * 128 + l.val := by ring
  by_cases h : (core.val * 4 + k.val) * 131072 + r.val * 128 + l.val < 1000000
  · have h' : 128 * ((core.val * 4 + k.val) * 1024 + r.val) + l.val < 1000000 := hq ▸ h
    have hp : (⟨128 * ((core.val * 4 + k.val) * 1024 + r.val) + l.val, h'⟩ : Fin 1000000)
        = ⟨(core.val * 4 + k.val) * 131072 + r.val * 128 + l.val, h⟩ := Fin.ext hq
    rw [if_pos h]
    unfold term
    rw [dif_pos h]
    unfold Cert.Spec.pairLoss
    show Cert.Spec.loss (V11 m (outsA m) c main_v21 (ix2 ⟨(core.val * 4 + k.val) * 1024 + r.val, _⟩ l))
        (V11 m (outsA m) c main_v22 (ix2 ⟨(core.val * 4 + k.val) * 1024 + r.val, _⟩ l))
        (V11 m (outsA m) c main_v23 (ix2 ⟨(core.val * 4 + k.val) * 1024 + r.val, _⟩ l)) = _
    rw [Mid.v21_apply m (outsA m) c _ (scores_left m c) (hi c) ⟨(core.val * 4 + k.val) * 1024 + r.val, by omega⟩ l,
      Mid.v22_apply m (outsA m) c _ (scores_left m c) (hj c) ⟨(core.val * 4 + k.val) * 1024 + r.val, by omega⟩ l,
      Mid.v23_apply m (outsA m) c (hi c) (hj c) ⟨(core.val * 4 + k.val) * 1024 + r.val, by omega⟩ l,
      dif_pos h', dif_pos h', dif_pos h', hp]
    rfl
  · rw [if_neg h]; unfold term; rw [dif_neg h]

include hi hj in
/-- THE KERNEL PROGRAM'S RESULT: the two cores' partial sums added are the sum of the pairs' losses. -/
theorem kernel_total (c : Dev nD) :
    V13 m (outs m) c main_v29 = fun _ => Cert.Spec.total (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg1)) (m ((c : Thread nD τ).loc main_arg2)) (m ((c : Thread nD τ).loc main_arg3)) := by
  rw [Tail.result_apply m (outs m) c, V12_main_v24 m c]
  funext _
  have e0 : (ix2 (0 : Fin 1) (⟨0, by decide⟩ : Fin 256) : S1x256.Idx) = ix2 0 ⟨128 * (0 : Fin 2).val, by decide⟩ := rfl
  have e1 : (ix2 (0 : Fin 1) (⟨128, by decide⟩ : Fin 256) : S1x256.Idx) = ix2 0 ⟨128 * (1 : Fin 2).val, by decide⟩ := rfl
  rw [e0, e1, core_sum m hi hj c 0, core_sum m hi hj c 1, ← sum_terms m c, ← Cert.KernelIdeal.Tail.sum_blocks (term m c), Fin.sum_univ_two]

end Cert.KernelIdeal.Total

end
-- ==== Proof.Ref.Value.lean ====
/-
  The reference program's result, read at the extended reals, is the specification's total.

  Row by row the three dot products with their biases and positive parts are the perceptron's layers, so the
  reshaped score table at row r is the score of row r. A position is wrapped from the end by adding 500000 below
  zero; the take of a table at a column of wrapped positions reads the table at each position's row (the start
  index read signed and clamped into the table). The gathered labels lie within ±2³⁰, so their 32-bit difference is
  the exact difference and its integer sign, converted, is the order of the two labels. The logistic written out
  as 1 / (1 + exp(-(1·d))) is the logistic of 1·d because the float literal 1 is the real number one. The last
  operation adds the pairs' losses to zero over the rank-1 index set, which is the range of pairs.
-/
import proofs.«409445_j54322746359987_3_alg».proof.Defs
import proofs.«409445_j54322746359987_3_alg».proof.Proof.Gen.ReferenceIdeal.Run
import proofs.«409445_j54322746359987_3_alg».proof.Proof.Gen.ReferenceIdeal.Read
import proofs.«409445_j54322746359987_3_alg».proof.Proof.Gen.Pre_finite_inputs
import proofs.«409445_j54322746359987_3_alg».proof.Proof.Spec
import Idealize.ShloMosaic.Lib.StableHlo.Predicate
import Idealize.ShloMosaic.PureOps.Ideal.Laws
import Idealize.ShloMosaic.Lib.ValueIdx
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The three layers, row by row -/

/-- The float zero both positive parts compare against is the real zero. -/
theorem relu_zero0 (i : S500000x256.Idx) : val_main_call0_v0 (F := Ideal) i = 0 := by
  rw [val_main_call0_v0_apply, val_main_call0_cst_apply, Ideal.ofBits_def, Ideal.ofBits_zero_f32]

theorem relu_zero1 (i : S500000x128.Idx) : val_main_call1_v0 (F := Ideal) i = 0 := by
  rw [val_main_call1_v0_apply, val_main_call1_cst_apply, Ideal.ofBits_def, Ideal.ofBits_zero_f32]

/-- First hidden layer: the reference's value at (r, j) is the positive part of  Σₖ x[r,k]·W1[k,j] + b1[j]. -/
theorem hid1_eq (x0 : (⟨S500000x136, .f32⟩ : BufTy).Contents (Elt Ideal)) (x4 : (⟨S136x256, .f32⟩ : BufTy).Contents (Elt Ideal))
    (x5 : (⟨S256, .f32⟩ : BufTy).Contents (Elt Ideal)) (r : Fin 500000) (j : Fin 256) :
    val_main_v4 (F := Ideal) x0 x4 x5 (ix2 r j) = Cert.Spec.hid1 x0 x4 x5 r j := by
  have el : ∀ k : Fin 136, lidx_main_v0 (ix2 r j) k = ix2 r k := fun k => funext fun a => Fin.ext (by
    match a with | ⟨0, _⟩ => rfl | ⟨1, _⟩ => rfl)
  have er : ∀ k : Fin 136, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  rw [val_main_v4_apply, val_main_v3_apply, val_main_v0_apply, val_main_v2_apply, val_main_v1_apply, relu_zero0, eb]
  simp only [el, er, Ideal.addf_def, Ideal.maximumf_def]
  rfl

/-- Second hidden layer: the reference's value at (r, j) is the positive part of  Σₖ h1[r,k]·W2[k,j] + b2[j]. -/
theorem hid2_eq (x0 : (⟨S500000x136, .f32⟩ : BufTy).Contents (Elt Ideal)) (x4 : (⟨S136x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (r : Fin 500000) (j : Fin 128) :
    val_main_v9 (F := Ideal) x0 x4 x5 x6 x7 (ix2 r j) = Cert.Spec.hid2 x0 x4 x5 x6 x7 r j := by
  have el : ∀ k : Fin 256, lidx_main_v5 (ix2 r j) k = ix2 r k := fun k => funext fun a => Fin.ext (by
    match a with | ⟨0, _⟩ => rfl | ⟨1, _⟩ => rfl)
  have er : ∀ k : Fin 256, ridx_main_v5 (ix2 r j) k = ix2 k j := fun k => funext fun a => Fin.ext (by
    match a with | ⟨0, _⟩ => rfl | ⟨1, _⟩ => rfl)
  have eb : idx_main_v6 (idx_main_v7 (ix2 r j)) = ix1 j := funext fun a => Fin.ext (by
    match a with | ⟨0, _⟩ => rfl)
  rw [val_main_v9_apply, val_main_v8_apply, val_main_v5_apply, val_main_v7_apply, val_main_v6_apply, relu_zero1, eb]
  simp only [el, er, hid1_eq, Ideal.addf_def, Ideal.maximumf_def]
  rfl

/-- The score: the reference's value at row r is  Σₖ h2[r,k]·W3[k,0] + b3[0]. -/
theorem score_eq (x0 : (⟨S500000x136, .f32⟩ : BufTy).Contents (Elt Ideal)) (x4 : (⟨S136x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x1, .f32⟩ : BufTy).Contents (Elt Ideal))
    (x9 : (⟨S1, .f32⟩ : BufTy).Contents (Elt Ideal)) (r : Fin 500000) :
    val_main_v14 (F := Ideal) x0 x4 x5 x6 x7 x8 x9 (ix1 r) = Cert.Spec.score x0 x4 x5 x6 x7 x8 x9 r := by
  have e0 : idx_main_v14 (ix1 r) = ix2 r (0 : Fin 1) := funext fun a => Fin.ext (by
    match a with | ⟨0, _⟩ => exact Nat.div_one _ | ⟨1, _⟩ => rfl)
  have el : ∀ k : Fin 128, lidx_main_v10 (ix2 r (0 : Fin 1)) k = ix2 r k := fun k => funext fun a => Fin.ext (by
    match a with | ⟨0, _⟩ => rfl | ⟨1, _⟩ => rfl)
  have er : ∀ k : Fin 128, ridx_main_v10 (ix2 r (0 : Fin 1)) k = ix2 k (0 : Fin 1) := fun k => funext fun a => Fin.ext (by
    match a with | ⟨0, _⟩ => rfl | ⟨1, _⟩ => rfl)
  have eb : idx_main_v11 (idx_main_v12 (ix2 r (0 : Fin 1))) = ix1 (0 : Fin 1) := funext fun a => Fin.ext (by
    match a with | ⟨0, _⟩ => rfl)
  rw [val_main_v14_apply, e0, val_main_v13_apply, val_main_v10_apply, val_main_v12_apply, val_main_v11_apply, eb]
  simp only [el, er, hid2_eq, Ideal.addf_def]
  rfl

/-! ## Positions: the wrap from the end and the clamped read -/

/-- One position wrapped as the reference does it: 500000 added below zero. -/
theorem wrap_word (i : BitVec 32) :
    Scalar.select (IntOp.cmpi .slt i 0#32) (IntOp.addi i 500000#32) i = Cert.Spec.wrap i := by
  unfold Cert.Spec.wrap Scalar.select IntOp.cmpi IntOp.addi
  cases h : i.slt 0#32 <;> simp

theorem wrapped_i0 (x2 : (⟨S1000000, .i32⟩ : BufTy).Contents (Elt Ideal)) (p : Fin 1000000) :
    val_main_v19 (F := Ideal) x2 (ix1 p) = Cert.Spec.wrap (x2 (ix1 p)) := by
  rw [val_main_v19_apply, val_main_v16_apply, val_main_v18_apply, val_main_v15_apply, val_main_c_apply,
    val_main_v17_apply, val_main_c_0_apply]
  exact wrap_word _

theorem wrapped_j0 (x3 : (⟨S1000000, .i32⟩ : BufTy).Contents (Elt Ideal)) (p : Fin 1000000) :
    val_main_v26 (F := Ideal) x3 (ix1 p) = Cert.Spec.wrap (x3 (ix1 p)) := by
  rw [val_main_v26_apply, val_main_v23_apply, val_main_v25_apply, val_main_v22_apply, val_main_c_1_apply,
    val_main_v24_apply, val_main_c_2_apply]
  exact wrap_word _

theorem wrapped_i1 (x2 : (⟨S1000000, .i32⟩ : BufTy).Contents (Elt Ideal)) (p : Fin 1000000) :
    val_main_v33 (F := Ideal) x2 (ix1 p) = Cert.Spec.wrap (x2 (ix1 p)) := by
  rw [val_main_v33_apply, val_main_v30_apply, val_main_v32_apply, val_main_v29_apply, val_main_c_3_apply,
    val_main_v31_apply, val_main_c_4_apply]
  exact wrap_word _

theorem wrapped_j1 (x3 : (⟨S1000000, .i32⟩ : BufTy).Contents (Elt Ideal)) (p : Fin 1000000) :
    val_main_v40 (F := Ideal) x3 (ix1 p) = Cert.Spec.wrap (x3 (ix1 p)) := by
  rw [val_main_v40_apply, val_main_v37_apply, val_main_v39_apply, val_main_v36_apply, val_main_c_5_apply,
    val_main_v38_apply, val_main_c_6_apply]
  exact wrap_word _

/-- The take of a 500000-entry table at a column of 1000000 positions: position p reads the table at its start
    index read signed and clamped into the table. -/
theorem take_at {α : Type} (x : S500000.Idx → α) (w : (⟨S1000000, .i32⟩ : BufTy).Contents (Elt Ideal)) (p : Fin 1000000) :
    Host.gather gather_S500000_S1000000x1_S1000000_n_0_n_n_0_1_1 x
        (broadcastInDim S1000000x1 ![0] bcast_S1000000_S1000000x1_0 w) (ix1 p)
      = x (ix1 ⟨min (w (ix1 p)).toInt.toNat 499999, by omega⟩) := by
  have e1 : ∀ {n : Nat} (q : Fin n), Shape.Idx.ofFin q = ix1 q := fun q => funext fun a => Fin.ext (by
    match a with | ⟨0, _⟩ => rfl)
  have h := Predicate.gather_take gather_S500000_S1000000x1_S1000000_n_0_n_n_0_1_1 rfl rfl rfl rfl x
    (broadcastInDim S1000000x1 ![0] bcast_S1000000_S1000000x1_0 w) p (by decide)
  have hb : (broadcastInDim S1000000x1 ![0] bcast_S1000000_S1000000x1_0 w) (Predicate.ixP p) = w (ix1 p) := by
    rw [Predicate.bcast_col1, e1]
  rw [e1 p] at h
  rw [h, e1]
  exact congrArg x (congrArg ix1 (Fin.ext (by
    show min (BitVec.toInt _).toNat (500000 - 1) = min (BitVec.toInt _).toNat 499999
    rw [hb])))

/-- The same where the start index is a wrapped position: the take reads that position's row. -/
theorem take_row {α : Type} (x : S500000.Idx → α) (w : (⟨S1000000, .i32⟩ : BufTy).Contents (Elt Ideal)) (p : Fin 1000000)
    (i : BitVec 32) (hw : w (ix1 p) = Cert.Spec.wrap i) :
    Host.gather gather_S500000_S1000000x1_S1000000_n_0_n_n_0_1_1 x
        (broadcastInDim S1000000x1 ![0] bcast_S1000000_S1000000x1_0 w) (ix1 p)
      = x (ix1 (Cert.Spec.row i)) := by
  have e : (⟨min (w (ix1 p)).toInt.toNat 499999, by omega⟩ : Fin 500000) = Cert.Spec.row i := Fin.ext (by
    show min (BitVec.toInt (w (ix1 p))).toNat 499999 = min (BitVec.toInt (Cert.Spec.wrap i)).toNat 499999
    rw [hw])
  rw [take_at, e]

theorem score_i (x0 : (⟨S500000x136, .f32⟩ : BufTy).Contents (Elt Ideal)) (x2 : (⟨S1000000, .i32⟩ : BufTy).Contents (Elt Ideal))
    (x4 : (⟨S136x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x1, .f32⟩ : BufTy).Contents (Elt Ideal))
    (x9 : (⟨S1, .f32⟩ : BufTy).Contents (Elt Ideal)) (p : Fin 1000000) :
    val_main_v21 (F := Ideal) x0 x2 x4 x5 x6 x7 x8 x9 (ix1 p)
      = Cert.Spec.score x0 x4 x5 x6 x7 x8 x9 (Cert.Spec.row (x2 (ix1 p))) := by
  unfold val_main_v21 val_main_v20
  rw [take_row _ _ p _ (wrapped_i0 x2 p), score_eq]

theorem score_j (x0 : (⟨S500000x136, .f32⟩ : BufTy).Contents (Elt Ideal)) (x3 : (⟨S1000000, .i32⟩ : BufTy).Contents (Elt Ideal))
    (x4 : (⟨S136x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x1, .f32⟩ : BufTy).Contents (Elt Ideal))
    (x9 : (⟨S1, .f32⟩ : BufTy).Contents (Elt Ideal)) (p : Fin 1000000) :
    val_main_v28 (F := Ideal) x0 x3 x4 x5 x6 x7 x8 x9 (ix1 p)
      = Cert.Spec.score x0 x4 x5 x6 x7 x8 x9 (Cert.Spec.row (x3 (ix1 p))) := by
  unfold val_main_v28 val_main_v27
  rw [take_row _ _ p _ (wrapped_j0 x3 p), score_eq]

theorem label_i (x1 : (⟨S500000, .i32⟩ : BufTy).Contents (Elt Ideal)) (x2 : (⟨S1000000, .i32⟩ : BufTy).Contents (Elt Ideal))
    (p : Fin 1000000) :
    val_main_v35 (F := Ideal) x1 x2 (ix1 p) = x1 (ix1 (Cert.Spec.row (x2 (ix1 p)))) := by
  unfold val_main_v35 val_main_v34
  exact take_row _ _ p _ (wrapped_i1 x2 p)

theorem label_j (x1 : (⟨S500000, .i32⟩ : BufTy).Contents (Elt Ideal)) (x3 : (⟨S1000000, .i32⟩ : BufTy).Contents (Elt Ideal))
    (p : Fin 1000000) :
    val_main_v42 (F := Ideal) x1 x3 (ix1 p) = x1 (ix1 (Cert.Spec.row (x3 (ix1 p)))) := by
  unfold val_main_v42 val_main_v41
  exact take_row _ _ p _ (wrapped_j1 x3 p)

/-! ## The label order -/

/-- The integer sign of a 32-bit word, read as a real number, is the sign of the word's signed value. -/
theorem sign_word (d : BitVec 32) :
    (((if d = 0 then (0 : BitVec 32) else if d.msb then -1 else 1).toInt : ℝ) : EReal)
      = ((SignType.sign (d.toInt : ℝ) : ℝ) : EReal) := by
  by_cases h0 : d = 0
  · subst h0; simp
  · rw [if_neg h0]
    have hne : d.toInt ≠ 0 := fun h => h0 (BitVec.toInt_inj.mp (h.trans BitVec.toInt_zero.symm))
    by_cases hm : d.msb = true
    · rw [if_pos hm]
      have hlt : d.toInt < 0 := by rw [BitVec.msb_eq_toInt] at hm; exact of_decide_eq_true hm
      have hr : (d.toInt : ℝ) < 0 := by exact_mod_cast hlt
      have e : (-1 : BitVec 32).toInt = -1 := by decide
      rw [sign_neg hr, e]; norm_num
    · rw [if_neg hm]
      have hge : ¬ d.toInt < 0 := fun h => hm (by rw [BitVec.msb_eq_toInt]; exact decide_eq_true h)
      have hr : (0 : ℝ) < (d.toInt : ℝ) := by exact_mod_cast (lt_of_le_of_ne (not_lt.mp hge) (Ne.symm hne))
      have e : (1 : BitVec 32).toInt = 1 := by decide
      rw [sign_pos hr, e]; norm_num

/-- With both labels within ±2³⁰ their 32-bit difference is the exact difference, so the converted integer sign of the
    difference is the order of the two labels. -/
theorem ord_word (a b : BitVec 32) (ha : -1073741824 ≤ a.toInt ∧ a.toInt < 1073741824)
    (hb : -1073741824 ≤ b.toInt ∧ b.toInt < 1073741824) :
    FloatOps.sitofp (F := Ideal) .f32
        (if IntOp.subi a b = 0 then (0 : BitVec 32) else if (IntOp.subi a b).msb then -1 else 1)
      = Cert.Spec.ord a b := by
  have hd : (a - b).toInt = a.toInt - b.toInt := by
    rw [BitVec.toInt_sub, Int.bmod_def]; norm_num; omega
  unfold Cert.Spec.ord IntOp.subi
  rw [← EReal.coe_sub, ← Int.cast_sub, ← hd, Ideal.sign_coe]
  exact sign_word (a - b)

/-! ## One pair's loss -/

/-- The float literal 1 is the real number one. -/
theorem one32_eq : Ideal.ofBits .f32 0x3F800000#32 = 1 := IdealRules.sign_bit.ideal_onePat .f32

/-- The logistic written out as a quotient is the logistic. -/
theorem logistic_written (d : EReal) :
    Ideal.div (Ideal.ofBits .f32 0x3F800000#32) (Ideal.ofBits .f32 0x3F800000#32 + Ideal.exp (-d)) = Ideal.logistic d := by
  rw [one32_eq]; rfl

/-- The reference's converted integer sign of the gathered labels' difference is the order of the two rows' labels. -/
theorem order_eq (x1 : (⟨S500000, .i32⟩ : BufTy).Contents (Elt Ideal)) (x2 x3 : (⟨S1000000, .i32⟩ : BufTy).Contents (Elt Ideal))
    (ht : ∀ r, -1073741824 ≤ (x1 r).toInt ∧ (x1 r).toInt < 1073741824) (p : Fin 1000000) :
    val_main_v45 (F := Ideal) x1 x2 x3 (ix1 p)
      = Cert.Spec.ord (x1 (ix1 (Cert.Spec.row (x2 (ix1 p))))) (x1 (ix1 (Cert.Spec.row (x3 (ix1 p))))) := by
  rw [val_main_v45_apply]
  show FloatOps.sitofp (F := Ideal) .f32
      (if val_main_v43 (F := Ideal) x1 x2 x3 (ix1 p) = 0 then (0 : BitVec 32)
        else if (val_main_v43 (F := Ideal) x1 x2 x3 (ix1 p)).msb then -1 else 1) = _
  rw [val_main_v43_apply, label_i, label_j]
  exact ord_word _ _ (ht _) (ht _)

/-- The reference's negated weighted sum at pair p is the pair's loss. -/
theorem pair_eq (x0 : (⟨S500000x136, .f32⟩ : BufTy).Contents (Elt Ideal)) (x1 : (⟨S500000, .i32⟩ : BufTy).Contents (Elt Ideal))
    (x2 x3 : (⟨S1000000, .i32⟩ : BufTy).Contents (Elt Ideal)) (x4 : (⟨S136x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x1, .f32⟩ : BufTy).Contents (Elt Ideal))
    (x9 : (⟨S1, .f32⟩ : BufTy).Contents (Elt Ideal))
    (ht : ∀ r, -1073741824 ≤ (x1 r).toInt ∧ (x1 r).toInt < 1073741824) (p : Fin 1000000) :
    val_main_v67 (F := Ideal) x0 x1 x2 x3 x4 x5 x6 x7 x8 x9 (ix1 p)
      = Cert.Spec.pairLoss x0 x4 x5 x6 x7 x8 x9 x1 x2 x3 p := by
  rw [val_main_v67_apply, val_main_v66_apply, val_main_v62_apply, val_main_v65_apply, val_main_v64_apply,
    val_main_v57_apply, val_main_v61_apply, val_main_v55_apply, val_main_v59_apply, val_main_v58_apply,
    val_main_v54_apply, val_main_v52_apply, val_main_v50_apply, val_main_v49_apply, val_main_v48_apply,
    val_main_v46_apply, val_main_v47_apply, val_main_v51_apply, val_main_v53_apply, val_main_v56_apply,
    val_main_v60_apply, val_main_v63_apply, val_main_cst_apply, val_main_cst_7_apply, val_main_cst_8_apply,
    val_main_cst_9_apply, val_main_cst_10_apply, val_main_cst_11_apply, order_eq x1 x2 x3 ht p, score_i, score_j]
  simp only [Ideal.ofBits_def, Ideal.hostNegf_def, Ideal.negf_def, Ideal.addf_def, Ideal.subf_def, Ideal.mulf_def,
    Ideal.maximumf_def, Ideal.hostDivf_def, Ideal.hostUnary_log_def, Ideal.hostUnary_log1p_def, Ideal.hostUnary_exp_def,
    logistic_written]
  rfl

/-! ## The result -/

/-- The reference's result is the sum of the pairs' losses. -/
theorem result_eq (x0 : (⟨S500000x136, .f32⟩ : BufTy).Contents (Elt Ideal)) (x1 : (⟨S500000, .i32⟩ : BufTy).Contents (Elt Ideal))
    (x2 x3 : (⟨S1000000, .i32⟩ : BufTy).Contents (Elt Ideal)) (x4 : (⟨S136x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x1, .f32⟩ : BufTy).Contents (Elt Ideal))
    (x9 : (⟨S1, .f32⟩ : BufTy).Contents (Elt Ideal))
    (ht : ∀ r, -1073741824 ≤ (x1 r).toInt ∧ (x1 r).toInt < 1073741824) :
    Cert.ReferenceIdeal.Read.val_main_v68 (F := Ideal) x0 x1 x2 x3 x4 x5 x6 x7 x8 x9
      = fun _ => Cert.Spec.total x0 x4 x5 x6 x7 x8 x9 x1 x2 x3 := by
  funext i
  rw [val_main_v68_apply, val_main_cst_12_apply, Ideal.ofBits_def, Ideal.ofBits_zero_f32, zero_add]
  exact (Equiv.sum_comp (idxEquiv1 (n := 1000000)).symm _).symm.trans
    (Finset.sum_congr rfl fun p _ => pair_eq x0 x1 x2 x3 x4 x5 x6 x7 x8 x9 ht p)

/-! ## The reference's frame -/

/-- The reference runs to the end with its arguments unchanged: its run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefValue

end
-- ==== Proof.lean ====
/- A learning-to-rank loss: a three-layer perceptron scores every row of a feature matrix; for each sampled pair
   of rows the loss is the binary cross-entropy of the logistic of the score difference against the order of the
   two rows' labels, the logarithms cut off at -100; the result is the sum over the pairs.

   The kernel program scores the rows in blocks of 5000 (its first region), stacks scores and labels into one
   table, reads the pairs' rows out of it on the host, pads the three per-pair vectors to 2^20 entries, and sums the
   masked losses in eight blocks on two cores, each core accumulating in a scratch cell (its second region); the
   result is the two cores' partial sums added. The reference computes the same scores with whole-matrix products,
   reads the pairs' scores and labels with four gathers, and sums the losses in one reduction.

   Both results are the sum of the pairs' losses (Spec.lean's `total`). The statement holds for positions that
   name a row (between -500000 and 499999: a negative position counts from the end) and for labels whose
   32-bit difference does not wrap around (between -2^30 and 2^30 - 1): outside the first range the kernel
   program's table lookup fills with a not-a-number where the reference's clamps; outside the second the
   reference's integer difference of two labels wraps while the kernel program subtracts them as reals.
   No finiteness of the float inputs is used: every step is an identity of sums and of the operations themselves
   on the extended reals. -/
import proofs.«409445_j54322746359987_3_alg».proof.Defs
import proofs.«409445_j54322746359987_3_alg».proof.Proof.Gen.Kernel
import proofs.«409445_j54322746359987_3_alg».proof.Proof.Gen.KernelIdeal
import proofs.«409445_j54322746359987_3_alg».proof.Proof.Gen.ReferenceIdeal
import proofs.«409445_j54322746359987_3_alg».proof.Proof.Gen.Pre_finite_inputs
import proofs.«409445_j54322746359987_3_alg».proof.Proof.K.Run
import proofs.«409445_j54322746359987_3_alg».proof.Proof.KI.Run
import proofs.«409445_j54322746359987_3_alg».proof.Proof.KI.Total
import proofs.«409445_j54322746359987_3_alg».proof.Proof.Ref.Value
import proofs.«409445_j54322746359987_3_alg».proof.Proof.Facts

noncomputable section

namespace Cert.Proof

open Idealize.ShloMosaic Idealize.ShloMosaic.TcCoe Idealize.SL.Sem

/-- The word-level kernel program runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Launch.frame (F := Bits) m ρ

/-- So does its reading at the extended reals. -/
theorem frame_ki : Cert.frame_KernelIdeal (hKernelIdeal := Cert.KernelIdeal.Gen.facts) (hPre_finite_inputs := Cert.Pre_finite_inputs.Gen.facts) :=
  fun m ρ _ => Cert.KernelIdeal.Launch.frame (F := Ideal) m ρ

/-- The idealization rewrote nothing. -/
theorem preserves : Cert.preserves_Kernel_KernelIdeal := trivial

/-- From memories agreeing on the arguments both programs end with the sum of the pairs' losses. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.total
      (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel program: the launch's run, its result read as the total
    exact (θ_run Cert.KernelIdeal.defs _ _).mono
      (fun r h c => ⟨(h c).1.trans (Cert.KernelIdeal.Total.kernel_total m
          (fun c' p => Cert.Facts.pre_idx_i _ _ _ _ _ _ _ _ _ _ (hpre c') p) (fun c' p => Cert.Facts.pre_idx_j _ _ _ _ _ _ _ _ _ _ (hpre c') p) c), (h c).2⟩)
      (Cert.KernelIdeal.Launch.run_value (F := Ideal) m ρ)
  · -- the reference: its generated run, the composed term read as the total, the arguments' agreement rewritten
    refine (θ_run Cert.ReferenceIdeal.defs _ _).mono (fun r h c => ⟨?_, (h c).2⟩) (Cert.ReferenceIdeal.Value.run (F := Ideal) m' ρ')
    rw [(h c).1, Cert.ReferenceIdeal.Read.val_main_v68_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact Cert.ReferenceIdeal.RefValue.result_eq _ _ _ _ _ _ _ _ _ _ (fun r => Cert.Facts.pre_target _ _ _ _ _ _ _ _ _ _ (hpre c) r)

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
